-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S49152x1000 : Shape := ⟨2, ![49152, 1000]⟩
abbrev S16384 : Shape := ⟨1, ![16384]⟩
abbrev S1000x512 : Shape := ⟨2, ![1000, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S49152x1000 : S_.BroadcastsInDim S49152x1000 (![] : Fin 0 → Fin S49152x1000.rank)
  reducesTo_S49152x1000_S_d0_1 : S49152x1000.ReducesTo [0, 1] S_
  bcast_S_S1000x512 : S_.BroadcastsInDim S1000x512 (![] : Fin 0 → Fin S1000x512.rank)
  reducesTo_S1000x512_S_d0_1 : S1000x512.ReducesTo [0, 1] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg5 : IVec S16384 32) (main_v31 : IVec S_ 1) (main_v32 : IVec S16384 32) : IVec S_ 1 :=
  let main_v33 : IVec S16384 1 := cmpi .sge main_arg5 main_v32
  let main_c_13 : IVec S_ 1 := constantI S_ 1 1#1
  let main_v34 : IVec S_ 1 := (fun x v => Host.reduce IntOp.andi x v reducesTo_S16384_S_d0 h_S_) main_v33 main_c_13
  let main_v35 : IVec S_ 1 := andi main_v31 main_v34
  let main_c_14 : IVec S_ 32 := constantI S_ 32 1000#32
  let main_v36 : IVec S16384 32 := broadcastInDim S16384 ![] bcast_S_S16384 main_c_14
  let main_v37 : IVec S16384 1 := cmpi .slt main_arg5 main_v36
  let main_c_15 : IVec S_ 1 := constantI S_ 1 1#1
  let main_v38 : IVec S_ 1 := (fun x v => Host.reduce IntOp.andi x v reducesTo_S16384_S_d0 h_S_) main_v37 main_c_15
  let main_v39 : IVec S_ 1 := andi main_v35 main_v38
  main_v39

def fn_part1 {F : FTy → Type} [FloatOps F] (main_arg4 : IVec S16384 32) (main_arg5 : IVec S16384 32) (main_arg6 : FVec F S1000x512 .f32) (main_v13 : IVec S_ 1) (main_v16 : IVec S49152x1000 1) : IVec S_ 1 :=
  let main_c_5 : IVec S_ 1 := constantI S_ 1 1#1
  let main_v17 : IVec S_ 1 := (fun x v => Host.reduce IntOp.andi x v reducesTo_S49152x1000_S_d0_1 h_S_) main_v16 main_c_5
  let main_v18 : IVec S_ 1 := andi main_v13 main_v17
  let main_v19 : FVec F S1000x512 .f32 := Host.absf main_arg6
  let main_cst_6 : FVec F S_ .f32 := constant S_ .f32 0x7F800000#32
  let main_v20 : FVec F S1000x512 .f32 := broadcastInDim S1000x512 ![] bcast_S_S1000x512 main_cst_6
  let main_v21 : IVec S1000x512 1 := cmpf .olt main_v19 main_v20
  let main_c_7 : IVec S_ 1 := constantI S_ 1 1#1
  let main_v22 : IVec S_ 1 := (fun x v => Host.reduce IntOp.andi x v reducesTo_S1000x512_S_d0_1 h_S_) main_v21 main_c_7
  let main_v23 : IVec S_ 1 := andi main_v18 main_v22
  let main_c_8 : IVec S_ 32 := constantI S_ 32 0#32
  let main_v24 : IVec S16384 32 := broadcastInDim S16384 ![] bcast_S_S16384 main_c_8
  let main_v25 : IVec S16384 1 := cmpi .sge main_arg4 main_v24
  let main_c_9 : IVec S_ 1 := constantI S_ 1 1#1
  let main_v26 : IVec S_ 1 := (fun x v => Host.reduce IntOp.andi x v reducesTo_S16384_S_d0 h_S_) main_v25 main_c_9
  let main_v27 : IVec S_ 1 := andi main_v23 main_v26
  let main_c_10 : IVec S_ 32 := constantI S_ 32 1000#32
  let main_v28 : IVec S16384 32 := broadcastInDim S16384 ![] bcast_S_S16384 main_c_10
  let main_v29 : IVec S16384 1 := cmpi .slt main_arg4 main_v28
  let main_c_11 : IVec S_ 1 := constantI S_ 1 1#1
  let main_v30 : IVec S_ 1 := (fun x v => Host.reduce IntOp.andi x v reducesTo_S16384_S_d0 h_S_) main_v29 main_c_11
  let main_v31 : IVec S_ 1 := andi main_v27 main_v30
  let main_c_12 : IVec S_ 32 := constantI S_ 32 0#32
  let main_v32 : IVec S16384 32 := broadcastInDim S16384 ![] bcast_S_S16384 main_c_12
  fn_part2 (F := F) main_arg5 main_v31 main_v32

def fn {F : FTy → Type} [FloatOps F] (main_arg0 : FVec F S16384x512 .f32) (main_arg1 : FVec F S16384x512 .f32) (main_arg2 : FVec F S16384x512 .f32) (main_arg3 : FVec F S49152x1000 .f32) (main_arg4 : IVec S16384 32) (main_arg5 : IVec S16384 32) (main_arg6 : FVec F S1000x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S49152x1000 .f32 := Host.absf main_arg3
  let main_cst_4 : FVec F S_ .f32 := constant S_ .f32 0x7F800000#32
  let main_v15 : FVec F S49152x1000 .f32 := broadcastInDim S49152x1000 ![] bcast_S_S49152x1000 main_cst_4
  let main_v16 : IVec S49152x1000 1 := cmpf .olt main_v14 main_v15
  fn_part1 (F := F) main_arg4 main_arg5 main_arg6 main_v13 main_v16
-- ==== Kernel.lean ====
abbrev S16384x512 : Shape := ⟨2, ![16384, 512]⟩
abbrev S49152x1000 : Shape := ⟨2, ![49152, 1000]⟩
abbrev S16384 : Shape := ⟨1, ![16384]⟩
abbrev S1000x512 : Shape := ⟨2, ![1000, 512]⟩
abbrev S16384x1 : Shape := ⟨2, ![16384, 1]⟩
abbrev S49152x1 : Shape := ⟨2, ![49152, 1]⟩
abbrev S1x1 : Shape := ⟨2, ![1, 1]⟩
abbrev S1024x1000 : Shape := ⟨2, ![1024, 1000]⟩
abbrev S1024x1 : Shape := ⟨2, ![1024, 1]⟩
abbrev S1024 : Shape := ⟨1, ![1024]⟩
abbrev S1 : Shape := ⟨1, ![1]⟩
abbrev S_ : Shape := ⟨0, ![]⟩
abbrev S512x512 : Shape := ⟨2, ![512, 512]⟩
abbrev S512x1 : Shape := ⟨2, ![512, 1]⟩
abbrev S512x1000 : Shape := ⟨2, ![512, 1000]⟩
abbrev S512 : Shape := ⟨1, ![512]⟩

abbrev nBuf : Space → Nat
  | .hbm => 25
  | .vmem => 21
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S49152x1000, .f32⟩
  | .hbm, ⟨4, _⟩ => ⟨S16384, .i32⟩
  | .hbm, ⟨5, _⟩ => ⟨S16384, .i32⟩
  | .hbm, ⟨6, _⟩ => ⟨S1000x512, .f32⟩
  | .hbm, ⟨7, _⟩ => ⟨S16384x1, .i32⟩
  | .hbm, ⟨8, _⟩ => ⟨S16384x1, .i32⟩
  | .hbm, ⟨9, _⟩ => ⟨S49152x1, .i32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1, .i32⟩
  | .local _ .vmem, ⟨3, _⟩ => ⟨S1024x1, .i32⟩
  | .local _ .vmem, ⟨4, _⟩ => ⟨S1x1, .f32⟩
  | .local _ .vmem, ⟨5, _⟩ => ⟨S1x1, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1000x512, .f32⟩
  | .local _ .vmem, ⟨13, _⟩ => ⟨S512x1, .i32⟩
  | .local _ .vmem, ⟨14, _⟩ => ⟨S512x1, .i32⟩
  | .local _ .vmem, ⟨15, _⟩ => ⟨S512x1, .i32⟩
  | .local _ .vmem, ⟨16, _⟩ => ⟨S512x1, .i32⟩
  | .local _ .vmem, ⟨17, _⟩ => ⟨S1x1, .f32⟩
  | .local _ .vmem, ⟨18, _⟩ => ⟨S1x1, .f32⟩
  | .local _ .vmem, ⟨19, _⟩ => ⟨S1x1, .f32⟩
  | .local _ .vmem, ⟨20, _⟩ => ⟨S1x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg7_0 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem7_0 : DmaSem sig := 17

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v33 : BitVec 1 := Scalar.cmpi .eq arg0 c47_i32
  let v34 : BitVec 32 := Scalar.extui v33
  let c0_i32_12 : BitVec 32 := 0#32
  let v35 : BitVec 1 := Scalar.cmpi .ne v34 c0_i32_12
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v111 : BitVec 1 := Scalar.cmpi .eq arg0 c31_i32
  let v112 : BitVec 32 := Scalar.extui v111
  let c0_i32_48 : BitVec 32 := 0#32
  let v113 : BitVec 1 := Scalar.cmpi .ne v112 c0_i32_48
  v113

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1000x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  shapeCasts_S16384_S16384x1 : S16384.ShapeCasts S16384x1
  concatenates_S16384x1_S16384x1_S16384x1_S49152x1_d0 : Shape.Concatenates [S16384x1, S16384x1, S16384x1] S49152x1 0
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  iota_S1024x1000_d1_w32 : S1024x1000.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  natLt_1_32 : 1 < 32
  reduces_S1024x1_S1 : S1024x1.Reduces [0] S1
  shapeCasts_S1_S1x1 : S1.ShapeCasts S1x1
  shapeCasts_S1x1_S_ : S1x1.ShapeCasts S_
  iota_S512x1000_d1_w32 : S512x1000.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1000 : S512x1.Broadcasts S512x1000
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  reduces_S512x1_S1 : S512x1.Reduces [0] S1
  dot_S512x1000_S1000x512_S512x512_1_0_0_1_n_n_wf : DotDims.WF S512x1000 S1000x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S49152x1000.size a
  hwx0_0 : ∀ i : grid0.Coords, EltTy.bits .f32 = 32 ∨ (Rect.block (s := S49152x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S49152x1.size a
  hwx0_1 : ∀ i : grid0.Coords, EltTy.bits .i32 = 32 ∨ (Rect.block (s := S49152x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S16384x512.size a
  hwx1_0 : ∀ i : grid1.Coords, EltTy.bits .f32 = 32 ∨ (Rect.block (s := S16384x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S16384x512.size a
  hwx1_1 : ∀ i : grid1.Coords, EltTy.bits .f32 = 32 ∨ (Rect.block (s := S16384x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S16384x512.size a
  hwx1_2 : ∀ i : grid1.Coords, EltTy.bits .f32 = 32 ∨ (Rect.block (s := S16384x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S1000x512.size a
  hwx1_3 : ∀ i : grid1.Coords, EltTy.bits .f32 = 32 ∨ (Rect.block (s := S1000x512) S1000x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S16384x1.size a
  hwx1_4 : ∀ i : grid1.Coords, EltTy.bits .i32 = 32 ∨ (Rect.block (s := S16384x1) S512x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S16384x1.size a
  hwx1_5 : ∀ i : grid1.Coords, EltTy.bits .i32 = 32 ∨ (Rect.block (s := S16384x1) S512x1.size (cc1_transform_5 i) (hinb1_5 i)).WholeWords (EltTy.packing .i32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)

variable [Facts₀]

def dot_S512x1000_S1000x512_S512x512_1_0_0_1_n_n : DotDims S512x1000 S1000x512 S512x512 where
  lhsContracting := [1]
  rhsContracting := [0]
  lhsNonContracting := [0]
  rhsNonContracting := [1]
  lhsBatch := []
  rhsBatch := []
  wf := dot_S512x1000_S1000x512_S512x512_1_0_0_1_n_n_wf

abbrev win0_0 : Pipeline.Window sig grid0 :=
  Pipeline.Window.ofSpec (Memref.whole main_arg3) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1000x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7_0) S1x1.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7_1) S1x1.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S16384x512 : Shape := ⟨2, ![16384, 512]⟩
abbrev S49152x1000 : Shape := ⟨2, ![49152, 1000]⟩
abbrev S16384 : Shape := ⟨1, ![16384]⟩
abbrev S1000x512 : Shape := ⟨2, ![1000, 512]⟩
abbrev S49152 : Shape := ⟨1, ![49152]⟩
abbrev S_ : Shape := ⟨0, ![]⟩
abbrev S49152x1 : Shape := ⟨2, ![49152, 1]⟩
abbrev S49152x1x1 : Shape := ⟨3, ![49152, 1, 1]⟩
abbrev S1 : Shape := ⟨1, ![1]⟩
abbrev S1x1x1 : Shape := ⟨3, ![1, 1, 1]⟩
abbrev S16384x1 : Shape := ⟨2, ![16384, 1]⟩

abbrev nBuf : Space → Nat
  | .hbm => 176
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S49152x1000, .f32⟩
  | 4 => ⟨S16384, .i32⟩
  | 5 => ⟨S16384, .i32⟩
  | 6 => ⟨S1000x512, .f32⟩
  | 7 => ⟨S49152, .i32⟩
  | 8 => ⟨S_, .f32⟩
  | 9 => ⟨S49152x1000, .f32⟩
  | 10 => ⟨S49152x1000, .f32⟩
  | 11 => ⟨S_, .f32⟩
  | 12 => ⟨S49152, .f32⟩
  | 13 => ⟨S_, .f32⟩
  | 14 => ⟨S49152, .f32⟩
  | 15 => ⟨S49152, .f32⟩
  | 16 => ⟨S49152x1, .f32⟩
  | 17 => ⟨S49152x1000, .f32⟩
  | 18 => ⟨S49152x1000, .f32⟩
  | 19 => ⟨S49152x1000, .f32⟩
  | 20 => ⟨S_, .f32⟩
  | 21 => ⟨S49152, .f32⟩
  | 22 => ⟨S49152x1, .f32⟩
  | 23 => ⟨S49152x1, .f32⟩
  | 24 => ⟨S49152x1000, .f32⟩
  | 25 => ⟨S49152x1000, .f32⟩
  | 26 => ⟨S49152x1, .i32⟩
  | 27 => ⟨S_, .i32⟩
  | 28 => ⟨S49152x1, .i32⟩
  | 29 => ⟨S49152x1, .i1⟩
  | 30 => ⟨S_, .i32⟩
  | 31 => ⟨S49152x1, .i32⟩
  | 32 => ⟨S49152x1, .i32⟩
  | 33 => ⟨S49152x1, .i32⟩
  | 34 => ⟨S49152x1x1, .i32⟩
  | 35 => ⟨S1, .i32⟩
  | 36 => ⟨S_, .i32⟩
  | 37 => ⟨S49152x1x1, .i32⟩
  | 38 => ⟨S49152x1x1, .i1⟩
  | 39 => ⟨S1x1x1, .i32⟩
  | 40 => ⟨S49152x1x1, .i32⟩
  | 41 => ⟨S49152x1x1, .i1⟩
  | 42 => ⟨S49152x1x1, .i1⟩
  | 43 => ⟨S_, .i1⟩
  | 44 => ⟨S49152x1, .i1⟩
  | 45 => ⟨S49152x1, .f32⟩
  | 46 => ⟨S_, .f32⟩
  | 47 => ⟨S49152x1, .f32⟩
  | 48 => ⟨S49152x1, .f32⟩
  | 49 => ⟨S_, .f32⟩
  | 50 => ⟨S_, .f32⟩
  | 51 => ⟨S_, .f32⟩
  | 52 => ⟨S_, .f32⟩
  | 53 => ⟨S_, .f32⟩
  | 54 => ⟨S_, .i32⟩
  | 55 => ⟨S16384, .i32⟩
  | 56 => ⟨S16384, .i1⟩
  | 57 => ⟨S_, .i32⟩
  | 58 => ⟨S16384, .i32⟩
  | 59 => ⟨S16384, .i32⟩
  | 60 => ⟨S16384, .i32⟩
  | 61 => ⟨S16384x1, .i32⟩
  | 62 => ⟨S16384x512, .f32⟩
  | 63 => ⟨S_, .i32⟩
  | 64 => ⟨S16384, .i32⟩
  | 65 => ⟨S16384, .i1⟩
  | 66 => ⟨S_, .i32⟩
  | 67 => ⟨S16384, .i32⟩
  | 68 => ⟨S16384, .i32⟩
  | 69 => ⟨S16384, .i32⟩
  | 70 => ⟨S16384x1, .i32⟩
  | 71 => ⟨S16384x512, .f32⟩
  | 72 => ⟨S16384x512, .f32⟩
  | 73 => ⟨S_, .f32⟩
  | 74 => ⟨S16384x512, .f32⟩
  | 75 => ⟨S16384x512, .f32⟩
  | 76 => ⟨S16384x512, .f32⟩
  | 77 => ⟨S_, .f32⟩
  | 78 => ⟨S16384, .f32⟩
  | 79 => ⟨S16384, .f32⟩
  | 80 => ⟨S16384x512, .f32⟩
  | 81 => ⟨S_, .f32⟩
  | 82 => ⟨S16384x512, .f32⟩
  | 83 => ⟨S16384x512, .f32⟩
  | 84 => ⟨S16384x512, .f32⟩
  | 85 => ⟨S_, .f32⟩
  | 86 => ⟨S16384, .f32⟩
  | 87 => ⟨S16384, .f32⟩
  | 88 => ⟨S16384x512, .f32⟩
  | 89 => ⟨S_, .f32⟩
  | 90 => ⟨S16384x512, .f32⟩
  | 91 => ⟨S16384x512, .f32⟩
  | 92 => ⟨S16384x512, .f32⟩
  | 93 => ⟨S_, .f32⟩
  | 94 => ⟨S16384, .f32⟩
  | 95 => ⟨S16384, .f32⟩
  | 96 => ⟨S16384x512, .f32⟩
  | 97 => ⟨S_, .f32⟩
  | 98 => ⟨S16384x512, .f32⟩
  | 99 => ⟨S16384x512, .f32⟩
  | 100 => ⟨S16384x512, .f32⟩
  | 101 => ⟨S_, .f32⟩
  | 102 => ⟨S16384, .f32⟩
  | 103 => ⟨S16384, .f32⟩
  | 104 => ⟨S16384x512, .f32⟩
  | 105 => ⟨S_, .f32⟩
  | 106 => ⟨S16384x512, .f32⟩
  | 107 => ⟨S16384x512, .f32⟩
  | 108 => ⟨S16384x512, .f32⟩
  | 109 => ⟨S_, .f32⟩
  | 110 => ⟨S16384, .f32⟩
  | 111 => ⟨S16384, .f32⟩
  | 112 => ⟨S16384x512, .f32⟩
  | 113 => ⟨S_, .f32⟩
  | 114 => ⟨S16384x512, .f32⟩
  | 115 => ⟨S16384x512, .f32⟩
  | 116 => ⟨S16384x512, .f32⟩
  | 117 => ⟨S_, .f32⟩
  | 118 => ⟨S16384, .f32⟩
  | 119 => ⟨S16384, .f32⟩
  | 120 => ⟨S16384, .f32⟩
  | 121 => ⟨S_, .f32⟩
  | 122 => ⟨S16384, .f32⟩
  | 123 => ⟨S16384, .f32⟩
  | 124 => ⟨S_, .f32⟩
  | 125 => ⟨S16384, .f32⟩
  | 126 => ⟨S16384, .i1⟩
  | 127 => ⟨S16384, .f32⟩
  | _ => ⟨S16384x512, .f32⟩

abbrev hbmTy0_1 (i : Nat) : BufTy := match i % 128 with
  | 0 => ⟨S_, .f32⟩
  | 1 => ⟨S16384, .f32⟩
  | 2 => ⟨S16384, .f32⟩
  | 3 => ⟨S_, .f32⟩
  | 4 => ⟨S16384, .f32⟩
  | 5 => ⟨S16384, .f32⟩
  | 6 => ⟨S_, .f32⟩
  | 7 => ⟨S16384, .f32⟩
  | 8 => ⟨S16384, .f32⟩
  | 9 => ⟨S16384, .f32⟩
  | 10 => ⟨S_, .f32⟩
  | 11 => ⟨S16384, .f32⟩
  | 12 => ⟨S16384, .f32⟩
  | 13 => ⟨S_, .f32⟩
  | 14 => ⟨S16384, .f32⟩
  | 15 => ⟨S16384, .i1⟩
  | 16 => ⟨S16384, .f32⟩
  | 17 => ⟨S_, .f32⟩
  | 18 => ⟨S16384, .f32⟩
  | 19 => ⟨S16384, .f32⟩
  | 20 => ⟨S_, .f32⟩
  | 21 => ⟨S16384, .f32⟩
  | 22 => ⟨S16384, .f32⟩
  | 23 => ⟨S16384, .f32⟩
  | 24 => ⟨S_, .f32⟩
  | 25 => ⟨S16384, .f32⟩
  | 26 => ⟨S16384, .f32⟩
  | 27 => ⟨S_, .f32⟩
  | 28 => ⟨S16384, .f32⟩
  | 29 => ⟨S16384, .i1⟩
  | 30 => ⟨S16384, .f32⟩
  | 31 => ⟨S_, .f32⟩
  | 32 => ⟨S16384, .f32⟩
  | 33 => ⟨S16384, .f32⟩
  | 34 => ⟨S_, .f32⟩
  | 35 => ⟨S16384, .f32⟩
  | 36 => ⟨S16384, .f32⟩
  | 37 => ⟨S16384, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v3 : Ref sig .tc := ⟨.hbm, 25, rfl⟩
abbrev main_v4 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v5 : Ref sig .tc := ⟨.hbm, 48, rfl⟩
abbrev main_cst_0 : Ref sig .tc := ⟨.hbm, 49, rfl⟩
abbrev main_v6 : Ref sig .tc := ⟨.hbm, 50, rfl⟩
abbrev main_cst_1 : Ref sig .tc := ⟨.hbm, 51, rfl⟩
abbrev main_v7 : Ref sig .tc := ⟨.hbm, 52, rfl⟩
abbrev main_v8 : Ref sig .tc := ⟨.hbm, 53, rfl⟩
abbrev main_c : Ref sig .tc := ⟨.hbm, 54, rfl⟩
abbrev main_v9 : Ref sig .tc := ⟨.hbm, 55, rfl⟩
abbrev main_v10 : Ref sig .tc := ⟨.hbm, 56, rfl⟩
abbrev main_c_2 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_c_3 : Ref sig .tc := ⟨.hbm, 63, rfl⟩
abbrev main_v16 : Ref sig .tc := ⟨.hbm, 64, rfl⟩
abbrev main_v17 : Ref sig .tc := ⟨.hbm, 65, rfl⟩
abbrev main_c_4 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_cst_5 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_cst_6 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst_7 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_cst_8 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_cst_9 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_cst_10 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_cst_11 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_cst_12 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_cst_13 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_cst_14 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_cst_15 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_cst_16 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_call2_cst : Ref sig .tc := ⟨.hbm, 121, rfl⟩
abbrev main_call2_v0 : Ref sig .tc := ⟨.hbm, 122, rfl⟩
abbrev main_v60 : Ref sig .tc := ⟨.hbm, 123, rfl⟩
abbrev main_cst_17 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_18 : Ref sig .tc := ⟨.hbm, 128, rfl⟩
abbrev main_v64 : Ref sig .tc := ⟨.hbm, 129, rfl⟩
abbrev main_v65 : Ref sig .tc := ⟨.hbm, 130, rfl⟩
abbrev main_call3_cst : Ref sig .tc := ⟨.hbm, 131, rfl⟩
abbrev main_call3_v0 : Ref sig .tc := ⟨.hbm, 132, rfl⟩
abbrev main_v66 : Ref sig .tc := ⟨.hbm, 133, rfl⟩
abbrev main_cst_19 : Ref sig .tc := ⟨.hbm, 134, rfl⟩
abbrev main_call4_v0 : Ref sig .tc := ⟨.hbm, 135, rfl⟩
abbrev main_v67 : Ref sig .tc := ⟨.hbm, 136, rfl⟩
abbrev main_v68 : Ref sig .tc := ⟨.hbm, 137, rfl⟩
abbrev main_call5_cst : Ref sig .tc := ⟨.hbm, 138, rfl⟩
abbrev main_call5_v0 : Ref sig .tc := ⟨.hbm, 139, rfl⟩
abbrev main_v69 : Ref sig .tc := ⟨.hbm, 140, rfl⟩
abbrev main_cst_20 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_call6_cst : Ref sig .tc := ⟨.hbm, 145, rfl⟩
abbrev main_call6_v0 : Ref sig .tc := ⟨.hbm, 146, rfl⟩
abbrev main_v73 : Ref sig .tc := ⟨.hbm, 147, rfl⟩
abbrev main_cst_21 : Ref sig .tc := ⟨.hbm, 148, rfl⟩
abbrev main_call7_v0 : Ref sig .tc := ⟨.hbm, 149, rfl⟩
abbrev main_v74 : Ref sig .tc := ⟨.hbm, 150, rfl⟩
abbrev main_v75 : Ref sig .tc := ⟨.hbm, 151, rfl⟩
abbrev main_call8_cst : Ref sig .tc := ⟨.hbm, 152, rfl⟩
abbrev main_call8_v0 : Ref sig .tc := ⟨.hbm, 153, rfl⟩
abbrev main_v76 : Ref sig .tc := ⟨.hbm, 154, rfl⟩
abbrev main_cst_22 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_call9_cst : Ref sig .tc := ⟨.hbm, 159, rfl⟩
abbrev main_call9_v0 : Ref sig .tc := ⟨.hbm, 160, rfl⟩
abbrev main_v80 : Ref sig .tc := ⟨.hbm, 161, rfl⟩
abbrev main_cst_23 : Ref sig .tc := ⟨.hbm, 162, rfl⟩
abbrev main_call10_v0 : Ref sig .tc := ⟨.hbm, 163, rfl⟩
abbrev main_v81 : Ref sig .tc := ⟨.hbm, 164, rfl⟩
abbrev main_v82 : Ref sig .tc := ⟨.hbm, 165, rfl⟩
abbrev main_cst_24 : Ref sig .tc := ⟨.hbm, 166, rfl⟩
abbrev main_v83 : Ref sig .tc := ⟨.hbm, 167, rfl⟩
abbrev main_cst_25 : Ref sig .tc := ⟨.hbm, 168, rfl⟩
abbrev main_v84 : Ref sig .tc := ⟨.hbm, 169, rfl⟩
abbrev main_cst_26 : Ref sig .tc := ⟨.hbm, 170, rfl⟩
abbrev main_v85 : Ref sig .tc := ⟨.hbm, 171, rfl⟩
abbrev main_v86 : Ref sig .tc := ⟨.hbm, 172, rfl⟩
abbrev main_cst_27 : Ref sig .tc := ⟨.hbm, 173, rfl⟩
abbrev main_v87 : Ref sig .tc := ⟨.hbm, 174, rfl⟩
abbrev main_v88 : Ref sig .tc := ⟨.hbm, 175, rfl⟩

abbrev nD : Nat := 1
abbrev τ : Topo := Topo.v7x

variable {F : FTy → Type} [FloatOps F]

class Facts₀ : Prop where
  concatenates_S16384_S16384_S16384_S49152_d0 : Shape.Concatenates [S16384, S16384, S16384] S49152 0
  bcast_S_S49152x1000 : S_.BroadcastsInDim S49152x1000 (![] : Fin 0 → Fin S49152x1000.rank)
  reducesTo_S49152x1000_S49152_d1 : S49152x1000.ReducesTo [1] S49152
  h_S_ : 0 < S_.numel
  bcast_S_S49152 : S_.BroadcastsInDim S49152 (![] : Fin 0 → Fin S49152.rank)
  bcast_S49152_S49152x1_0 : S49152.BroadcastsInDim S49152x1 (![0] : Fin 1 → Fin S49152x1.rank)
  bcast_S49152x1_S49152x1000_0_1 : S49152x1.BroadcastsInDim S49152x1000 (![0, 1] : Fin 2 → Fin S49152x1000.rank)
  bcast_S_S49152x1 : S_.BroadcastsInDim S49152x1 (![] : Fin 0 → Fin S49152x1.rank)
  shapeCasts_S49152x1_S49152x1x1 : S49152x1.ShapeCasts S49152x1x1
  bcast_S_S49152x1x1 : S_.BroadcastsInDim S49152x1x1 (![] : Fin 0 → Fin S49152x1x1.rank)
  bcast_S1_S1x1x1_2 : S1.BroadcastsInDim S1x1x1 (![2] : Fin 1 → Fin S1x1x1.rank)
  bcast_S1x1x1_S49152x1x1_0_1_2 : S1x1x1.BroadcastsInDim S49152x1x1 (![0, 1, 2] : Fin 3 → Fin S49152x1x1.rank)
  reducesTo_S49152x1x1_S49152x1_d2 : S49152x1x1.ReducesTo [2] S49152x1
  reducesTo_S49152x1_S_d0_1 : S49152x1.ReducesTo [0, 1] S_
  bcast_S_S16384 : S_.BroadcastsInDim S16384 (![] : Fin 0 → Fin S16384.rank)
  bcast_S16384_S16384x1_0 : S16384.BroadcastsInDim S16384x1 (![0] : Fin 1 → Fin S16384x1.rank)
  bcast_S_S16384x512 : S_.BroadcastsInDim S16384x512 (![] : Fin 0 → Fin S16384x512.rank)
  reducesTo_S16384x512_S16384_d1 : S16384x512.ReducesTo [1] S16384
  reducesTo_S16384_S_d0 : S16384.ReducesTo [0] S_
  gather_S49152x1000_S49152x1x1_S49152x1_n_1_0_0_1_2_11_wf : GatherDims.WF S49152x1000 S49152x1x1 S49152x1 [] [1] [0] [1] [0] 2 ![1, 1]
  gather_S1000x512_S16384x1_S16384x512_1_0_n_n_0_1_1512_wf : GatherDims.WF S1000x512 S16384x1 S16384x512 [1] [0] [] [0] [] 1 ![1, 512]

variable [Facts₀]

def gather_S49152x1000_S49152x1x1_S49152x1_n_1_0_0_1_2_11 : GatherDims S49152x1000 S49152x1x1 S49152x1 where
  offsetDims := []
  collapsedSliceDims := [1]
  operandBatchingDims := [0]
  startIndicesBatchingDims := [0]
  startIndexMap := [1]
  indexVectorDim := 2
  sliceSizes := ![1, 1]
  wf := gather_S49152x1000_S49152x1x1_S49152x1_n_1_0_0_1_2_11_wf
def gather_S1000x512_S16384x1_S16384x512_1_0_n_n_0_1_1512 : GatherDims S1000x512 S16384x1 S16384x512 where
  offsetDims := [1]
  collapsedSliceDims := [0]
  operandBatchingDims := []
  startIndicesBatchingDims := []
  startIndexMap := [0]
  indexVectorDim := 1
  sliceSizes := ![1, 512]
  wf := gather_S1000x512_S16384x1_S16384x512_1_0_n_n_0_1_1512_wf

class Facts : Prop extends Facts₀ where

variable [Facts]
-- ==== Proof.KBR0Defs.lean ====
/-
  Region 0 (the streamed log-softmax sum), the quantities its frame and its value are both stated over, at any
  float instance: the block of each window at a grid point, read off the arrays as the region finds them; and the
  running sum the kernel keeps in its (1,1) scratch — after point 0 the first tile's partial sum added to the
  zero the point stored, after point n+1 the tile's partial sum added to what point n left.
-/
import proofs.«414664_j17102559773292_3_alg».proof.Proof.Gen.Kernel.Launch
import proofs.«414664_j17102559773292_3_alg».proof.Proof.Gen.Kernel.Skeleton
import proofs.«414664_j17102559773292_3_alg».proof.Proof.Gen.Kernel.Points
import Idealize.ShloMosaic.Lib.Pipeline.FrameBody

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]
variable (V : (c : Dev nD) → (b : Ref sig .tc) → Buf (Elt F) ((c : Thread nD τ).loc b))

/-- Window `w`'s block at point `t` of region 0, read off its array at the region's entry contents `V`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The 1024 rows of logits the point reads, at their literal type. -/
abbrev xblk0 (c : Dev nD) (t : Fin cfg0.N) : Vec F S1024x1000 .f32 := iblk0 V c 0 t
/-- The 1024 label words the point reads, as a column. -/
abbrev lblk0 (c : Dev nD) (t : Fin cfg0.N) : Vec F S1024x1 .i32 := iblk0 V c 1 t

/-- What the scratch holds after the body at position `n`: the tile's partial sum added to what the point before
    left, the first point adding to the zero it has just stored. -/
def acc0 (c : Dev nD) : (n : ℕ) → n < cfg0.N → Vec F S1x1 .f32
  | 0, h => k0_pay2 (xblk0 V c ⟨0, h⟩) (lblk0 V c ⟨0, h⟩) (k0_pay1 (F := F))
  | n + 1, h => k0_pay2 (xblk0 V c ⟨n + 1, h⟩) (lblk0 V c ⟨n + 1, h⟩) (acc0 c n (Nat.lt_of_succ_lt h))

theorem acc0_zero (c : Dev nD) (h : 0 < cfg0.N) :
    acc0 V c 0 h = k0_pay2 (xblk0 V c ⟨0, h⟩) (lblk0 V c ⟨0, h⟩) (k0_pay1 (F := F)) := rfl

theorem acc0_succ (c : Dev nD) (n : ℕ) (h : n + 1 < cfg0.N) :
    acc0 V c (n + 1) h = k0_pay2 (xblk0 V c ⟨n + 1, h⟩) (lblk0 V c ⟨n + 1, h⟩) (acc0 V c n (Nat.lt_of_succ_lt h)) := rfl

end Cert.Kernel.Hand

end
-- ==== Proof.KBR0Frame.lean ====
/-
  Region 0 as a pipeline with a carried running sum, at any float instance: the invariant between grid points holds
  the (1,1) scratch at the sum so far (at anything before the first point, which stores a zero into it first); the
  body at a point adds the tile's partial sum; the output window is stored at the last point only, with the final
  sum, and is idle elsewhere. From this: the body obligation at every point, the invariant's entry and exit, and the
  output array after the region.
-/
import proofs.«414664_j17102559773292_3_alg».proof.Proof.KBR0Defs
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The running sum's scratch, as the kernel is handed it. -/
abbrev scM0 : Memref sig .tc .vmem S1x1 .f32 := Memref.whole cc0_scratch0

/-- The invariant before position `n`: before the first point whatever the launch hands the region; afterwards the
    scratch at the sum the point before left, the other scoped buffers unopened, the generator register at some state. -/
def Phi0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

/-- Region 0's proof data on core `c`: the arrays as the region finds them; each input's buffer left at its block;
    the output's buffer at the running sum (consulted at the last point only: elsewhere the window is idle). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The launch's invariant with the scratch split out of the scoped rest. -/
theorem PhiA0_eq (c : Dev nD) :
    (Pipeline.ΦA spec0 c : sProp 𝕄)
      = iprop((∃ d, owns (c : Thread nD τ) scM0 fullShare d)
          ∗ Pipeline.scopedRestBut (Ix := Unit) (Name := ℕ) (U := UR sig nD τ) (Lvl := ℕ) (Val := Elt F) spec0 c [cc0_scratch0]
          ∗ (∃ r, prngReg c r)) := by
  unfold Pipeline.ΦA
  rw [Pipeline.scopedRest_split_of_list spec0 c [cc0_scratch0] (by decide) (by decide)]
  simp only [Idealize.SL.BI.bigSepL_singleton, scM0, owns_whole]
  exact _root_.Idealize.SL.BI.Entails.antisymm _root_.Idealize.SL.BI.sep_assoc _root_.Idealize.SL.BI.sep_assoc'

/-- The invariant before the first point is the launch's. -/
theorem Phi0_zero (c : Dev nD) (n : ℕ) (h : n ≤ cfg0.N) (hz : n = 0) : Phi0 V c n h = Pipeline.ΦA spec0 c := by
  subst hz; rfl

/-- The invariant after point `n`: the scratch at that point's sum. -/
theorem Phi0_succ (c : Dev nD) (n : ℕ) (hn : n < cfg0.N) :
    Phi0 V c (n + 1) hn = iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r)) := rfl

/-- The invariant before a point that is not the first: the scratch at the sum the point before left. -/
theorem Phi0_pos (c : Dev nD) (n : ℕ) (h : n ≤ cfg0.N) (hz : n ≠ 0) :
    Phi0 V c n h = iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-- What the launch hands the region is the invariant before the first point. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]

/-- After the last point the invariant gives the launch's back, the sum's name forgotten. -/
theorem hout0 (c : Dev nD) : (dat0 V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 48 := N_0; omega), PhiA0_eq]
  iintro ⟨HS, HR, Hg⟩
  isplitl [HS]; · iexists _; iexact HS
  isplitl [HR]; · iexact HR
  iexact Hg

/-! ## The body's two conditions, in closed form over the grid -/

/-- The condition of the body's first conditional (the reset of the running sum), from the grid coordinate. -/
abbrev cond0_1 (i : grid0.Coords) : Prop :=
  (Scalar.cmpi .ne (Scalar.extui (Scalar.cmpi .eq (BitVec.ofNat 32 (i 0).val) 0#32)) 0#32) = 1#1
/-- It holds at the first point only. -/
theorem hcond0_1 : ∀ t : Fin cfg0.N, cond0_1 (grid0.coords t) ↔ t.val % 48 = 0 :=
  (by decide +kernel : ∀ t : Fin grid0.N, cond0_1 (grid0.coords t) ↔ t.val % 48 = 0)

/-- The condition of the body's second conditional (the publication of the sum), from the grid coordinate. -/
abbrev cond0_2 (i : grid0.Coords) : Prop := k0_cond2 i = 1#1
/-- It holds at the last point only. -/
theorem hcond0_2 : ∀ t : Fin cfg0.N, cond0_2 (grid0.coords t) ↔ t.val % 48 = 47 :=
  (by decide +kernel : ∀ t : Fin grid0.N, cond0_2 (grid0.coords t) ↔ t.val % 48 = 47)

/-! ## The kernel body on any whole staging memrefs, case by case -/

/-- The zero offsets of a rank-2 access, as the constant function. -/
theorem zz2 : (![0, 0] : Fin 2 → Nat) = fun _ => 0 := by
  funext a; fin_cases a <;> rfl

/-- A list of stores whose last is the whole (1,1) block covers it. -/
theorem cover0_S (p : Vec F S1x1 .f32) (L : List (View.Piece (Elt F) S1x1 .f32)) (y : S1x1.Idx) :
    ∃ pc ∈ ((⟨Rect.unit ![0, 0] S1x1.size inb_S1x1_S1x1_0_0, p⟩ : View.Piece (Elt F) S1x1 .f32) :: L), y ∈ pc.1.set :=
  ⟨_, List.mem_cons_self, View.mem_set_unit_zero zz2 inb_S1x1_S1x1_0_0 y⟩

set_option maxHeartbeats 1000000 in
/-- A middle point: neither conditional is taken; the body adds the tile's partial sum to the scratch and leaves the
    inputs' buffers as they were. -/
theorem kernel0_mid (c : Dev nD) (E : Set ℕ) (i : grid0.Coords)
    (arg1 : Memref sig .tc .vmem S1024x1000 .f32) (harg1 : arg1.IsWhole)
    (arg2 : Memref sig .tc .vmem S1024x1 .i32) (harg2 : arg2.IsWhole)
    (arg3 : Memref sig .tc .vmem S1x1 .f32) (harg3 : arg3.IsWhole)
    (arg4 : Memref sig .tc .vmem S1x1 .f32) (harg4 : arg4.IsWhole)
    (hc1 : ¬cond0_1 i) (hc2 : ¬cond0_2 i)
    (x0 : Vec F S1024x1000 .f32) (x1 : Vec F S1024x1 .i32) (s : Vec F S1x1 .f32) (K : PUnit → sProp 𝕄) :
    iprop(owns (c : Thread nD τ) arg1 fullShare x0 ∗ owns (c : Thread nD τ) arg2 fullShare x1
        ∗ owns (c : Thread nD τ) arg4 fullShare s
        ∗ (iprop(owns (c : Thread nD τ) arg1 fullShare x0 ∗ owns (c : Thread nD τ) arg2 fullShare x1
            ∗ owns (c : Thread nD τ) arg4 fullShare (k0_pay2 x0 x1 s)) -∗ K ⟨⟩))
      ⊢ wp frame (wpE (defs₀ (F := F)) Variants.none c none) E
          (cc0__softmax_loss_kernel i arg1 harg1 arg2 harg2 arg3 harg3 arg4 harg4) K := by
  simp only [cc0__softmax_loss_kernel_eq_skeleton]; unfold cc0__softmax_loss_kernel_skel
  unfold owns
  iintro ⟨⟨%f0, %hf0, H0⟩, ⟨%f1, %hf1, H1⟩, ⟨%f4, %hf4, H4⟩, Hk⟩
  obtain rfl := harg1.eq_unread hf0; obtain rfl := harg2.eq_unread hf1; obtain rfl := harg4.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H4
  ipureintro
  rw [View.read_writes_eq_canon _ _ _ (cover0_S _ _),
    View.canon_unit_zero zz2]
  simp only [View.readAt_eq_ld, harg1.read_unread, harg2.read_unread, harg4.read_unread,
    View.ld_unit_zero (S := S1024x1000) zz2, View.ld_unit_zero (S := S1024x1) zz2, View.ld_unit_zero (S := S1x1) zz2]

set_option maxHeartbeats 1000000 in
/-- The first point: the first conditional is taken and stores a zero into the scratch, whatever it held; the body then
    adds the tile's partial sum to that zero. -/
theorem kernel0_first (c : Dev nD) (E : Set ℕ) (i : grid0.Coords)
    (arg1 : Memref sig .tc .vmem S1024x1000 .f32) (harg1 : arg1.IsWhole)
    (arg2 : Memref sig .tc .vmem S1024x1 .i32) (harg2 : arg2.IsWhole)
    (arg3 : Memref sig .tc .vmem S1x1 .f32) (harg3 : arg3.IsWhole)
    (arg4 : Memref sig .tc .vmem S1x1 .f32) (harg4 : arg4.IsWhole)
    (hc1 : cond0_1 i) (hc2 : ¬cond0_2 i)
    (x0 : Vec F S1024x1000 .f32) (x1 : Vec F S1024x1 .i32) (K : PUnit → sProp 𝕄) :
    iprop(owns (c : Thread nD τ) arg1 fullShare x0 ∗ owns (c : Thread nD τ) arg2 fullShare x1
        ∗ (∃ s, owns (c : Thread nD τ) arg4 fullShare s)
        ∗ (iprop(owns (c : Thread nD τ) arg1 fullShare x0 ∗ owns (c : Thread nD τ) arg2 fullShare x1
            ∗ owns (c : Thread nD τ) arg4 fullShare (k0_pay2 x0 x1 (k0_pay1 (F := F)))) -∗ K ⟨⟩))
      ⊢ wp frame (wpE (defs₀ (F := F)) Variants.none c none) E
          (cc0__softmax_loss_kernel i arg1 harg1 arg2 harg2 arg3 harg3 arg4 harg4) K := by
  simp only [cc0__softmax_loss_kernel_eq_skeleton]; unfold cc0__softmax_loss_kernel_skel
  unfold owns
  iintro ⟨⟨%f0, %hf0, H0⟩, ⟨%f1, %hf1, H1⟩, ⟨%s, %f4, -, H4⟩, Hk⟩
  obtain rfl := harg1.eq_unread hf0; obtain rfl := harg2.eq_unread hf1
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H4
  ipureintro
  sl_unfold_words
  rw [View.read_writes_eq_canon _ _ _ (cover0_S _ _), View.canon_cons_unit_zero zz2]
  simp only [View.readAt_eq_ld, harg1.read_unread, harg2.read_unread, View.readCov_unit_zero (S := S1x1) _ zz2,
    View.ld_unit_zero (S := S1024x1000) zz2, View.ld_unit_zero (S := S1024x1) zz2]

set_option maxHeartbeats 1000000 in
/-- The last point: the body adds the tile's partial sum to the scratch, then the second conditional copies the scratch
    into the output's buffer, whatever that held. -/
theorem kernel0_last (c : Dev nD) (E : Set ℕ) (i : grid0.Coords)
    (arg1 : Memref sig .tc .vmem S1024x1000 .f32) (harg1 : arg1.IsWhole)
    (arg2 : Memref sig .tc .vmem S1024x1 .i32) (harg2 : arg2.IsWhole)
    (arg3 : Memref sig .tc .vmem S1x1 .f32) (harg3 : arg3.IsWhole)
    (arg4 : Memref sig .tc .vmem S1x1 .f32) (harg4 : arg4.IsWhole)
    (hc1 : ¬cond0_1 i) (hc2 : cond0_2 i)
    (x0 : Vec F S1024x1000 .f32) (x1 : Vec F S1024x1 .i32) (s : Vec F S1x1 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare s
        ∗ (iprop(owns (c : Thread nD τ) arg1 fullShare x0 ∗ owns (c : Thread nD τ) arg2 fullShare x1
            ∗ owns (c : Thread nD τ) arg3 fullShare (k0_pay2 x0 x1 s)
            ∗ owns (c : Thread nD τ) arg4 fullShare (k0_pay2 x0 x1 s)) -∗ K ⟨⟩))
      ⊢ wp frame (wpE (defs₀ (F := F)) Variants.none c none) E
          (cc0__softmax_loss_kernel i arg1 harg1 arg2 harg2 arg3 harg3 arg4 harg4) K := by
  simp only [cc0__softmax_loss_kernel_eq_skeleton]; unfold cc0__softmax_loss_kernel_skel
  unfold owns
  iintro ⟨⟨%f0, %hf0, H0⟩, ⟨%f1, %hf1, H1⟩, ⟨%d, %f3, -, H3⟩, ⟨%f4, %hf4, H4⟩, Hk⟩
  obtain rfl := harg1.eq_unread hf0; obtain rfl := harg2.eq_unread hf1; obtain rfl := harg4.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    sl_unfold_words
    rw [View.read_writes_eq_canon _ _ _ (cover0_S _ _), View.canon_unit_zero zz2]
    simp only [View.readAt_eq_ld, harg1.read_unread, harg2.read_unread, harg4.read_unread,
      View.readCov_unit_zero (S := S1x1) _ zz2,
      View.ld_unit_zero (S := S1024x1000) zz2, View.ld_unit_zero (S := S1024x1) zz2, View.ld_unit_zero (S := S1x1) zz2]
  iexists _; isplitr
  swap; · iexact H4
  ipureintro
  sl_unfold_words
  rw [View.read_writes_eq_canon _ _ _ (cover0_S _ _),
    View.canon_unit_zero zz2]
  simp only [View.readAt_eq_ld, harg1.read_unread, harg2.read_unread, harg4.read_unread,
    View.ld_unit_zero (S := S1024x1000) zz2, View.ld_unit_zero (S := S1024x1) zz2, View.ld_unit_zero (S := S1x1) zz2]

/-! ## The proof data opened -/

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-- An input window's current buffer holds its block at every point, fetched there or not: the window is uncut, never
    idle, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Where the windows are idle, decided over the grid -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the output window is idle and is not written back. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
/-- At the last point it is live. -/
theorem liveAt0_2 : ∀ t : Fin cfg0.N, cond0_2 (grid0.coords t) → cfg0.idle 2 (grid0.coords t) = false := by decide +kernel

/-! ## The running sum at a point, by the point's position -/

theorem acc0_first (c : Dev nD) (t : Fin cfg0.N) (hz : t.val = 0) :
    acc0 V c t.val t.isLt = k0_pay2 (xblk0 V c t) (lblk0 V c t) (k0_pay1 (F := F)) := by
  obtain ⟨n, hn⟩ := t
  cases n with
  | zero => rfl
  | succ n => exact absurd hz (Nat.succ_ne_zero n)

theorem acc0_pos (c : Dev nD) (t : Fin cfg0.N) (hz : t.val ≠ 0) :
    acc0 V c t.val t.isLt
      = k0_pay2 (xblk0 V c t) (lblk0 V c t) (acc0 V c (t.val - 1) (Nat.lt_of_le_of_lt (Nat.sub_le _ _) t.isLt)) := by
  obtain ⟨n, hn⟩ := t
  cases n with
  | zero => exact absurd rfl hz
  | succ n => rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the position says which of the three cases the point
    is in. At the first point the invariant hands the scratch at anything and takes it back at the first sum; at a later
    point it hands it at the sum the point before left and takes it back at this point's. Away from the last point the
    output's buffer is handed back as found; at the last it is taken at anything and returned at the final sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 48 := lt_of_lt_of_eq t.isLt (show cfg0.N = 48 from N_0)
  by_cases h1 : t.val % 48 = 0
  · have h2 : ¬t.val % 48 = 47 := by omega
    have hz : t.val = 0 := by omega
    rw [Dat.leavesExact_idle (dat0 V c) 2 t (idleAt0_2 t (fun h => h2 ((hcond0_2 t).mp h))) (noFlush0_2 t (fun h => h2 ((hcond0_2 t).mp h)))]
    rw [Phi0_castSucc V c t, Phi0_zero V c _ _ hz, PhiA0_eq, acc0_first V c t hz]
    iintro ⟨⟨⟨%s, HS⟩, HR, Hg⟩, Ho, ⟨%d0, H0⟩, ⟨%d1, H1⟩, ⟨%d2, H2⟩⟩
    iapply (kernel0_first c Set.univ (grid0.coords t) _ _ _ _ _ _ _ _ ((hcond0_1 t).mpr h1) (fun h => h2 ((hcond0_2 t).mp h))
      (xblk0 V c t) (lblk0 V c t) _)
    isplitl [H0]; · iexact H0
    isplitl [H1]; · iexact H1
    isplitl [HS]; · iexists _; iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · have hz : t.val ≠ 0 := by omega
    by_cases h2 : t.val % 48 = 47
    · rw [show (dat0 V c).leavesExact 2 t = owns (c : Thread nD τ) (st0_2 t) fullShare ((dat0 V c).after 2 t) from by
        unfold Dat.leavesExact; rw [liveAt0_2 t ((hcond0_2 t).mpr h2)], after0_2]
      rw [Phi0_castSucc V c t, Phi0_pos V c _ _ hz, acc0_pos V c t hz]
      iintro ⟨⟨HS, HR, Hg⟩, Ho, ⟨%d0, H0⟩, ⟨%d1, H1⟩, ⟨%d2, H2⟩⟩
      iapply (kernel0_last c Set.univ (grid0.coords t) _ _ _ _ _ _ _ _ (fun h => h1 ((hcond0_1 t).mp h)) ((hcond0_2 t).mpr h2)
        (xblk0 V c t) (lblk0 V c t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat0 V c) 2 t (idleAt0_2 t (fun h => h2 ((hcond0_2 t).mp h))) (noFlush0_2 t (fun h => h2 ((hcond0_2 t).mp h)))]
      rw [Phi0_castSucc V c t, Phi0_pos V c _ _ hz, acc0_pos V c t hz]
      iintro ⟨⟨HS, HR, Hg⟩, Ho, ⟨%d0, H0⟩, ⟨%d1, H1⟩, ⟨%d2, H2⟩⟩
      iapply (kernel0_mid c Set.univ (grid0.coords t) _ _ _ _ _ _ _ _ (fun h => h1 ((hcond0_1 t).mp h)) (fun h => h2 ((hcond0_2 t).mp h))
        (xblk0 V c t) (lblk0 V c t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The body obligation at every point of region 0. -/
theorem body_obligation0 (c : Dev nD) :
    BodyObligation (dat0 (F := F) V c) (defs₀ (F := F)) Variants.none () Set.univ := by
  intro t
  rw [bigSep_W0, bigSep_W0]
  exact sound_body0 V c t

/-! ## The output array after the region -/

/-- The last point of the grid. -/
abbrev tLast0 : Fin cfg0.N := ⟨47, by decide⟩

/-- The final sum, as contents of the output array: its one block is the whole array. -/
abbrev res0 (c : Dev nD) : Buf (Elt F) ((c : Thread nD τ).loc main_v3) := acc0 V c 47 (by decide)

/-- The output window's block sits at the array's origin: its offsets at the last point vanish. -/
theorem off0_2 : (fun a => win0_2.index tLast0 a * main_v3.ty.shape.size a) = fun _ => 0 :=
  funext fun a => by fin_cases a <;> decide

/-- The one write-back, at the last point, writes the final sum: the block read through zero offsets is the array. -/
theorem flushed0_eq (c : Dev nD) (t : Fin cfg0.N) (hf : (cfg0.win 2).flush t = true) :
    (dat0 V c).flushed 2 t = ((cfg0.win 2).blk t).view.read (Elt F) (res0 V c) := by
  have hN : cfg0.N = 48 := N_0
  have h47 : t.val = 47 := by have := (flush0_2 t).mp hf; have := t.isLt; omega
  obtain rfl : t = tLast0 := Fin.ext h47
  show (cfg0.win 2).cut (grid0.coords tLast0) ((dat0 V c).after 2 tLast0) = _
  rw [after0_2]
  exact (Memref.read_access_unit_zero (Elt F) main_v3 off0_2 (fun a => by rw [congrFun off0_2 a]; simp) (res0 V c)).symm

/-- The output array after the region: the running sum after the last point. -/
theorem arrAt0_out (c : Dev nD) : (dat0 V c).arrAt 2 cfg0.N = acc0 V c 47 (by decide) := by
  refine (dat0 V c).arrAt_eq_of_cover 2 (res0 V c) (flushed0_eq V c) fun i => ⟨tLast0, (flush0_2 tLast0).mpr rfl, ?_⟩
  show i ∈ ((View.whole main_v3).slice (win0_2.rect tLast0)).set
  rw [View.set_slice_whole]
  exact View.mem_set_unit_zero off0_2 _ i

end Cert.Kernel.Hand

end
-- ==== Proof.KBR1Defs.lean ====
/-
  Region 1 (the streamed triplet and center sums), the quantities its frame and its value are both stated over, at
  any float instance: each window's block at a grid point; the two (1,1) running sums the kernel keeps in scratch —
  the center terms c1 + c2 and the triplet term t of the tile's 512 rows, each added to what the point before left,
  the first point adding to the zero it has just stored.
-/
import proofs.«414664_j17102559773292_3_alg».proof.Proof.Gen.Kernel.Launch
import proofs.«414664_j17102559773292_3_alg».proof.Proof.Gen.Kernel.Skeleton
import proofs.«414664_j17102559773292_3_alg».proof.Proof.Gen.Kernel.Points
import Idealize.ShloMosaic.Lib.Pipeline.FrameBody

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]
variable (V : (c : Dev nD) → (b : Ref sig .tc) → Buf (Elt F) ((c : Thread nD τ).loc b))

/-- Window `w`'s block at point `t` of region 1, read off its array at the region's entry contents `V`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The point's 512 anchor rows, positive rows, negative rows; the whole exemplar table; the two label columns. -/
abbrev ablk1 (c : Dev nD) (t : Fin cfg1.N) : Vec F S512x512 .f32 := iblk1 V c 0 t
abbrev pblk1 (c : Dev nD) (t : Fin cfg1.N) : Vec F S512x512 .f32 := iblk1 V c 1 t
abbrev nblk1 (c : Dev nD) (t : Fin cfg1.N) : Vec F S512x512 .f32 := iblk1 V c 2 t
abbrev eblk1 (c : Dev nD) (t : Fin cfg1.N) : Vec F S1000x512 .f32 := iblk1 V c 3 t
abbrev lablk1 (c : Dev nD) (t : Fin cfg1.N) : Vec F S512x1 .i32 := iblk1 V c 4 t
abbrev lnblk1 (c : Dev nD) (t : Fin cfg1.N) : Vec F S512x1 .i32 := iblk1 V c 5 t

/-- The distance offset the kernel adds inside every pairwise distance, and its zero, as it spells them. -/
abbrev eps1 : F .f32 := Scalar.ofBits .f32 0x358637BD#32
abbrev zero1 : F .f32 := Scalar.ofBits .f32 0x00000000#32

/-- One point's update of the center sum: the tile's Σ (c1 + c2) added to `a`. -/
def stepC (xa xn : Vec F S512x512 .f32) (ex : Vec F S1000x512 .f32) (la ln : Vec F S512x1 .i32)
    (a : Vec F S1x1 .f32) : Vec F S1x1 .f32 :=
  k1_pay1 (k1_pay14 (k1_pay7 la ex xa) (k1_pay8 la ex xn))
    (k1_pay15 (k1_pay6 ln ex) xn (k1_pay9 ln ex xa) (eps1 (F := F)))
    (k1_pay16 (k1_pay6 ln ex) xn (k1_pay9 ln ex xa) (eps1 (F := F))) (zero1 (F := F)) a

/-- One point's update of the triplet sum: the tile's Σ t added to `a`. -/
def stepT (xa xp xn : Vec F S512x512 .f32) (a : Vec F S1x1 .f32) : Vec F S1x1 .f32 :=
  k1_pay2 (k1_pay12 xa xp) (k1_pay13 xa xn) a

/-- What the center scratch holds after the body at position `n`. -/
def accC (c : Dev nD) : (n : ℕ) → n < cfg1.N → Vec F S1x1 .f32
  | 0, h => stepC (ablk1 V c ⟨0, h⟩) (nblk1 V c ⟨0, h⟩) (eblk1 V c ⟨0, h⟩) (lablk1 V c ⟨0, h⟩) (lnblk1 V c ⟨0, h⟩) (k1_pay3 (F := F))
  | n + 1, h => stepC (ablk1 V c ⟨n + 1, h⟩) (nblk1 V c ⟨n + 1, h⟩) (eblk1 V c ⟨n + 1, h⟩) (lablk1 V c ⟨n + 1, h⟩) (lnblk1 V c ⟨n + 1, h⟩)
      (accC c n (Nat.lt_of_succ_lt h))

/-- What the triplet scratch holds after the body at position `n`. -/
def accT (c : Dev nD) : (n : ℕ) → n < cfg1.N → Vec F S1x1 .f32
  | 0, h => stepT (ablk1 V c ⟨0, h⟩) (pblk1 V c ⟨0, h⟩) (nblk1 V c ⟨0, h⟩) (k1_pay4 (F := F))
  | n + 1, h => stepT (ablk1 V c ⟨n + 1, h⟩) (pblk1 V c ⟨n + 1, h⟩) (nblk1 V c ⟨n + 1, h⟩) (accT c n (Nat.lt_of_succ_lt h))

theorem accC_zero (c : Dev nD) (h : 0 < cfg1.N) :
    accC V c 0 h = stepC (ablk1 V c ⟨0, h⟩) (nblk1 V c ⟨0, h⟩) (eblk1 V c ⟨0, h⟩) (lablk1 V c ⟨0, h⟩) (lnblk1 V c ⟨0, h⟩) (k1_pay3 (F := F)) := rfl
theorem accC_succ (c : Dev nD) (n : ℕ) (h : n + 1 < cfg1.N) :
    accC V c (n + 1) h = stepC (ablk1 V c ⟨n + 1, h⟩) (nblk1 V c ⟨n + 1, h⟩) (eblk1 V c ⟨n + 1, h⟩) (lablk1 V c ⟨n + 1, h⟩) (lnblk1 V c ⟨n + 1, h⟩)
      (accC V c n (Nat.lt_of_succ_lt h)) := rfl
theorem accT_zero (c : Dev nD) (h : 0 < cfg1.N) :
    accT V c 0 h = stepT (ablk1 V c ⟨0, h⟩) (pblk1 V c ⟨0, h⟩) (nblk1 V c ⟨0, h⟩) (k1_pay4 (F := F)) := rfl
theorem accT_succ (c : Dev nD) (n : ℕ) (h : n + 1 < cfg1.N) :
    accT V c (n + 1) h = stepT (ablk1 V c ⟨n + 1, h⟩) (pblk1 V c ⟨n + 1, h⟩) (nblk1 V c ⟨n + 1, h⟩) (accT V c n (Nat.lt_of_succ_lt h)) := rfl

end Cert.Kernel.Hand

end
-- ==== Proof.KBR1Frame.lean ====
/-
  Region 1 as a pipeline with two carried running sums, at any float instance: the invariant between grid points
  holds the two (1,1) scratch buffers at the center sum and the triplet sum so far (at anything before the first
  point, which stores zeros into them first); the body at a point adds the tile's two partial sums; the two output
  windows are stored at the last point only, with the final sums, and are idle elsewhere. From this: the body
  obligation at every point, the invariant's entry and exit, and the two output arrays after the region.
-/
import proofs.«414664_j17102559773292_3_alg».proof.Proof.KBR1Defs
import Idealize.ShloMosaic.Lib.Pipeline.FrameBody
import Idealize.ShloMosaic.Lib.Pipeline.Value
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two running sums' scratch buffers, as the kernel is handed them. -/
abbrev scC1 : Memref sig .tc .vmem S1x1 .f32 := Memref.whole cc1_scratch0
abbrev scT1 : Memref sig .tc .vmem S1x1 .f32 := Memref.whole cc1_scratch1

/-- The invariant before position `n`: before the first point whatever the launch hands the region; afterwards the
    two scratch buffers at the sums the point before left, the other scoped buffers unopened, the generator register
    at some state. -/
def Phi1 (c : Dev nD) : (n : ℕ) → n ≤ cfg1.N → sProp 𝕄
  | 0, _ => Pipeline.ΦA spec1 c
  | n + 1, hn => iprop(owns (c : Thread nD τ) scC1 fullShare (accC V c n hn)
      ∗ owns (c : Thread nD τ) scT1 fullShare (accT V c n hn)
      ∗ Pipeline.scopedRestBut (Ix := Unit) (Name := ℕ) (U := UR sig nD τ) (Lvl := ℕ) (Val := Elt F) spec1 c [cc1_scratch0, cc1_scratch1]
      ∗ (∃ r, prngReg c r))

/-- Region 1's proof data on core `c`: the arrays as the region finds them; each input's buffer left at its block;
    the two outputs' buffers at the running sums (consulted at the last point only: elsewhere the windows are idle). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => accC V c t.val t.isLt
    | ⟨7, _⟩ => accT V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- Four conjuncts grouped to the left are the four grouped to the right. -/
private theorem sep4_assoc (C T R G : sProp 𝕄) : (iprop(((C ∗ T) ∗ R) ∗ G) : sProp 𝕄) = iprop(C ∗ T ∗ R ∗ G) := by
  have h₁ : iprop(((C ∗ T) ∗ R) ∗ G) ⊢ (iprop(C ∗ T ∗ R ∗ G) : sProp 𝕄) := by
    iintro ⟨⟨⟨HC, HT⟩, HR⟩, Hg⟩
    isplitl [HC]; · iexact HC
    isplitl [HT]; · iexact HT
    isplitl [HR]; · iexact HR
    iexact Hg
  have h₂ : iprop(C ∗ T ∗ R ∗ G) ⊢ (iprop(((C ∗ T) ∗ R) ∗ G) : sProp 𝕄) := by
    iintro ⟨HC, HT, HR, Hg⟩
    isplitr [Hg]
    · isplitr [HR]
      · isplitl [HC]; · iexact HC
        iexact HT
      iexact HR
    iexact Hg
  exact BI.equiv_iff.mp ⟨h₁, h₂⟩

/-- The launch's invariant with the two scratch buffers split out of the scoped rest. -/
theorem PhiA1_eq (c : Dev nD) :
    (Pipeline.ΦA spec1 c : sProp 𝕄)
      = iprop((∃ d, owns (c : Thread nD τ) scC1 fullShare d) ∗ (∃ d, owns (c : Thread nD τ) scT1 fullShare d)
          ∗ Pipeline.scopedRestBut (Ix := Unit) (Name := ℕ) (U := UR sig nD τ) (Lvl := ℕ) (Val := Elt F) spec1 c [cc1_scratch0, cc1_scratch1]
          ∗ (∃ r, prngReg c r)) := by
  unfold Pipeline.ΦA
  rw [Pipeline.scopedRest_split_of_list spec1 c [cc1_scratch0, cc1_scratch1] (by decide) (by decide)]
  simp only [bigSepL_cons_cons, bigSepL_singleton, scC1, scT1, owns_whole]
  exact sep4_assoc _ _ _ _

/-- The zero offsets of a rank-2 rectangle, as the printed program spells them. -/
private theorem zeros2 : (![0, 0] : Fin 2 → ℕ) = fun _ => 0 := by
  funext a; fin_cases a <;> rfl

/-- One store of a whole buffer, over any contents, read back: the stored value. -/
private theorem read_store_whole {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz inb w]

/-- Two stores of a whole buffer, read back: the later one's value. -/
private theorem read_store_whole₂ {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e)
    (p : View.Piece (Elt F) S e) :
    v.read (Elt F) (v.writes (Elt F) f [(⟨Rect.unit off S.size inb, w⟩ : View.Piece (Elt F) S e), p]) = w := by
  rw [View.read_writes_eq_canon _ _ _ (fun y => ⟨_, List.mem_cons_self, View.mem_set_unit_zero hz inb y⟩),
    View.canon_cons_unit_zero hz inb w]

/-- The condition of the body's first conditional (the point is the first), from the grid coordinates. -/
abbrev cond1_0 (i : grid1.Coords) : Prop :=
  (Scalar.cmpi .ne (Scalar.extui (Scalar.cmpi .eq (BitVec.ofNat 32 (i 0).val) 0#32)) 0#32) = 1#1
/-- The condition of its last conditional (the point is the last). -/
abbrev cond1_1 (i : grid1.Coords) : Prop := k1_cond2 i = 1#1

set_option maxHeartbeats 1600000 in
/-- The body at a point that is neither the first nor the last: everything is handed back as found but the two
    scratch buffers, each advanced by the tile's partial sum. -/
theorem run1_mid (c : Dev nD) (E : Set ℕ) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1000x512 .f32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole)
    (hc0 : ¬cond1_0 i) (hc1 : ¬cond1_1 i) (xa xp xn : Vec F S512x512 .f32) (ex : Vec F S1000x512 .f32) (la ln : Vec F S512x1 .i32) (d7 d8 : Vec F S1x1 .f32) (sC sT : Vec F S1x1 .f32) (K : PUnit → sProp 𝕄) :
    iprop(owns (c : Thread nD τ) arg1 fullShare xa ∗ owns (c : Thread nD τ) arg2 fullShare xp ∗ owns (c : Thread nD τ) arg3 fullShare xn
        ∗ owns (c : Thread nD τ) arg4 fullShare ex ∗ owns (c : Thread nD τ) arg5 fullShare la ∗ owns (c : Thread nD τ) arg6 fullShare ln
        ∗ owns (c : Thread nD τ) arg7 fullShare d7 ∗ owns (c : Thread nD τ) arg8 fullShare d8
        ∗ owns (c : Thread nD τ) arg9 fullShare sC ∗ owns (c : Thread nD τ) arg10 fullShare sT
        ∗ (iprop(owns (c : Thread nD τ) arg1 fullShare xa ∗ owns (c : Thread nD τ) arg2 fullShare xp ∗ owns (c : Thread nD τ) arg3 fullShare xn
            ∗ owns (c : Thread nD τ) arg4 fullShare ex ∗ owns (c : Thread nD τ) arg5 fullShare la ∗ owns (c : Thread nD τ) arg6 fullShare ln
            ∗ owns (c : Thread nD τ) arg7 fullShare d7 ∗ owns (c : Thread nD τ) arg8 fullShare d8
            ∗ owns (c : Thread nD τ) arg9 fullShare (stepC xa xn ex la ln sC) ∗ owns (c : Thread nD τ) arg10 fullShare (stepT xa xp xn sT)) -∗ K ⟨⟩))
      ⊢ wp frame (wpE (defs₀ (F := F)) Variants.none c none) E (cc1__triplet_center_kernel i arg1 harg1 arg2 harg2 arg3 harg3 arg4 harg4 arg5 harg5 arg6 harg6 arg7 harg7 arg8 harg8 arg9 harg9 arg10 harg10) K := by
  simp only [cc1__triplet_center_kernel_eq_skeleton]; unfold cc1__triplet_center_kernel_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_words
    rw [read_store_whole (S := S1x1) _ _ zeros2]
    simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
    rfl
  iexists _; isplitr
  swap; · iexact H10
  ipureintro
  sl_unfold_words
  rw [read_store_whole (S := S1x1) _ _ zeros2]
  simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
  rfl

set_option maxHeartbeats 1600000 in
/-- The body at the first point: the two scratch buffers, whatever they held, are zeroed and then advanced by the
    tile's partial sums; everything else is handed back as found. -/
theorem run1_first (c : Dev nD) (E : Set ℕ) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1000x512 .f32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole)
    (hc0 : cond1_0 i) (hc1 : ¬cond1_1 i) (xa xp xn : Vec F S512x512 .f32) (ex : Vec F S1000x512 .f32) (la ln : Vec F S512x1 .i32) (d7 d8 : Vec F S1x1 .f32)  (K : PUnit → sProp 𝕄) :
    iprop(owns (c : Thread nD τ) arg1 fullShare xa ∗ owns (c : Thread nD τ) arg2 fullShare xp ∗ owns (c : Thread nD τ) arg3 fullShare xn
        ∗ owns (c : Thread nD τ) arg4 fullShare ex ∗ owns (c : Thread nD τ) arg5 fullShare la ∗ owns (c : Thread nD τ) arg6 fullShare ln
        ∗ owns (c : Thread nD τ) arg7 fullShare d7 ∗ owns (c : Thread nD τ) arg8 fullShare d8
        ∗ (∃ d, owns (c : Thread nD τ) arg9 fullShare d) ∗ (∃ d, owns (c : Thread nD τ) arg10 fullShare d)
        ∗ (iprop(owns (c : Thread nD τ) arg1 fullShare xa ∗ owns (c : Thread nD τ) arg2 fullShare xp ∗ owns (c : Thread nD τ) arg3 fullShare xn
            ∗ owns (c : Thread nD τ) arg4 fullShare ex ∗ owns (c : Thread nD τ) arg5 fullShare la ∗ owns (c : Thread nD τ) arg6 fullShare ln
            ∗ owns (c : Thread nD τ) arg7 fullShare d7 ∗ owns (c : Thread nD τ) arg8 fullShare d8
            ∗ owns (c : Thread nD τ) arg9 fullShare (stepC xa xn ex la ln (k1_pay3 (F := F))) ∗ owns (c : Thread nD τ) arg10 fullShare (stepT xa xp xn (k1_pay4 (F := F)))) -∗ K ⟨⟩))
      ⊢ wp frame (wpE (defs₀ (F := F)) Variants.none c none) E (cc1__triplet_center_kernel i arg1 harg1 arg2 harg2 arg3 harg3 arg4 harg4 arg5 harg5 arg6 harg6 arg7 harg7 arg8 harg8 arg9 harg9 arg10 harg10) K := by
  simp only [cc1__triplet_center_kernel_eq_skeleton]; unfold cc1__triplet_center_kernel_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_words
    rw [read_store_whole₂ (S := S1x1) _ _ zeros2]
    simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
    rfl
  iexists _; isplitr
  swap; · iexact H10
  ipureintro
  sl_unfold_words
  rw [read_store_whole₂ (S := S1x1) _ _ zeros2]
  simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
  rfl

set_option maxHeartbeats 1600000 in
/-- The body at the last point: the two scratch buffers are advanced by the tile's partial sums, and the two output
    buffers, whatever they held, are stored whole with the new sums. -/
theorem run1_last (c : Dev nD) (E : Set ℕ) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1000x512 .f32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole)
    (hc0 : ¬cond1_0 i) (hc1 : cond1_1 i) (xa xp xn : Vec F S512x512 .f32) (ex : Vec F S1000x512 .f32) (la ln : Vec F S512x1 .i32)  (sC sT : Vec F S1x1 .f32) (K : PUnit → sProp 𝕄) :
    iprop(owns (c : Thread nD τ) arg1 fullShare xa ∗ owns (c : Thread nD τ) arg2 fullShare xp ∗ owns (c : Thread nD τ) arg3 fullShare xn
        ∗ owns (c : Thread nD τ) arg4 fullShare ex ∗ owns (c : Thread nD τ) arg5 fullShare la ∗ owns (c : Thread nD τ) arg6 fullShare ln
        ∗ (∃ d, owns (c : Thread nD τ) arg7 fullShare d) ∗ (∃ d, owns (c : Thread nD τ) arg8 fullShare d)
        ∗ owns (c : Thread nD τ) arg9 fullShare sC ∗ owns (c : Thread nD τ) arg10 fullShare sT
        ∗ (iprop(owns (c : Thread nD τ) arg1 fullShare xa ∗ owns (c : Thread nD τ) arg2 fullShare xp ∗ owns (c : Thread nD τ) arg3 fullShare xn
            ∗ owns (c : Thread nD τ) arg4 fullShare ex ∗ owns (c : Thread nD τ) arg5 fullShare la ∗ owns (c : Thread nD τ) arg6 fullShare ln
            ∗ owns (c : Thread nD τ) arg7 fullShare (stepC xa xn ex la ln sC) ∗ owns (c : Thread nD τ) arg8 fullShare (stepT xa xp xn sT)
            ∗ owns (c : Thread nD τ) arg9 fullShare (stepC xa xn ex la ln sC) ∗ owns (c : Thread nD τ) arg10 fullShare (stepT xa xp xn sT)) -∗ K ⟨⟩))
      ⊢ wp frame (wpE (defs₀ (F := F)) Variants.none c none) E (cc1__triplet_center_kernel i arg1 harg1 arg2 harg2 arg3 harg3 arg4 harg4 arg5 harg5 arg6 harg6 arg7 harg7 arg8 harg8 arg9 harg9 arg10 harg10) K := by
  simp only [cc1__triplet_center_kernel_eq_skeleton]; unfold cc1__triplet_center_kernel_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [read_store_whole (S := S1x1) _ _ zeros2]
    simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
    rfl
  isplitl [H8]
  · iexists _; isplitr
    swap; · iexact H8
    ipureintro
    sl_unfold_words
    rw [read_store_whole (S := S1x1) _ _ zeros2]
    simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
    rfl
  isplitl [H9]
  · iexists _; isplitr
    swap; · iexact H9
    ipureintro
    sl_unfold_words
    rw [read_store_whole (S := S1x1) _ _ zeros2]
    simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
    rfl
  iexists _; isplitr
  swap; · iexact H10
  ipureintro
  sl_unfold_words
  rw [read_store_whole (S := S1x1) _ _ zeros2]
  simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
  rfl

/-- The first conditional holds at the first point only, the last at the last only: decided over the grid. -/
theorem hcond1_0 : ∀ t : Fin cfg1.N, cond1_0 (grid1.coords t) ↔ t.val % 32 = 0 :=
  (by decide +kernel : ∀ t : Fin grid1.N, cond1_0 (grid1.coords t) ↔ t.val % 32 = 0)
theorem hcond1_1 : ∀ t : Fin cfg1.N, cond1_1 (grid1.coords t) ↔ t.val % 32 = 31 :=
  (by decide +kernel : ∀ t : Fin grid1.N, cond1_1 (grid1.coords t) ↔ t.val % 32 = 31)

/-- Away from the last point the two output windows are idle and not written back; at the last point they are live. -/
theorem idleAt1_6 : ∀ t : Fin cfg1.N, ¬cond1_1 (grid1.coords t) → cfg1.idle 6 (grid1.coords t) = true := by decide +kernel
theorem idleAt1_7 : ∀ t : Fin cfg1.N, ¬cond1_1 (grid1.coords t) → cfg1.idle 7 (grid1.coords t) = true := by decide +kernel
theorem noFlush1_6 : ∀ t : Fin cfg1.N, ¬cond1_1 (grid1.coords t) → (cfg1.win 6).flush t = false := by decide +kernel
theorem noFlush1_7 : ∀ t : Fin cfg1.N, ¬cond1_1 (grid1.coords t) → (cfg1.win 7).flush t = false := by decide +kernel
theorem liveAt1_6 : ∀ t : Fin cfg1.N, cond1_1 (grid1.coords t) → cfg1.idle 6 (grid1.coords t) = false := by decide +kernel
theorem liveAt1_7 : ∀ t : Fin cfg1.N, cond1_1 (grid1.coords t) → cfg1.idle 7 (grid1.coords t) = false := by decide +kernel

/-- What the body leaves in each input window's buffer: its block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = accC V c t.val t.isLt := by dsimp only [dat1]
theorem after1_7 (c : Dev nD) (t : Fin cfg1.N) : (dat1 V c).after 7 t = accT V c t.val t.isLt := by dsimp only [dat1]

/-- Each input window's current buffer holds its block at every point, fetched there or not (the exemplar table is
    fetched once: its block index never moves). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- The invariant before a point, by whether it is the first. -/
theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) scC1 fullShare (accC V c n hn) ∗ owns (c : Thread nD τ) scT1 fullShare (accT V c n hn)
      ∗ Pipeline.scopedRestBut (Ix := Unit) (Name := ℕ) (U := UR sig nD τ) (Lvl := ℕ) (Val := Elt F) spec1 c [cc1_scratch0, cc1_scratch1] ∗ (∃ r, prngReg c r)) := rfl
theorem Phi1_pos (c : Dev nD) (n : ℕ) (h : n ≤ cfg1.N) (hz : n ≠ 0) :
    Phi1 V c n h = iprop(owns (c : Thread nD τ) scC1 fullShare (accC V c (n - 1) (by omega)) ∗ owns (c : Thread nD τ) scT1 fullShare (accT V c (n - 1) (by omega))
      ∗ Pipeline.scopedRestBut (Ix := Unit) (Name := ℕ) (U := UR sig nD τ) (Lvl := ℕ) (Val := Elt F) spec1 c [cc1_scratch0, cc1_scratch1] ∗ (∃ r, prngReg c r)) := by
  cases n with
  | zero => exact absurd rfl hz
  | succ n => rfl
theorem Phi1_castSucc (c : Dev nD) (t : Fin cfg1.N) :
    (dat1 V c).Φ t.castSucc = Phi1 V c t.val (Nat.le_of_lt t.isLt) := by
  dsimp only [dat1]; simp only [Fin.coe_castSucc]

/-- The running sums after a point, by whether it is the first. -/
theorem accC_first (c : Dev nD) (t : Fin cfg1.N) (hz : t.val = 0) :
    accC V c t.val t.isLt = stepC (ablk1 V c t) (nblk1 V c t) (eblk1 V c t) (lablk1 V c t) (lnblk1 V c t) (k1_pay3 (F := F)) := by
  obtain ⟨n, hn⟩ := t
  cases n with
  | zero => rfl
  | succ n => exact absurd hz (Nat.succ_ne_zero n)
theorem accC_next (c : Dev nD) (t : Fin cfg1.N) (hz : t.val ≠ 0) :
    accC V c t.val t.isLt = stepC (ablk1 V c t) (nblk1 V c t) (eblk1 V c t) (lablk1 V c t) (lnblk1 V c t) (accC V c (t.val - 1) (Nat.lt_of_le_of_lt (Nat.sub_le _ _) t.isLt)) := by
  obtain ⟨n, hn⟩ := t
  cases n with
  | zero => exact absurd rfl hz
  | succ n => rfl
theorem accT_first (c : Dev nD) (t : Fin cfg1.N) (hz : t.val = 0) :
    accT V c t.val t.isLt = stepT (ablk1 V c t) (pblk1 V c t) (nblk1 V c t) (k1_pay4 (F := F)) := by
  obtain ⟨n, hn⟩ := t
  cases n with
  | zero => rfl
  | succ n => exact absurd hz (Nat.succ_ne_zero n)
theorem accT_next (c : Dev nD) (t : Fin cfg1.N) (hz : t.val ≠ 0) :
    accT V c t.val t.isLt = stepT (ablk1 V c t) (pblk1 V c t) (nblk1 V c t) (accT V c (t.val - 1) (Nat.lt_of_le_of_lt (Nat.sub_le _ _) t.isLt)) := by
  obtain ⟨n, hn⟩ := t
  cases n with
  | zero => exact absurd rfl hz
  | succ n => rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) ((cfg1.win 0).stage (cfg1.slots t 0)) fullShare ((dat1 V c).before 0 t d))
    ∗ (∃ d, owns (c : Thread nD τ) ((cfg1.win 1).stage (cfg1.slots t 1)) fullShare ((dat1 V c).before 1 t d))
    ∗ (∃ d, owns (c : Thread nD τ) ((cfg1.win 2).stage (cfg1.slots t 2)) fullShare ((dat1 V c).before 2 t d))
    ∗ (∃ d, owns (c : Thread nD τ) ((cfg1.win 3).stage (cfg1.slots t 3)) fullShare ((dat1 V c).before 3 t d))
    ∗ (∃ d, owns (c : Thread nD τ) ((cfg1.win 4).stage (cfg1.slots t 4)) fullShare ((dat1 V c).before 4 t d))
    ∗ (∃ d, owns (c : Thread nD τ) ((cfg1.win 5).stage (cfg1.slots t 5)) fullShare ((dat1 V c).before 5 t d))
    ∗ (∃ d, owns (c : Thread nD τ) ((cfg1.win 6).stage (cfg1.slots t 6)) fullShare ((dat1 V c).before 6 t d))
    ∗ (∃ d, owns (c : Thread nD τ) ((cfg1.win 7).stage (cfg1.slots t 7)) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' buffers hold their blocks. At the first point the invariant hands the two scratch
    buffers at anything and takes them back at the first partial sums over zero; at a later point it hands them at the
    sums so far and takes them back advanced. Before the last point the two output buffers are idle and go back as they
    came; at the last point they are stored whole with the final sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ, Phi1_castSucc]
  rw [show (dat1 V c).leavesExact 0 t = owns (c : Thread nD τ) ((cfg1.win 0).stage (cfg1.slots t 0)) fullShare ((dat1 V c).after 0 t) from by
    unfold Dat.leavesExact; rw [show cfg1.idle 0 (cfg1.grid.coords t) = false from rfl], after1_0]
  rw [show (dat1 V c).leavesExact 1 t = owns (c : Thread nD τ) ((cfg1.win 1).stage (cfg1.slots t 1)) fullShare ((dat1 V c).after 1 t) from by
    unfold Dat.leavesExact; rw [show cfg1.idle 1 (cfg1.grid.coords t) = false from rfl], after1_1]
  rw [show (dat1 V c).leavesExact 2 t = owns (c : Thread nD τ) ((cfg1.win 2).stage (cfg1.slots t 2)) fullShare ((dat1 V c).after 2 t) from by
    unfold Dat.leavesExact; rw [show cfg1.idle 2 (cfg1.grid.coords t) = false from rfl], after1_2]
  rw [show (dat1 V c).leavesExact 3 t = owns (c : Thread nD τ) ((cfg1.win 3).stage (cfg1.slots t 3)) fullShare ((dat1 V c).after 3 t) from by
    unfold Dat.leavesExact; rw [show cfg1.idle 3 (cfg1.grid.coords t) = false from rfl], after1_3]
  rw [show (dat1 V c).leavesExact 4 t = owns (c : Thread nD τ) ((cfg1.win 4).stage (cfg1.slots t 4)) fullShare ((dat1 V c).after 4 t) from by
    unfold Dat.leavesExact; rw [show cfg1.idle 4 (cfg1.grid.coords t) = false from rfl], after1_4]
  rw [show (dat1 V c).leavesExact 5 t = owns (c : Thread nD τ) ((cfg1.win 5).stage (cfg1.slots t 5)) fullShare ((dat1 V c).after 5 t) from by
    unfold Dat.leavesExact; rw [show cfg1.idle 5 (cfg1.grid.coords t) = false from rfl], after1_5]
  have hN : t.val < 32 := lt_of_lt_of_eq t.isLt (show cfg1.N = 32 from N_1)
  by_cases hz : t.val = 0
  · have h0 : cond1_0 (grid1.coords t) := (hcond1_0 t).mpr (by omega)
    have h1 : ¬cond1_1 (grid1.coords t) := fun h => by have := (hcond1_1 t).mp h; omega
    rw [Dat.leavesExact_idle (dat1 V c) 6 t (idleAt1_6 t h1) (noFlush1_6 t h1), Dat.leavesExact_idle (dat1 V c) 7 t (idleAt1_7 t h1) (noFlush1_7 t h1)]
    rw [Phi1_zero V c _ _ hz, PhiA1_eq, accC_first V c t hz, accT_first V c t hz]
    iintro ⟨⟨⟨%dC, HC⟩, ⟨%dT, HT⟩, HR, Hg⟩, Ho, ⟨%e0, H0⟩, ⟨%e1, H1⟩, ⟨%e2, H2⟩, ⟨%e3, H3⟩, ⟨%e4, H4⟩, ⟨%e5, H5⟩, ⟨%d6, H6⟩, ⟨%d7, H7⟩⟩
    iapply (run1_first c Set.univ (grid1.coords t) _ _ _ _ _ _ _ _ _ _ _ _ _ _ _ _ _ _ _ _ h0 h1 (ablk1 V c t) (pblk1 V c t) (nblk1 V c t) (eblk1 V c t) (lablk1 V c t) (lnblk1 V c t) ((dat1 V c).before 6 t d6) ((dat1 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HC]; · iexists _; iexact HC
    isplitl [HT]; · iexists _; iexact HT
    iintro ⟨H0, H1, H2, H3, H4, H5, H6, H7, HC, HT⟩
    isplitl [HC HT HR Hg]
    · isplitl [HC]; · iexact HC
      isplitl [HT]; · iexact HT
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · by_cases hl : t.val = 31
    · have h0 : ¬cond1_0 (grid1.coords t) := fun h => by have := (hcond1_0 t).mp h; omega
      have h1 : cond1_1 (grid1.coords t) := (hcond1_1 t).mpr (by omega)
      rw [show (dat1 V c).leavesExact 6 t = owns (c : Thread nD τ) ((cfg1.win 6).stage (cfg1.slots t 6)) fullShare ((dat1 V c).after 6 t) from by
        unfold Dat.leavesExact; rw [liveAt1_6 t h1], after1_6]
      rw [show (dat1 V c).leavesExact 7 t = owns (c : Thread nD τ) ((cfg1.win 7).stage (cfg1.slots t 7)) fullShare ((dat1 V c).after 7 t) from by
        unfold Dat.leavesExact; rw [liveAt1_7 t h1], after1_7]
      rw [Phi1_pos V c _ _ hz, accC_next V c t hz, accT_next V c t hz]
      iintro ⟨⟨HC, HT, HR, Hg⟩, Ho, ⟨%e0, H0⟩, ⟨%e1, H1⟩, ⟨%e2, H2⟩, ⟨%e3, H3⟩, ⟨%e4, H4⟩, ⟨%e5, H5⟩, ⟨%d6, H6⟩, ⟨%d7, H7⟩⟩
      iapply (run1_last c Set.univ (grid1.coords t) _ _ _ _ _ _ _ _ _ _ _ _ _ _ _ _ _ _ _ _ h0 h1 (ablk1 V c t) (pblk1 V c t) (nblk1 V c t) (eblk1 V c t) (lablk1 V c t) (lnblk1 V c t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HC]; · iexact HC
      isplitl [HT]; · iexact HT
      iintro ⟨H0, H1, H2, H3, H4, H5, H6, H7, HC, HT⟩
      isplitl [HC HT HR Hg]
      · isplitl [HC]; · iexact HC
        isplitl [HT]; · iexact HT
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have h0 : ¬cond1_0 (grid1.coords t) := fun h => by have := (hcond1_0 t).mp h; omega
      have h1 : ¬cond1_1 (grid1.coords t) := fun h => by have := (hcond1_1 t).mp h; omega
      rw [Dat.leavesExact_idle (dat1 V c) 6 t (idleAt1_6 t h1) (noFlush1_6 t h1), Dat.leavesExact_idle (dat1 V c) 7 t (idleAt1_7 t h1) (noFlush1_7 t h1)]
      rw [Phi1_pos V c _ _ hz, accC_next V c t hz, accT_next V c t hz]
      iintro ⟨⟨HC, HT, HR, Hg⟩, Ho, ⟨%e0, H0⟩, ⟨%e1, H1⟩, ⟨%e2, H2⟩, ⟨%e3, H3⟩, ⟨%e4, H4⟩, ⟨%e5, H5⟩, ⟨%d6, H6⟩, ⟨%d7, H7⟩⟩
      iapply (run1_mid c Set.univ (grid1.coords t) _ _ _ _ _ _ _ _ _ _ _ _ _ _ _ _ _ _ _ _ h0 h1 (ablk1 V c t) (pblk1 V c t) (nblk1 V c t) (eblk1 V c t) (lablk1 V c t) (lnblk1 V c t) ((dat1 V c).before 6 t d6) ((dat1 V c).before 7 t d7) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HC]; · iexact HC
      isplitl [HT]; · iexact HT
      iintro ⟨H0, H1, H2, H3, H4, H5, H6, H7, HC, HT⟩
      isplitl [HC HT HR Hg]
      · isplitl [HC]; · iexact HC
        isplitl [HT]; · iexact HT
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The body obligation at every point of region 1. -/
theorem body_obligation1 (c : Dev nD) :
    BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 (Nat.zero_le _) from rfl]
  exact Idealize.SL.BI.Entails.refl _

/-- After the last point the invariant gives the launch's back, the sums' names forgotten. -/
theorem hout1 (c : Dev nD) : (dat1 V c).Φ (Fin.last cfg1.N) ⊢ (Pipeline.ΦA spec1 c : sProp 𝕄) := by
  rw [show (dat1 V c).Φ (Fin.last cfg1.N) = Phi1 V c (31 + 1) (by decide) from rfl, PhiA1_eq]
  unfold Phi1
  iintro ⟨HC, HT, HR, Hg⟩
  isplitl [HC]; · iexists _; iexact HC
  isplitl [HT]; · iexists _; iexact HT
  isplitl [HR]; · iexact HR
  iexact Hg

/-! ## The two output arrays after the region -/

/-- The last point of the grid. -/
abbrev tLast1 : Fin cfg1.N := ⟨31, by decide⟩

/-- The center sum after the last point, as contents of its output array (one block: the whole array). -/
abbrev res1_6 (c : Dev nD) : Buf (Elt F) ((c : Thread nD τ).loc main_v7_0) := accC V c 31 (by decide)

/-- Output window 6's block at the last point starts at the array's origin. -/
theorem off1_6 : (fun a => win1_6.index tLast1 a * main_v7_0.ty.shape.size a) = fun _ => 0 :=
  funext fun a => by fin_cases a <;> decide

/-- Its one write-back, at the last point, writes the final center sum. -/
theorem flushed1_6_eq (c : Dev nD) (t : Fin cfg1.N) (hf : (cfg1.win 6).flush t = true) :
    (dat1 V c).flushed 6 t = ((cfg1.win 6).blk t).view.read (Elt F) (res1_6 V c) := by
  have hN : cfg1.N = 32 := N_1
  have h31 : t.val = 31 := by have := (flush1_6 t).mp hf; have := t.isLt; omega
  obtain rfl : t = tLast1 := Fin.ext h31
  show (cfg1.win 6).cut (grid1.coords tLast1) ((dat1 V c).after 6 tLast1) = _
  rw [after1_6]
  exact (Memref.read_access_unit_zero (Elt F) main_v7_0 off1_6 (fun a => by rw [congrFun off1_6 a]; simp) (res1_6 V c)).symm

/-- The triplet sum after the last point, as contents of its output array (one block: the whole array). -/
abbrev res1_7 (c : Dev nD) : Buf (Elt F) ((c : Thread nD τ).loc main_v7_1) := accT V c 31 (by decide)

/-- Output window 7's block at the last point starts at the array's origin. -/
theorem off1_7 : (fun a => win1_7.index tLast1 a * main_v7_1.ty.shape.size a) = fun _ => 0 :=
  funext fun a => by fin_cases a <;> decide

/-- Its one write-back, at the last point, writes the final triplet sum. -/
theorem flushed1_7_eq (c : Dev nD) (t : Fin cfg1.N) (hf : (cfg1.win 7).flush t = true) :
    (dat1 V c).flushed 7 t = ((cfg1.win 7).blk t).view.read (Elt F) (res1_7 V c) := by
  have hN : cfg1.N = 32 := N_1
  have h31 : t.val = 31 := by have := (flush1_7 t).mp hf; have := t.isLt; omega
  obtain rfl : t = tLast1 := Fin.ext h31
  show (cfg1.win 7).cut (grid1.coords tLast1) ((dat1 V c).after 7 tLast1) = _
  rw [after1_7]
  exact (Memref.read_access_unit_zero (Elt F) main_v7_1 off1_7 (fun a => by rw [congrFun off1_7 a]; simp) (res1_7 V c)).symm

/-- The two output arrays after the region: the running sums after the last point. -/
theorem arrAt1_out6 (c : Dev nD) : (dat1 V c).arrAt 6 cfg1.N = accC V c 31 (by decide) := by
  refine (dat1 V c).arrAt_eq_of_cover 6 (res1_6 V c) (flushed1_6_eq V c) fun i => ⟨tLast1, (flush1_6 tLast1).mpr rfl, ?_⟩
  show i ∈ ((View.whole main_v7_0).slice (win1_6.rect tLast1)).set
  rw [View.set_slice_whole]
  exact View.mem_set_unit_zero off1_6 _ i
theorem arrAt1_out7 (c : Dev nD) : (dat1 V c).arrAt 7 cfg1.N = accT V c 31 (by decide) := by
  refine (dat1 V c).arrAt_eq_of_cover 7 (res1_7 V c) (flushed1_7_eq V c) fun i => ⟨tLast1, (flush1_7 tLast1).mpr rfl, ?_⟩
  show i ∈ ((View.whole main_v7_1).slice (win1_7.rect tLast1)).set
  rw [View.set_slice_whole]
  exact View.mem_set_unit_zero off1_7 _ i

end Cert.Kernel.Hand

end
-- ==== Proof.KBRun.lean ====
/-
  The run of the two-region program, at any float instance: the contents of the unscoped buffers at every item
  boundary of @main, with what each region leaves in its output arrays read off that region's proof data; each
  region as a segment entered from the boundary before it and left at the boundary after it; and from the launch
  theorem over the five segments, the final memory at every unscoped buffer, hence the arguments as launched.
-/
import proofs.«414664_j17102559773292_3_alg».proof.Proof.Gen.Kernel.Regions
import proofs.«414664_j17102559773292_3_alg».proof.Proof.KBR0Frame
import proofs.«414664_j17102559773292_3_alg».proof.Proof.KBR1Frame
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents at the boundaries -/

/-- Region 0's entry contents, read at the TensorCore's references. -/
abbrev VE0 : (c : Dev nD) → (b : Ref sig .tc) → Buf (Elt F) ((c : Thread nD τ).loc b) := fun c b => Gen.V1 m c b

/-- At region 0's exit: its arrays at what the pipeline leaves, every other buffer as entered. -/
def Wafter0 (c : Dev nD) : Valuation τ sig (Elt F) :=
  Pipeline.withArrays spec0 c (Gen.V1 m c) fun w => (dat0 (VE0 m) c).arrAt w cfg0.N

/-- What region 0 leaves, at every later boundary index: the unknowns read at item 2 only. -/
def outsA : Gen.Outs (F := F) := fun _ r c => Wafter0 m c r

/-- Region 1's entry contents, read at the TensorCore's references. -/
abbrev VE1 : (c : Dev nD) → (b : Ref sig .tc) → Buf (Elt F) ((c : Thread nD τ).loc b) := fun c b => Gen.V3 m (outsA m) c b

/-- At region 1's exit: its arrays at what the pipeline leaves, every other buffer as entered. -/
def Wafter1 (c : Dev nD) : Valuation τ sig (Elt F) :=
  Pipeline.withArrays spec1 c (Gen.V3 m (outsA m) c) fun w => (dat1 (VE1 m) c).arrAt w cfg1.N

/-- What the regions leave: after item 1 region 0's exit contents, after item 3 region 1's. -/
def outsK : Gen.Outs (F := F) := fun J r c =>
  match J with
  | 2 => Wafter0 m c r
  | _ => Wafter1 m c r

theorem outsK_two (r : Ref sig .tc) (c : Dev nD) : outsK m 2 r c = Wafter0 m c r := rfl
theorem outsK_four (r : Ref sig .tc) (c : Dev nD) : outsK m 4 r c = Wafter1 m c r := rfl

/-- Region 1 is entered from the same contents whichever of the two families the boundary after region 0 is read from. -/
theorem V3_outsK : (fun (c : Dev nD) (b : Ref sig .tc) => Gen.V3 m (outsK m) c b) = VE1 m := rfl

theorem Wafter0_arr (c : Dev nD) (w : Fin cfg0.W) :
    Wafter0 m c (Proc.devRef .tc (Pipeline.arrRef spec0 w)) = (dat0 (VE0 m) c).arrAt w cfg0.N := by
  unfold Wafter0; exact Pipeline.withArrays_arr spec0 launch0.win.arr_inj c _ _ w
theorem Wafter1_arr (c : Dev nD) (w : Fin cfg1.W) :
    Wafter1 m c (Proc.devRef .tc (Pipeline.arrRef spec1 w)) = (dat1 (VE1 m) c).arrAt w cfg1.N := by
  unfold Wafter1; exact Pipeline.withArrays_arr spec1 launch1.win.arr_inj c _ _ w

theorem outsK_v3 (c : Dev nD) : outsK m 2 main_v3 c = acc0 (fun c b => Gen.V1 m c b) c 47 (by decide) :=
  (Wafter0_arr m c 2).trans (arrAt0_out (VE0 m) c)
theorem outsK_v7_0 (c : Dev nD) : outsK m 4 main_v7_0 c = accC (fun c b => Gen.V3 m (outsK m) c b) c 31 (by decide) :=
  (Wafter1_arr m c 6).trans (arrAt1_out6 (VE1 m) c)
theorem outsK_v7_1 (c : Dev nD) : outsK m 4 main_v7_1 c = accT (fun c b => Gen.V3 m (outsK m) c b) c 31 (by decide) :=
  (Wafter1_arr m c 7).trans (arrAt1_out7 (VE1 m) c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What a region's exit contents are, array by array and off the arrays -/

/-- After region 0 each of its arrays holds what the pipeline leaves: the two inputs are never written back and are
    no output of the region, the output is the boundary's one changed buffer. -/
theorem hF0 (c : Dev nD) : ∀ w : Fin cfg0.W, (dat0 (VE0 m) c).arrAt w cfg0.N = Gen.V2 m (outsK m) c (Pipeline.arrRef spec0 w)
  | ⟨0, _⟩ => ((dat0 (VE0 m) c).arrAt_in 0 rfl _).trans ((A_eq0 (VE0 m) c 0).trans (Gen.V2_of m (outsK m) c (Pipeline.arrRef spec0 0) (by decide)).symm)
  | ⟨1, _⟩ => ((dat0 (VE0 m) c).arrAt_in 1 rfl _).trans ((A_eq0 (VE0 m) c 1).trans (Gen.V2_of m (outsK m) c (Pipeline.arrRef spec0 1) (by decide)).symm)
  | ⟨2, _⟩ => by
    show _ = Function.update (Gen.V1 m c) (Proc.devRef .tc main_v3) (Wafter0 m c main_v3) (Proc.devRef .tc main_v3)
    rw [Function.update_self]; exact (Wafter0_arr m c 2).symm

theorem hrest0 (c : Dev nD) (b : Ref sig .tc) (hb : b ∉ Finset.univ.image (Pipeline.arrRef spec0)) :
    Gen.V2 m (outsK m) c b = Gen.V1 m c b :=
  Gen.V2_of m (outsK m) c b fun hmem =>
    hb (Finset.mem_image.mpr ⟨2, Finset.mem_univ _, (List.mem_singleton.mp hmem).symm⟩)

/-- After region 1 each of its arrays holds what the pipeline leaves: the six inputs as entered, the two outputs the
    boundary's two changed buffers. -/
theorem hF1 (c : Dev nD) : ∀ w : Fin cfg1.W, (dat1 (VE1 m) c).arrAt w cfg1.N = Gen.V4 m (outsK m) c (Pipeline.arrRef spec1 w)
  | ⟨0, _⟩ => ((dat1 (VE1 m) c).arrAt_in 0 rfl _).trans ((A_eq1 (VE1 m) c 0).trans (Gen.V4_of m (outsK m) c (Pipeline.arrRef spec1 0) (by decide)).symm)
  | ⟨1, _⟩ => ((dat1 (VE1 m) c).arrAt_in 1 rfl _).trans ((A_eq1 (VE1 m) c 1).trans (Gen.V4_of m (outsK m) c (Pipeline.arrRef spec1 1) (by decide)).symm)
  | ⟨2, _⟩ => ((dat1 (VE1 m) c).arrAt_in 2 rfl _).trans ((A_eq1 (VE1 m) c 2).trans (Gen.V4_of m (outsK m) c (Pipeline.arrRef spec1 2) (by decide)).symm)
  | ⟨3, _⟩ => ((dat1 (VE1 m) c).arrAt_in 3 rfl _).trans ((A_eq1 (VE1 m) c 3).trans (Gen.V4_of m (outsK m) c (Pipeline.arrRef spec1 3) (by decide)).symm)
  | ⟨4, _⟩ => ((dat1 (VE1 m) c).arrAt_in 4 rfl _).trans ((A_eq1 (VE1 m) c 4).trans (Gen.V4_of m (outsK m) c (Pipeline.arrRef spec1 4) (by decide)).symm)
  | ⟨5, _⟩ => ((dat1 (VE1 m) c).arrAt_in 5 rfl _).trans ((A_eq1 (VE1 m) c 5).trans (Gen.V4_of m (outsK m) c (Pipeline.arrRef spec1 5) (by decide)).symm)
  | ⟨6, _⟩ => by
    show _ = Function.update (Function.update (Gen.V3 m (outsK m) c) (Proc.devRef .tc main_v7_0) (Wafter1 m c main_v7_0))
      (Proc.devRef .tc main_v7_1) (Wafter1 m c main_v7_1) (Proc.devRef .tc main_v7_0)
    rw [Function.update_of_ne (StableHlo.devRef_ne_of_ne (by decide)), Function.update_self]
    exact (Wafter1_arr m c 6).symm
  | ⟨7, _⟩ => by
    show _ = Function.update (Function.update (Gen.V3 m (outsK m) c) (Proc.devRef .tc main_v7_0) (Wafter1 m c main_v7_0))
      (Proc.devRef .tc main_v7_1) (Wafter1 m c main_v7_1) (Proc.devRef .tc main_v7_1)
    rw [Function.update_self]; exact (Wafter1_arr m c 7).symm

theorem hrest1 (c : Dev nD) (b : Ref sig .tc) (hb : b ∉ Finset.univ.image (Pipeline.arrRef spec1)) :
    Gen.V4 m (outsK m) c b = Gen.V3 m (outsK m) c b :=
  Gen.V4_of m (outsK m) c b fun hmem => by
    rcases List.mem_cons.mp hmem with h | h
    · exact hb (Finset.mem_image.mpr ⟨6, Finset.mem_univ _, h.symm⟩)
    · exact hb (Finset.mem_image.mpr ⟨7, Finset.mem_univ _, (List.mem_singleton.mp h).symm⟩)

/-! ## The thread state beside the buffers, and the proof data -/

abbrev 𝒱K : Variants := Variants.none
/-- No core owes another anything: no level is assigned. -/
abbrev LK : GSem nD τ sig → Finset Unit := fun _ => ∅
abbrev lvK : GSem nD τ sig → Unit → ℕ := fun _ _ => 0

/-- What every boundary holds beside the unscoped buffers: the core's generator register at some state, and the core
    owing nothing. -/
abbrev Rest (c : Dev nD) : sProp 𝕄 :=
  iprop((∃ r, prngReg c r) ∗ ∃ W, owes (c : Thread nD τ) (0 : CellTallies nD τ sig Unit) W)

/-- The three rest states of the conditional frame are all this one. -/
abbrev EK : Fin 3 → Dev nD → sProp 𝕄 := fun _ c => Rest c

/-- Each pipeline's proof data at the contents its region is entered from. -/
def pdatsK : (p : Fin 2) → (c : Dev nD) → Dat τ (Elt F) Unit ℕ (UR sig nD τ) ℕ (cfgs p) c
  | ⟨0, _⟩ => fun c => dat0 (VE0 m) c
  | ⟨1, _⟩ => fun c => dat1 (VE1 m) c

/-- A core owing nothing is what a pipeline whose proof data owe nothing and bound nothing holds of it, -/
theorem owesAt_of_zero {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Dat.owesAt Pipeline.owesWithin Dat.bound
  rw [ho, hr]
  iintro ⟨%W, H⟩
  iexists W
  isplitr
  · ipureintro; exact fun _ _ => Or.inl trivial
  iexact H

/-- and conversely. -/
theorem zero_of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Dat.owesAt Pipeline.owesWithin
  rw [ho]
  iintro ⟨%W, -, H⟩
  iexists W
  iexact H

/-! ## Region 0 as a segment -/

set_option backward.isDefEq.respectTransparency.types false in
/-- Region 0 between the boundary after the first host stretch and the one before the second: its three arrays leave
    the unscoped buffers at entry and come back at the exit contents; the generator register goes into the launch's
    invariant, which the region's own invariant starts from and ends at; nothing is owed; the kernel has no semaphore
    of its own. -/
def reg0 : Pipeline.RegionSeg (pcfgs (F := F)) adm (pdatsK m) () defs₀ 𝒱K LK lvK 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ LK lvK 0 fun _ _ => rfl
  pre c := iprop(StableHlo.held (c : Thread nD τ) (Pipeline.ucRefs τ sig) (Gen.V1 m c) ∗ Rest c)
  post c := iprop(StableHlo.held (c : Thread nD τ) (Pipeline.ucRefs τ sig) (Gen.V2 m (outsK m) c) ∗ Rest c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    have hsplit := Pipeline.arrays_of_unscopedBufs (p := 0) (pcfgs (F := F)) adm (pdatsK m) launch0.win launch0.arr_whole c
      ((pdatsK m 0 c).share_full fun _ => rfl) (VE0 m c) fun _ => rfl
    rw [Pipeline.unscopedBufs_held] at hsplit
    iintro ⟨⟨Hbufs, Hg, Ho⟩, -, -⟩
    ihave Hs := hsplit $$ Hbufs
    imodintro
    icases Hs with ⟨Harr, Hoff⟩
    isplitl [Harr]
    · iexact Harr
    isplitr
    · unfold Pipeline.prefHeld
      rw [show (Finset.univ : Finset (Fin 0)) = ∅ from rfl, BI.bigSep_empty]
      iempintro
    isplitl [Ho]
    · iapply (owesAt_of_zero (pdatsK m 0 c) 0 rfl rfl)
      iexact Ho
    isplitl [Hg]
    · iexact Hg
    iexact Hoff
  hin c := by
    refine BIBase.Entails.trans ?_ (hin0 (VE0 m) c)
    unfold Pipeline.ΦA
    iintro ⟨Hg, -, Hs⟩
    isplitl [Hs]
    · iexact Hs
    iexact Hg
  hout c := by
    refine BIBase.Entails.trans (hout0 (VE0 m) c) ?_
    rw [Pipeline.ownSems0_none]
    unfold Pipeline.ΦA
    iintro ⟨Hs, Hg⟩
    isplitl [Hg]
    · iexact Hg
    isplitr
    · iempintro
    iexact Hs
  hexit c := by
    have hjoin := Pipeline.unscopedBufs_of_arrays (p := 0) (pcfgs (F := F)) adm (Ix := Unit) (Name := ℕ) (U := UR sig nD τ) (Lvl := ℕ)
      launch0.win launch0.arr_whole c (pdatsK m) ((pdatsK m 0 c).share_full fun _ => rfl)
      (VE0 m c) (fun b => Gen.V2 m (outsK m) c b) ((pdatsK m 0 c).arrAt · cfg0.N) (hF0 m c) (hrest0 m c)
    rw [Pipeline.unscopedBufs_held] at hjoin
    iintro ⟨Harr, Ho, Hg, Hoff⟩
    imodintro
    isplitl [Harr Hoff]
    · iapply hjoin
      isplitl [Harr]
      · iexact Harr
      iexact Hoff
    isplitl [Hg]
    · iexact Hg
    iapply (zero_of_owesAt (pdatsK m 0 c) (Fin.last _) rfl)
    iexact Ho

/-! ## Region 1 as a segment -/

/-- The boundary before region 1, read through either family of what region 0 leaves. -/
theorem V3K (c : Dev nD) : Gen.V3 m (outsK m) c = Gen.V3 m (outsA m) c := rfl

set_option backward.isDefEq.respectTransparency.types false in
/-- Region 1 between the boundary after the second host stretch and the one before the third: its eight arrays leave
    the unscoped buffers at entry and come back at the exit contents; the generator register goes into the launch's
    invariant, which the region's own invariant starts from and ends at; nothing is owed; the kernel has no semaphore
    of its own. -/
def reg1 : Pipeline.RegionSeg (pcfgs (F := F)) adm (pdatsK m) () defs₀ 𝒱K LK lvK 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ LK lvK 1 fun _ _ => rfl
  pre c := iprop(StableHlo.held (c : Thread nD τ) (Pipeline.ucRefs τ sig) (Gen.V3 m (outsK m) c) ∗ Rest c)
  post c := iprop(StableHlo.held (c : Thread nD τ) (Pipeline.ucRefs τ sig) (Gen.V4 m (outsK m) c) ∗ Rest c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    have hsplit := Pipeline.arrays_of_unscopedBufs (p := 1) (pcfgs (F := F)) adm (pdatsK m) launch1.win launch1.arr_whole c
      ((pdatsK m 1 c).share_full fun _ => rfl) (VE1 m c) fun _ => rfl
    rw [Pipeline.unscopedBufs_held, ← V3K m c] at hsplit
    iintro ⟨⟨Hbufs, Hg, Ho⟩, -, -⟩
    ihave Hs := hsplit $$ Hbufs
    imodintro
    icases Hs with ⟨Harr, Hoff⟩
    isplitl [Harr]
    · iexact Harr
    isplitr
    · unfold Pipeline.prefHeld
      rw [show (Finset.univ : Finset (Fin 0)) = ∅ from rfl, BI.bigSep_empty]
      iempintro
    isplitl [Ho]
    · iapply (owesAt_of_zero (pdatsK m 1 c) 0 rfl rfl)
      iexact Ho
    isplitl [Hg]
    · iexact Hg
    iexact Hoff
  hin c := by
    refine BIBase.Entails.trans ?_ (hin1 (VE1 m) c)
    unfold Pipeline.ΦA
    iintro ⟨Hg, -, Hs⟩
    isplitl [Hs]
    · iexact Hs
    iexact Hg
  hout c := by
    refine BIBase.Entails.trans (hout1 (VE1 m) c) ?_
    rw [Pipeline.ownSems0_none]
    unfold Pipeline.ΦA
    iintro ⟨Hs, Hg⟩
    isplitl [Hg]
    · iexact Hg
    isplitr
    · iempintro
    iexact Hs
  hexit c := by
    have hjoin := Pipeline.unscopedBufs_of_arrays (p := 1) (pcfgs (F := F)) adm (Ix := Unit) (Name := ℕ) (U := UR sig nD τ) (Lvl := ℕ)
      launch1.win launch1.arr_whole c (pdatsK m) ((pdatsK m 1 c).share_full fun _ => rfl)
      (VE1 m c) (fun b => Gen.V4 m (outsK m) c b) ((pdatsK m 1 c).arrAt · cfg1.N) (hF1 m c) (hrest1 m c)
    rw [Pipeline.unscopedBufs_held] at hjoin
    iintro ⟨Harr, Ho, Hg, Hoff⟩
    imodintro
    isplitl [Harr Hoff]
    · iapply hjoin
      isplitl [Harr]
      · iexact Harr
      iexact Hoff
    isplitl [Hg]
    · iexact Hg
    iapply (zero_of_owesAt (pdatsK m 1 c) (Fin.last _) rfl)
    iexact Ho

/-! ## The launch over the five segments -/

set_option backward.isDefEq.respectTransparency.types false in
/-- Every weakly fair execution of @main from memory `m` with zero counters terminates, and every final memory holds
    each unscoped buffer of every core at the last boundary's contents: the launch theorem over the two host-stretch
    segments around each region's, the chain of thread states closing by reflexivity at every joint, the first thread
    state made from what the launch deals, the last one read against the final state. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V5 m (outsK m) c b) := by
  refine Pipeline.θ_run_regions_kit_dev (pcfgs (F := F)) adm (pdatsK m) () cellOf_inj emb₁ defs₀ 𝒱K LK lvK m ρ main
    (Gen.segs m (outsK m) 𝒱K LK lvK EK () (pdatsK m) (reg0 m) (reg1 m))
    (fun c Q => by
      rewrite [main_chain c, Pipeline.Seg.run_eq_chain,
        show (Gen.segs m (outsK m) 𝒱K LK lvK EK () (pdatsK m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ Rest c))
    (Tₙ := fun c => StableHlo.held (c : Thread nD τ) (Pipeline.ucRefs τ sig) (Gen.V5 m (outsK m) c))
    (hch := fun c => ⟨.rfl, .rfl, .rfl, .rfl, .rfl, sep_mono .rfl (by iintro ⟨-, Ho⟩; iexact Ho)⟩)
    (hinit := ?_)
    (QY := fun c s => ∀ b ∈ Pipeline.ucRefs τ sig, s.mem ((c : Thread nD τ).1, b) = Gen.V5 m (outsK m) c b)
    (hfin := fun c s' => ?_) (hQ := fun _ h => h)
  · -- the launch element is the pipelines' own, and no core holds a ghost resource of the certificate's
    have hown : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    have hnone : (BI.emp : sProp 𝕄) ⊢ bigSep Finset.univ (fun _ : Dev nD => (BI.emp : sProp 𝕄)) := by
      rw [BI.bigSep_emp_const]
    iintro Hu
    imodintro
    isplitl [Hu]
    · iapply hown
      iexact Hu
    iapply hnone
    iempintro
  · -- core by core: the unscoped buffers are held at the launch contents, the generator register is at its launch
    -- state, and the core owes what the launch says, which is nothing
    refine Pipeline.initEach LK lvK fun c => ?_
    rw [Pipeline.unscopedBufs_held c (Gen.V0 m c)]
    iintro ⟨⟨Hbufs, -, Ho, -, Hg, -⟩, -⟩
    imodintro
    isplitl [Hbufs]
    · iexact Hbufs
    isplitl [Hg]
    · iexists (ρ c); iexact Hg
    iexists ∅
    iexact Ho
  · -- the last thread state is every unscoped buffer held at the last boundary's contents: so the memory reads
    unfold StableHlo.held
    iintro ⟨Hbufs, HSI⟩
    imodintro
    iapply (pointsTo_read_all (Pipeline.ucRefs τ sig) (fun b => ((c : Thread nD τ).1, b)) (Gen.V5 m (outsK m) c) s')
    isplitl [Hbufs]
    · iexact Hbufs
    iexact HSI

/-- The frame claim: each of the seven argument arrays is unscoped, and the last boundary's contents at an argument
    are the launch's, no host stretch writing it and no region changing it. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (Gen.V5_main_arg0 m (outsK m) c),
     (h c _ (mem_uc main_arg1 (by decide))).trans (Gen.V5_main_arg1 m (outsK m) c),
     (h c _ (mem_uc main_arg2 (by decide))).trans (Gen.V5_main_arg2 m (outsK m) c),
     (h c _ (mem_uc main_arg3 (by decide))).trans (Gen.V5_main_arg3 m (outsK m) c),
     (h c _ (mem_uc main_arg4 (by decide))).trans (Gen.V5_main_arg4 m (outsK m) c),
     (h c _ (mem_uc main_arg5 (by decide))).trans (Gen.V5_main_arg5 m (outsK m) c),
     (h c _ (mem_uc main_arg6 (by decide))).trans (Gen.V5_main_arg6 m (outsK m) c)⟩) (run_all m ρ)

end Cert.Kernel.Hand

end
-- ==== Proof.KIR0Defs.lean ====
/-
  Region 0 (the streamed log-softmax sum), the quantities its frame and its value are both stated over, at any
  float instance: the block of each window at a grid point, read off the arrays as the region finds them; and the
  running sum the kernel keeps in its (1,1) scratch — after point 0 the first tile's partial sum added to the
  zero the point stored, after point n+1 the tile's partial sum added to what point n left.
-/
import proofs.«414664_j17102559773292_3_alg».proof.Proof.Gen.KernelIdeal.Launch
import proofs.«414664_j17102559773292_3_alg».proof.Proof.Gen.KernelIdeal.Skeleton
import proofs.«414664_j17102559773292_3_alg».proof.Proof.Gen.KernelIdeal.Points
import Idealize.ShloMosaic.Lib.Pipeline.FrameBody

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (V : (c : Dev nD) → (b : Ref sig .tc) → Buf (Elt F) ((c : Thread nD τ).loc b))

/-- Window `w`'s block at point `t` of region 0, read off its array at the region's entry contents `V`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The 1024 rows of logits the point reads, at their literal type. -/
abbrev xblk0 (c : Dev nD) (t : Fin cfg0.N) : Vec F S1024x1000 .f32 := iblk0 V c 0 t
/-- The 1024 label words the point reads, as a column. -/
abbrev lblk0 (c : Dev nD) (t : Fin cfg0.N) : Vec F S1024x1 .i32 := iblk0 V c 1 t

/-- What the scratch holds after the body at position `n`: the tile's partial sum added to what the point before
    left, the first point adding to the zero it has just stored. -/
def acc0 (c : Dev nD) : (n : ℕ) → n < cfg0.N → Vec F S1x1 .f32
  | 0, h => k0_pay2 (xblk0 V c ⟨0, h⟩) (lblk0 V c ⟨0, h⟩) (k0_pay1 (F := F))
  | n + 1, h => k0_pay2 (xblk0 V c ⟨n + 1, h⟩) (lblk0 V c ⟨n + 1, h⟩) (acc0 c n (Nat.lt_of_succ_lt h))

theorem acc0_zero (c : Dev nD) (h : 0 < cfg0.N) :
    acc0 V c 0 h = k0_pay2 (xblk0 V c ⟨0, h⟩) (lblk0 V c ⟨0, h⟩) (k0_pay1 (F := F)) := rfl

theorem acc0_succ (c : Dev nD) (n : ℕ) (h : n + 1 < cfg0.N) :
    acc0 V c (n + 1) h = k0_pay2 (xblk0 V c ⟨n + 1, h⟩) (lblk0 V c ⟨n + 1, h⟩) (acc0 V c n (Nat.lt_of_succ_lt h)) := rfl

end Cert.KernelIdeal.Hand

end
-- ==== Proof.KIR0Frame.lean ====
/-
  Region 0 as a pipeline with a carried running sum, at any float instance: the invariant between grid points holds
  the (1,1) scratch at the sum so far (at anything before the first point, which stores a zero into it first); the
  body at a point adds the tile's partial sum; the output window is stored at the last point only, with the final
  sum, and is idle elsewhere. From this: the body obligation at every point, the invariant's entry and exit, and the
  output array after the region.
-/
import proofs.«414664_j17102559773292_3_alg».proof.Proof.KIR0Defs
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The running sum's scratch, as the kernel is handed it. -/
abbrev scM0 : Memref sig .tc .vmem S1x1 .f32 := Memref.whole cc0_scratch0

/-- The invariant before position `n`: before the first point whatever the launch hands the region; afterwards the
    scratch at the sum the point before left, the other scoped buffers unopened, the generator register at some state. -/
def Phi0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r))

/-- Region 0's proof data on core `c`: the arrays as the region finds them; each input's buffer left at its block;
    the output's buffer at the running sum (consulted at the last point only: elsewhere the window is idle). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The launch's invariant with the scratch split out of the scoped rest. -/
theorem PhiA0_eq (c : Dev nD) :
    (Pipeline.ΦA spec0 c : sProp 𝕄)
      = iprop((∃ d, owns (c : Thread nD τ) scM0 fullShare d)
          ∗ Pipeline.scopedRestBut (Ix := Unit) (Name := ℕ) (U := UR sig nD τ) (Lvl := ℕ) (Val := Elt F) spec0 c [cc0_scratch0]
          ∗ (∃ r, prngReg c r)) := by
  unfold Pipeline.ΦA
  rw [Pipeline.scopedRest_split_of_list spec0 c [cc0_scratch0] (by decide) (by decide)]
  simp only [Idealize.SL.BI.bigSepL_singleton, scM0, owns_whole]
  exact _root_.Idealize.SL.BI.Entails.antisymm _root_.Idealize.SL.BI.sep_assoc _root_.Idealize.SL.BI.sep_assoc'

/-- The invariant before the first point is the launch's. -/
theorem Phi0_zero (c : Dev nD) (n : ℕ) (h : n ≤ cfg0.N) (hz : n = 0) : Phi0 V c n h = Pipeline.ΦA spec0 c := by
  subst hz; rfl

/-- The invariant after point `n`: the scratch at that point's sum. -/
theorem Phi0_succ (c : Dev nD) (n : ℕ) (hn : n < cfg0.N) :
    Phi0 V c (n + 1) hn = iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ (∃ r, prngReg c r)) := rfl

/-- The invariant before a point that is not the first: the scratch at the sum the point before left. -/
theorem Phi0_pos (c : Dev nD) (n : ℕ) (h : n ≤ cfg0.N) (hz : n ≠ 0) :
    Phi0 V c n h = iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-- What the launch hands the region is the invariant before the first point. -/
theorem hin0 (c : Dev nD) : (Pipeline.ΦA spec0 c : sProp 𝕄) ⊢ (dat0 V c).Φ 0 := by
  rw [show (dat0 V c).Φ 0 = Phi0 V c 0 (Nat.zero_le _) from rfl, Phi0_zero V c 0 _ rfl]

/-- After the last point the invariant gives the launch's back, the sum's name forgotten. -/
theorem hout0 (c : Dev nD) : (dat0 V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 48 := N_0; omega), PhiA0_eq]
  iintro ⟨HS, HR, Hg⟩
  isplitl [HS]; · iexists _; iexact HS
  isplitl [HR]; · iexact HR
  iexact Hg

/-! ## The body's two conditions, in closed form over the grid -/

/-- The condition of the body's first conditional (the reset of the running sum), from the grid coordinate. -/
abbrev cond0_1 (i : grid0.Coords) : Prop :=
  (Scalar.cmpi .ne (Scalar.extui (Scalar.cmpi .eq (BitVec.ofNat 32 (i 0).val) 0#32)) 0#32) = 1#1
/-- It holds at the first point only. -/
theorem hcond0_1 : ∀ t : Fin cfg0.N, cond0_1 (grid0.coords t) ↔ t.val % 48 = 0 :=
  (by decide +kernel : ∀ t : Fin grid0.N, cond0_1 (grid0.coords t) ↔ t.val % 48 = 0)

/-- The condition of the body's second conditional (the publication of the sum), from the grid coordinate. -/
abbrev cond0_2 (i : grid0.Coords) : Prop := k0_cond2 i = 1#1
/-- It holds at the last point only. -/
theorem hcond0_2 : ∀ t : Fin cfg0.N, cond0_2 (grid0.coords t) ↔ t.val % 48 = 47 :=
  (by decide +kernel : ∀ t : Fin grid0.N, cond0_2 (grid0.coords t) ↔ t.val % 48 = 47)

/-! ## The kernel body on any whole staging memrefs, case by case -/

/-- The zero offsets of a rank-2 access, as the constant function. -/
theorem zz2 : (![0, 0] : Fin 2 → Nat) = fun _ => 0 := by
  funext a; fin_cases a <;> rfl

/-- A list of stores whose last is the whole (1,1) block covers it. -/
theorem cover0_S (p : Vec F S1x1 .f32) (L : List (View.Piece (Elt F) S1x1 .f32)) (y : S1x1.Idx) :
    ∃ pc ∈ ((⟨Rect.unit ![0, 0] S1x1.size inb_S1x1_S1x1_0_0, p⟩ : View.Piece (Elt F) S1x1 .f32) :: L), y ∈ pc.1.set :=
  ⟨_, List.mem_cons_self, View.mem_set_unit_zero zz2 inb_S1x1_S1x1_0_0 y⟩

set_option maxHeartbeats 1000000 in
/-- A middle point: neither conditional is taken; the body adds the tile's partial sum to the scratch and leaves the
    inputs' buffers as they were. -/
theorem kernel0_mid (c : Dev nD) (E : Set ℕ) (i : grid0.Coords)
    (arg1 : Memref sig .tc .vmem S1024x1000 .f32) (harg1 : arg1.IsWhole)
    (arg2 : Memref sig .tc .vmem S1024x1 .i32) (harg2 : arg2.IsWhole)
    (arg3 : Memref sig .tc .vmem S1x1 .f32) (harg3 : arg3.IsWhole)
    (arg4 : Memref sig .tc .vmem S1x1 .f32) (harg4 : arg4.IsWhole)
    (hc1 : ¬cond0_1 i) (hc2 : ¬cond0_2 i)
    (x0 : Vec F S1024x1000 .f32) (x1 : Vec F S1024x1 .i32) (s : Vec F S1x1 .f32) (K : PUnit → sProp 𝕄) :
    iprop(owns (c : Thread nD τ) arg1 fullShare x0 ∗ owns (c : Thread nD τ) arg2 fullShare x1
        ∗ owns (c : Thread nD τ) arg4 fullShare s
        ∗ (iprop(owns (c : Thread nD τ) arg1 fullShare x0 ∗ owns (c : Thread nD τ) arg2 fullShare x1
            ∗ owns (c : Thread nD τ) arg4 fullShare (k0_pay2 x0 x1 s)) -∗ K ⟨⟩))
      ⊢ wp frame (wpE (defs₀ (F := F)) Variants.none c none) E
          (cc0__softmax_loss_kernel i arg1 harg1 arg2 harg2 arg3 harg3 arg4 harg4) K := by
  simp only [cc0__softmax_loss_kernel_eq_skeleton]; unfold cc0__softmax_loss_kernel_skel
  unfold owns
  iintro ⟨⟨%f0, %hf0, H0⟩, ⟨%f1, %hf1, H1⟩, ⟨%f4, %hf4, H4⟩, Hk⟩
  obtain rfl := harg1.eq_unread hf0; obtain rfl := harg2.eq_unread hf1; obtain rfl := harg4.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H4
  ipureintro
  rw [View.read_writes_eq_canon _ _ _ (cover0_S _ _),
    View.canon_unit_zero zz2]
  simp only [View.readAt_eq_ld, harg1.read_unread, harg2.read_unread, harg4.read_unread,
    View.ld_unit_zero (S := S1024x1000) zz2, View.ld_unit_zero (S := S1024x1) zz2, View.ld_unit_zero (S := S1x1) zz2]

set_option maxHeartbeats 1000000 in
/-- The first point: the first conditional is taken and stores a zero into the scratch, whatever it held; the body then
    adds the tile's partial sum to that zero. -/
theorem kernel0_first (c : Dev nD) (E : Set ℕ) (i : grid0.Coords)
    (arg1 : Memref sig .tc .vmem S1024x1000 .f32) (harg1 : arg1.IsWhole)
    (arg2 : Memref sig .tc .vmem S1024x1 .i32) (harg2 : arg2.IsWhole)
    (arg3 : Memref sig .tc .vmem S1x1 .f32) (harg3 : arg3.IsWhole)
    (arg4 : Memref sig .tc .vmem S1x1 .f32) (harg4 : arg4.IsWhole)
    (hc1 : cond0_1 i) (hc2 : ¬cond0_2 i)
    (x0 : Vec F S1024x1000 .f32) (x1 : Vec F S1024x1 .i32) (K : PUnit → sProp 𝕄) :
    iprop(owns (c : Thread nD τ) arg1 fullShare x0 ∗ owns (c : Thread nD τ) arg2 fullShare x1
        ∗ (∃ s, owns (c : Thread nD τ) arg4 fullShare s)
        ∗ (iprop(owns (c : Thread nD τ) arg1 fullShare x0 ∗ owns (c : Thread nD τ) arg2 fullShare x1
            ∗ owns (c : Thread nD τ) arg4 fullShare (k0_pay2 x0 x1 (k0_pay1 (F := F)))) -∗ K ⟨⟩))
      ⊢ wp frame (wpE (defs₀ (F := F)) Variants.none c none) E
          (cc0__softmax_loss_kernel i arg1 harg1 arg2 harg2 arg3 harg3 arg4 harg4) K := by
  simp only [cc0__softmax_loss_kernel_eq_skeleton]; unfold cc0__softmax_loss_kernel_skel
  unfold owns
  iintro ⟨⟨%f0, %hf0, H0⟩, ⟨%f1, %hf1, H1⟩, ⟨%s, %f4, -, H4⟩, Hk⟩
  obtain rfl := harg1.eq_unread hf0; obtain rfl := harg2.eq_unread hf1
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H4
  ipureintro
  sl_unfold_words
  rw [View.read_writes_eq_canon _ _ _ (cover0_S _ _), View.canon_cons_unit_zero zz2]
  simp only [View.readAt_eq_ld, harg1.read_unread, harg2.read_unread, View.readCov_unit_zero (S := S1x1) _ zz2,
    View.ld_unit_zero (S := S1024x1000) zz2, View.ld_unit_zero (S := S1024x1) zz2]

set_option maxHeartbeats 1000000 in
/-- The last point: the body adds the tile's partial sum to the scratch, then the second conditional copies the scratch
    into the output's buffer, whatever that held. -/
theorem kernel0_last (c : Dev nD) (E : Set ℕ) (i : grid0.Coords)
    (arg1 : Memref sig .tc .vmem S1024x1000 .f32) (harg1 : arg1.IsWhole)
    (arg2 : Memref sig .tc .vmem S1024x1 .i32) (harg2 : arg2.IsWhole)
    (arg3 : Memref sig .tc .vmem S1x1 .f32) (harg3 : arg3.IsWhole)
    (arg4 : Memref sig .tc .vmem S1x1 .f32) (harg4 : arg4.IsWhole)
    (hc1 : ¬cond0_1 i) (hc2 : cond0_2 i)
    (x0 : Vec F S1024x1000 .f32) (x1 : Vec F S1024x1 .i32) (s : Vec F S1x1 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare s
        ∗ (iprop(owns (c : Thread nD τ) arg1 fullShare x0 ∗ owns (c : Thread nD τ) arg2 fullShare x1
            ∗ owns (c : Thread nD τ) arg3 fullShare (k0_pay2 x0 x1 s)
            ∗ owns (c : Thread nD τ) arg4 fullShare (k0_pay2 x0 x1 s)) -∗ K ⟨⟩))
      ⊢ wp frame (wpE (defs₀ (F := F)) Variants.none c none) E
          (cc0__softmax_loss_kernel i arg1 harg1 arg2 harg2 arg3 harg3 arg4 harg4) K := by
  simp only [cc0__softmax_loss_kernel_eq_skeleton]; unfold cc0__softmax_loss_kernel_skel
  unfold owns
  iintro ⟨⟨%f0, %hf0, H0⟩, ⟨%f1, %hf1, H1⟩, ⟨%d, %f3, -, H3⟩, ⟨%f4, %hf4, H4⟩, Hk⟩
  obtain rfl := harg1.eq_unread hf0; obtain rfl := harg2.eq_unread hf1; obtain rfl := harg4.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    sl_unfold_words
    rw [View.read_writes_eq_canon _ _ _ (cover0_S _ _), View.canon_unit_zero zz2]
    simp only [View.readAt_eq_ld, harg1.read_unread, harg2.read_unread, harg4.read_unread,
      View.readCov_unit_zero (S := S1x1) _ zz2,
      View.ld_unit_zero (S := S1024x1000) zz2, View.ld_unit_zero (S := S1024x1) zz2, View.ld_unit_zero (S := S1x1) zz2]
  iexists _; isplitr
  swap; · iexact H4
  ipureintro
  sl_unfold_words
  rw [View.read_writes_eq_canon _ _ _ (cover0_S _ _),
    View.canon_unit_zero zz2]
  simp only [View.readAt_eq_ld, harg1.read_unread, harg2.read_unread, harg4.read_unread,
    View.ld_unit_zero (S := S1024x1000) zz2, View.ld_unit_zero (S := S1024x1) zz2, View.ld_unit_zero (S := S1x1) zz2]

/-! ## The proof data opened -/

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-- An input window's current buffer holds its block at every point, fetched there or not: the window is uncut, never
    idle, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Where the windows are idle, decided over the grid -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the output window is idle and is not written back. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
/-- At the last point it is live. -/
theorem liveAt0_2 : ∀ t : Fin cfg0.N, cond0_2 (grid0.coords t) → cfg0.idle 2 (grid0.coords t) = false := by decide +kernel

/-! ## The running sum at a point, by the point's position -/

theorem acc0_first (c : Dev nD) (t : Fin cfg0.N) (hz : t.val = 0) :
    acc0 V c t.val t.isLt = k0_pay2 (xblk0 V c t) (lblk0 V c t) (k0_pay1 (F := F)) := by
  obtain ⟨n, hn⟩ := t
  cases n with
  | zero => rfl
  | succ n => exact absurd hz (Nat.succ_ne_zero n)

theorem acc0_pos (c : Dev nD) (t : Fin cfg0.N) (hz : t.val ≠ 0) :
    acc0 V c t.val t.isLt
      = k0_pay2 (xblk0 V c t) (lblk0 V c t) (acc0 V c (t.val - 1) (Nat.lt_of_le_of_lt (Nat.sub_le _ _) t.isLt)) := by
  obtain ⟨n, hn⟩ := t
  cases n with
  | zero => exact absurd rfl hz
  | succ n => rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the position says which of the three cases the point
    is in. At the first point the invariant hands the scratch at anything and takes it back at the first sum; at a later
    point it hands it at the sum the point before left and takes it back at this point's. Away from the last point the
    output's buffer is handed back as found; at the last it is taken at anything and returned at the final sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 48 := lt_of_lt_of_eq t.isLt (show cfg0.N = 48 from N_0)
  by_cases h1 : t.val % 48 = 0
  · have h2 : ¬t.val % 48 = 47 := by omega
    have hz : t.val = 0 := by omega
    rw [Dat.leavesExact_idle (dat0 V c) 2 t (idleAt0_2 t (fun h => h2 ((hcond0_2 t).mp h))) (noFlush0_2 t (fun h => h2 ((hcond0_2 t).mp h)))]
    rw [Phi0_castSucc V c t, Phi0_zero V c _ _ hz, PhiA0_eq, acc0_first V c t hz]
    iintro ⟨⟨⟨%s, HS⟩, HR, Hg⟩, Ho, ⟨%d0, H0⟩, ⟨%d1, H1⟩, ⟨%d2, H2⟩⟩
    iapply (kernel0_first c Set.univ (grid0.coords t) _ _ _ _ _ _ _ _ ((hcond0_1 t).mpr h1) (fun h => h2 ((hcond0_2 t).mp h))
      (xblk0 V c t) (lblk0 V c t) _)
    isplitl [H0]; · iexact H0
    isplitl [H1]; · iexact H1
    isplitl [HS]; · iexists _; iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · have hz : t.val ≠ 0 := by omega
    by_cases h2 : t.val % 48 = 47
    · rw [show (dat0 V c).leavesExact 2 t = owns (c : Thread nD τ) (st0_2 t) fullShare ((dat0 V c).after 2 t) from by
        unfold Dat.leavesExact; rw [liveAt0_2 t ((hcond0_2 t).mpr h2)], after0_2]
      rw [Phi0_castSucc V c t, Phi0_pos V c _ _ hz, acc0_pos V c t hz]
      iintro ⟨⟨HS, HR, Hg⟩, Ho, ⟨%d0, H0⟩, ⟨%d1, H1⟩, ⟨%d2, H2⟩⟩
      iapply (kernel0_last c Set.univ (grid0.coords t) _ _ _ _ _ _ _ _ (fun h => h1 ((hcond0_1 t).mp h)) ((hcond0_2 t).mpr h2)
        (xblk0 V c t) (lblk0 V c t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [Dat.leavesExact_idle (dat0 V c) 2 t (idleAt0_2 t (fun h => h2 ((hcond0_2 t).mp h))) (noFlush0_2 t (fun h => h2 ((hcond0_2 t).mp h)))]
      rw [Phi0_castSucc V c t, Phi0_pos V c _ _ hz, acc0_pos V c t hz]
      iintro ⟨⟨HS, HR, Hg⟩, Ho, ⟨%d0, H0⟩, ⟨%d1, H1⟩, ⟨%d2, H2⟩⟩
      iapply (kernel0_mid c Set.univ (grid0.coords t) _ _ _ _ _ _ _ _ (fun h => h1 ((hcond0_1 t).mp h)) (fun h => h2 ((hcond0_2 t).mp h))
        (xblk0 V c t) (lblk0 V c t) _ _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The body obligation at every point of region 0. -/
theorem body_obligation0 (c : Dev nD) :
    BodyObligation (dat0 (F := F) V c) (defs₀ (F := F)) Variants.none () Set.univ := by
  intro t
  rw [bigSep_W0, bigSep_W0]
  exact sound_body0 V c t

/-! ## The output array after the region -/

/-- The last point of the grid. -/
abbrev tLast0 : Fin cfg0.N := ⟨47, by decide⟩

/-- The final sum, as contents of the output array: its one block is the whole array. -/
abbrev res0 (c : Dev nD) : Buf (Elt F) ((c : Thread nD τ).loc main_v3) := acc0 V c 47 (by decide)

/-- The output window's block sits at the array's origin: its offsets at the last point vanish. -/
theorem off0_2 : (fun a => win0_2.index tLast0 a * main_v3.ty.shape.size a) = fun _ => 0 :=
  funext fun a => by fin_cases a <;> decide

/-- The one write-back, at the last point, writes the final sum: the block read through zero offsets is the array. -/
theorem flushed0_eq (c : Dev nD) (t : Fin cfg0.N) (hf : (cfg0.win 2).flush t = true) :
    (dat0 V c).flushed 2 t = ((cfg0.win 2).blk t).view.read (Elt F) (res0 V c) := by
  have hN : cfg0.N = 48 := N_0
  have h47 : t.val = 47 := by have := (flush0_2 t).mp hf; have := t.isLt; omega
  obtain rfl : t = tLast0 := Fin.ext h47
  show (cfg0.win 2).cut (grid0.coords tLast0) ((dat0 V c).after 2 tLast0) = _
  rw [after0_2]
  exact (Memref.read_access_unit_zero (Elt F) main_v3 off0_2 (fun a => by rw [congrFun off0_2 a]; simp) (res0 V c)).symm

/-- The output array after the region: the running sum after the last point. -/
theorem arrAt0_out (c : Dev nD) : (dat0 V c).arrAt 2 cfg0.N = acc0 V c 47 (by decide) := by
  refine (dat0 V c).arrAt_eq_of_cover 2 (res0 V c) (flushed0_eq V c) fun i => ⟨tLast0, (flush0_2 tLast0).mpr rfl, ?_⟩
  show i ∈ ((View.whole main_v3).slice (win0_2.rect tLast0)).set
  rw [View.set_slice_whole]
  exact View.mem_set_unit_zero off0_2 _ i

end Cert.KernelIdeal.Hand

end
-- ==== Proof.KIR1Defs.lean ====
/-
  Region 1 (the streamed triplet and center sums), the quantities its frame and its value are both stated over, at
  any float instance: each window's block at a grid point; the two (1,1) running sums the kernel keeps in scratch —
  the center terms c1 + c2 and the triplet term t of the tile's 512 rows, each added to what the point before left,
  the first point adding to the zero it has just stored.
-/
import proofs.«414664_j17102559773292_3_alg».proof.Proof.Gen.KernelIdeal.Launch
import proofs.«414664_j17102559773292_3_alg».proof.Proof.Gen.KernelIdeal.Skeleton
import proofs.«414664_j17102559773292_3_alg».proof.Proof.Gen.KernelIdeal.Points
import Idealize.ShloMosaic.Lib.Pipeline.FrameBody

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (V : (c : Dev nD) → (b : Ref sig .tc) → Buf (Elt F) ((c : Thread nD τ).loc b))

/-- Window `w`'s block at point `t` of region 1, read off its array at the region's entry contents `V`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The point's 512 anchor rows, positive rows, negative rows; the whole exemplar table; the two label columns. -/
abbrev ablk1 (c : Dev nD) (t : Fin cfg1.N) : Vec F S512x512 .f32 := iblk1 V c 0 t
abbrev pblk1 (c : Dev nD) (t : Fin cfg1.N) : Vec F S512x512 .f32 := iblk1 V c 1 t
abbrev nblk1 (c : Dev nD) (t : Fin cfg1.N) : Vec F S512x512 .f32 := iblk1 V c 2 t
abbrev eblk1 (c : Dev nD) (t : Fin cfg1.N) : Vec F S1000x512 .f32 := iblk1 V c 3 t
abbrev lablk1 (c : Dev nD) (t : Fin cfg1.N) : Vec F S512x1 .i32 := iblk1 V c 4 t
abbrev lnblk1 (c : Dev nD) (t : Fin cfg1.N) : Vec F S512x1 .i32 := iblk1 V c 5 t

/-- The distance offset the kernel adds inside every pairwise distance, and its zero, as it spells them. -/
abbrev eps1 : F .f32 := Scalar.ofBits .f32 0x358637BD#32
abbrev zero1 : F .f32 := Scalar.ofBits .f32 0x00000000#32

/-- One point's update of the center sum: the tile's Σ (c1 + c2) added to `a`. -/
def stepC (xa xn : Vec F S512x512 .f32) (ex : Vec F S1000x512 .f32) (la ln : Vec F S512x1 .i32)
    (a : Vec F S1x1 .f32) : Vec F S1x1 .f32 :=
  k1_pay1 (k1_pay14 (k1_pay7 la ex xa) (k1_pay8 la ex xn))
    (k1_pay15 (k1_pay6 ln ex) xn (k1_pay9 ln ex xa) (eps1 (F := F)))
    (k1_pay16 (k1_pay6 ln ex) xn (k1_pay9 ln ex xa) (eps1 (F := F))) (zero1 (F := F)) a

/-- One point's update of the triplet sum: the tile's Σ t added to `a`. -/
def stepT (xa xp xn : Vec F S512x512 .f32) (a : Vec F S1x1 .f32) : Vec F S1x1 .f32 :=
  k1_pay2 (k1_pay12 xa xp) (k1_pay13 xa xn) a

/-- What the center scratch holds after the body at position `n`. -/
def accC (c : Dev nD) : (n : ℕ) → n < cfg1.N → Vec F S1x1 .f32
  | 0, h => stepC (ablk1 V c ⟨0, h⟩) (nblk1 V c ⟨0, h⟩) (eblk1 V c ⟨0, h⟩) (lablk1 V c ⟨0, h⟩) (lnblk1 V c ⟨0, h⟩) (k1_pay3 (F := F))
  | n + 1, h => stepC (ablk1 V c ⟨n + 1, h⟩) (nblk1 V c ⟨n + 1, h⟩) (eblk1 V c ⟨n + 1, h⟩) (lablk1 V c ⟨n + 1, h⟩) (lnblk1 V c ⟨n + 1, h⟩)
      (accC c n (Nat.lt_of_succ_lt h))

/-- What the triplet scratch holds after the body at position `n`. -/
def accT (c : Dev nD) : (n : ℕ) → n < cfg1.N → Vec F S1x1 .f32
  | 0, h => stepT (ablk1 V c ⟨0, h⟩) (pblk1 V c ⟨0, h⟩) (nblk1 V c ⟨0, h⟩) (k1_pay4 (F := F))
  | n + 1, h => stepT (ablk1 V c ⟨n + 1, h⟩) (pblk1 V c ⟨n + 1, h⟩) (nblk1 V c ⟨n + 1, h⟩) (accT c n (Nat.lt_of_succ_lt h))

theorem accC_zero (c : Dev nD) (h : 0 < cfg1.N) :
    accC V c 0 h = stepC (ablk1 V c ⟨0, h⟩) (nblk1 V c ⟨0, h⟩) (eblk1 V c ⟨0, h⟩) (lablk1 V c ⟨0, h⟩) (lnblk1 V c ⟨0, h⟩) (k1_pay3 (F := F)) := rfl
theorem accC_succ (c : Dev nD) (n : ℕ) (h : n + 1 < cfg1.N) :
    accC V c (n + 1) h = stepC (ablk1 V c ⟨n + 1, h⟩) (nblk1 V c ⟨n + 1, h⟩) (eblk1 V c ⟨n + 1, h⟩) (lablk1 V c ⟨n + 1, h⟩) (lnblk1 V c ⟨n + 1, h⟩)
      (accC V c n (Nat.lt_of_succ_lt h)) := rfl
theorem accT_zero (c : Dev nD) (h : 0 < cfg1.N) :
    accT V c 0 h = stepT (ablk1 V c ⟨0, h⟩) (pblk1 V c ⟨0, h⟩) (nblk1 V c ⟨0, h⟩) (k1_pay4 (F := F)) := rfl
theorem accT_succ (c : Dev nD) (n : ℕ) (h : n + 1 < cfg1.N) :
    accT V c (n + 1) h = stepT (ablk1 V c ⟨n + 1, h⟩) (pblk1 V c ⟨n + 1, h⟩) (nblk1 V c ⟨n + 1, h⟩) (accT V c n (Nat.lt_of_succ_lt h)) := rfl

end Cert.KernelIdeal.Hand

end
-- ==== Proof.KIR1Frame.lean ====
/-
  Region 1 as a pipeline with two carried running sums, at any float instance: the invariant between grid points
  holds the two (1,1) scratch buffers at the center sum and the triplet sum so far (at anything before the first
  point, which stores zeros into them first); the body at a point adds the tile's two partial sums; the two output
  windows are stored at the last point only, with the final sums, and are idle elsewhere. From this: the body
  obligation at every point, the invariant's entry and exit, and the two output arrays after the region.
-/
import proofs.«414664_j17102559773292_3_alg».proof.Proof.KIR1Defs
import Idealize.ShloMosaic.Lib.Pipeline.FrameBody
import Idealize.ShloMosaic.Lib.Pipeline.Value
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two running sums' scratch buffers, as the kernel is handed them. -/
abbrev scC1 : Memref sig .tc .vmem S1x1 .f32 := Memref.whole cc1_scratch0
abbrev scT1 : Memref sig .tc .vmem S1x1 .f32 := Memref.whole cc1_scratch1

/-- The invariant before position `n`: before the first point whatever the launch hands the region; afterwards the
    two scratch buffers at the sums the point before left, the other scoped buffers unopened, the generator register
    at some state. -/
def Phi1 (c : Dev nD) : (n : ℕ) → n ≤ cfg1.N → sProp 𝕄
  | 0, _ => Pipeline.ΦA spec1 c
  | n + 1, hn => iprop(owns (c : Thread nD τ) scC1 fullShare (accC V c n hn)
      ∗ owns (c : Thread nD τ) scT1 fullShare (accT V c n hn)
      ∗ Pipeline.scopedRestBut (Ix := Unit) (Name := ℕ) (U := UR sig nD τ) (Lvl := ℕ) (Val := Elt F) spec1 c [cc1_scratch0, cc1_scratch1]
      ∗ (∃ r, prngReg c r))

/-- Region 1's proof data on core `c`: the arrays as the region finds them; each input's buffer left at its block;
    the two outputs' buffers at the running sums (consulted at the last point only: elsewhere the windows are idle). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => accC V c t.val t.isLt
    | ⟨7, _⟩ => accT V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- Four conjuncts grouped to the left are the four grouped to the right. -/
private theorem sep4_assoc (C T R G : sProp 𝕄) : (iprop(((C ∗ T) ∗ R) ∗ G) : sProp 𝕄) = iprop(C ∗ T ∗ R ∗ G) := by
  have h₁ : iprop(((C ∗ T) ∗ R) ∗ G) ⊢ (iprop(C ∗ T ∗ R ∗ G) : sProp 𝕄) := by
    iintro ⟨⟨⟨HC, HT⟩, HR⟩, Hg⟩
    isplitl [HC]; · iexact HC
    isplitl [HT]; · iexact HT
    isplitl [HR]; · iexact HR
    iexact Hg
  have h₂ : iprop(C ∗ T ∗ R ∗ G) ⊢ (iprop(((C ∗ T) ∗ R) ∗ G) : sProp 𝕄) := by
    iintro ⟨HC, HT, HR, Hg⟩
    isplitr [Hg]
    · isplitr [HR]
      · isplitl [HC]; · iexact HC
        iexact HT
      iexact HR
    iexact Hg
  exact BI.equiv_iff.mp ⟨h₁, h₂⟩

/-- The launch's invariant with the two scratch buffers split out of the scoped rest. -/
theorem PhiA1_eq (c : Dev nD) :
    (Pipeline.ΦA spec1 c : sProp 𝕄)
      = iprop((∃ d, owns (c : Thread nD τ) scC1 fullShare d) ∗ (∃ d, owns (c : Thread nD τ) scT1 fullShare d)
          ∗ Pipeline.scopedRestBut (Ix := Unit) (Name := ℕ) (U := UR sig nD τ) (Lvl := ℕ) (Val := Elt F) spec1 c [cc1_scratch0, cc1_scratch1]
          ∗ (∃ r, prngReg c r)) := by
  unfold Pipeline.ΦA
  rw [Pipeline.scopedRest_split_of_list spec1 c [cc1_scratch0, cc1_scratch1] (by decide) (by decide)]
  simp only [bigSepL_cons_cons, bigSepL_singleton, scC1, scT1, owns_whole]
  exact sep4_assoc _ _ _ _

/-- The zero offsets of a rank-2 rectangle, as the printed program spells them. -/
private theorem zeros2 : (![0, 0] : Fin 2 → ℕ) = fun _ => 0 := by
  funext a; fin_cases a <;> rfl

/-- One store of a whole buffer, over any contents, read back: the stored value. -/
private theorem read_store_whole {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz inb w]

/-- Two stores of a whole buffer, read back: the later one's value. -/
private theorem read_store_whole₂ {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e)
    (p : View.Piece (Elt F) S e) :
    v.read (Elt F) (v.writes (Elt F) f [(⟨Rect.unit off S.size inb, w⟩ : View.Piece (Elt F) S e), p]) = w := by
  rw [View.read_writes_eq_canon _ _ _ (fun y => ⟨_, List.mem_cons_self, View.mem_set_unit_zero hz inb y⟩),
    View.canon_cons_unit_zero hz inb w]

/-- The condition of the body's first conditional (the point is the first), from the grid coordinates. -/
abbrev cond1_0 (i : grid1.Coords) : Prop :=
  (Scalar.cmpi .ne (Scalar.extui (Scalar.cmpi .eq (BitVec.ofNat 32 (i 0).val) 0#32)) 0#32) = 1#1
/-- The condition of its last conditional (the point is the last). -/
abbrev cond1_1 (i : grid1.Coords) : Prop := k1_cond2 i = 1#1

set_option maxHeartbeats 1600000 in
/-- The body at a point that is neither the first nor the last: everything is handed back as found but the two
    scratch buffers, each advanced by the tile's partial sum. -/
theorem run1_mid (c : Dev nD) (E : Set ℕ) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1000x512 .f32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole)
    (hc0 : ¬cond1_0 i) (hc1 : ¬cond1_1 i) (xa xp xn : Vec F S512x512 .f32) (ex : Vec F S1000x512 .f32) (la ln : Vec F S512x1 .i32) (d7 d8 : Vec F S1x1 .f32) (sC sT : Vec F S1x1 .f32) (K : PUnit → sProp 𝕄) :
    iprop(owns (c : Thread nD τ) arg1 fullShare xa ∗ owns (c : Thread nD τ) arg2 fullShare xp ∗ owns (c : Thread nD τ) arg3 fullShare xn
        ∗ owns (c : Thread nD τ) arg4 fullShare ex ∗ owns (c : Thread nD τ) arg5 fullShare la ∗ owns (c : Thread nD τ) arg6 fullShare ln
        ∗ owns (c : Thread nD τ) arg7 fullShare d7 ∗ owns (c : Thread nD τ) arg8 fullShare d8
        ∗ owns (c : Thread nD τ) arg9 fullShare sC ∗ owns (c : Thread nD τ) arg10 fullShare sT
        ∗ (iprop(owns (c : Thread nD τ) arg1 fullShare xa ∗ owns (c : Thread nD τ) arg2 fullShare xp ∗ owns (c : Thread nD τ) arg3 fullShare xn
            ∗ owns (c : Thread nD τ) arg4 fullShare ex ∗ owns (c : Thread nD τ) arg5 fullShare la ∗ owns (c : Thread nD τ) arg6 fullShare ln
            ∗ owns (c : Thread nD τ) arg7 fullShare d7 ∗ owns (c : Thread nD τ) arg8 fullShare d8
            ∗ owns (c : Thread nD τ) arg9 fullShare (stepC xa xn ex la ln sC) ∗ owns (c : Thread nD τ) arg10 fullShare (stepT xa xp xn sT)) -∗ K ⟨⟩))
      ⊢ wp frame (wpE (defs₀ (F := F)) Variants.none c none) E (cc1__triplet_center_kernel i arg1 harg1 arg2 harg2 arg3 harg3 arg4 harg4 arg5 harg5 arg6 harg6 arg7 harg7 arg8 harg8 arg9 harg9 arg10 harg10) K := by
  simp only [cc1__triplet_center_kernel_eq_skeleton]; unfold cc1__triplet_center_kernel_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_words
    rw [read_store_whole (S := S1x1) _ _ zeros2]
    simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
    rfl
  iexists _; isplitr
  swap; · iexact H10
  ipureintro
  sl_unfold_words
  rw [read_store_whole (S := S1x1) _ _ zeros2]
  simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
  rfl

set_option maxHeartbeats 1600000 in
/-- The body at the first point: the two scratch buffers, whatever they held, are zeroed and then advanced by the
    tile's partial sums; everything else is handed back as found. -/
theorem run1_first (c : Dev nD) (E : Set ℕ) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1000x512 .f32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole)
    (hc0 : cond1_0 i) (hc1 : ¬cond1_1 i) (xa xp xn : Vec F S512x512 .f32) (ex : Vec F S1000x512 .f32) (la ln : Vec F S512x1 .i32) (d7 d8 : Vec F S1x1 .f32)  (K : PUnit → sProp 𝕄) :
    iprop(owns (c : Thread nD τ) arg1 fullShare xa ∗ owns (c : Thread nD τ) arg2 fullShare xp ∗ owns (c : Thread nD τ) arg3 fullShare xn
        ∗ owns (c : Thread nD τ) arg4 fullShare ex ∗ owns (c : Thread nD τ) arg5 fullShare la ∗ owns (c : Thread nD τ) arg6 fullShare ln
        ∗ owns (c : Thread nD τ) arg7 fullShare d7 ∗ owns (c : Thread nD τ) arg8 fullShare d8
        ∗ (∃ d, owns (c : Thread nD τ) arg9 fullShare d) ∗ (∃ d, owns (c : Thread nD τ) arg10 fullShare d)
        ∗ (iprop(owns (c : Thread nD τ) arg1 fullShare xa ∗ owns (c : Thread nD τ) arg2 fullShare xp ∗ owns (c : Thread nD τ) arg3 fullShare xn
            ∗ owns (c : Thread nD τ) arg4 fullShare ex ∗ owns (c : Thread nD τ) arg5 fullShare la ∗ owns (c : Thread nD τ) arg6 fullShare ln
            ∗ owns (c : Thread nD τ) arg7 fullShare d7 ∗ owns (c : Thread nD τ) arg8 fullShare d8
            ∗ owns (c : Thread nD τ) arg9 fullShare (stepC xa xn ex la ln (k1_pay3 (F := F))) ∗ owns (c : Thread nD τ) arg10 fullShare (stepT xa xp xn (k1_pay4 (F := F)))) -∗ K ⟨⟩))
      ⊢ wp frame (wpE (defs₀ (F := F)) Variants.none c none) E (cc1__triplet_center_kernel i arg1 harg1 arg2 harg2 arg3 harg3 arg4 harg4 arg5 harg5 arg6 harg6 arg7 harg7 arg8 harg8 arg9 harg9 arg10 harg10) K := by
  simp only [cc1__triplet_center_kernel_eq_skeleton]; unfold cc1__triplet_center_kernel_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_words
    rw [read_store_whole₂ (S := S1x1) _ _ zeros2]
    simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
    rfl
  iexists _; isplitr
  swap; · iexact H10
  ipureintro
  sl_unfold_words
  rw [read_store_whole₂ (S := S1x1) _ _ zeros2]
  simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
  rfl

set_option maxHeartbeats 1600000 in
/-- The body at the last point: the two scratch buffers are advanced by the tile's partial sums, and the two output
    buffers, whatever they held, are stored whole with the new sums. -/
theorem run1_last (c : Dev nD) (E : Set ℕ) (i : grid1.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1000x512 .f32) (harg4 : arg4.IsWhole) (arg5 : Memref sig .tc .vmem S512x1 .i32) (harg5 : arg5.IsWhole) (arg6 : Memref sig .tc .vmem S512x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole)
    (hc0 : ¬cond1_0 i) (hc1 : cond1_1 i) (xa xp xn : Vec F S512x512 .f32) (ex : Vec F S1000x512 .f32) (la ln : Vec F S512x1 .i32)  (sC sT : Vec F S1x1 .f32) (K : PUnit → sProp 𝕄) :
    iprop(owns (c : Thread nD τ) arg1 fullShare xa ∗ owns (c : Thread nD τ) arg2 fullShare xp ∗ owns (c : Thread nD τ) arg3 fullShare xn
        ∗ owns (c : Thread nD τ) arg4 fullShare ex ∗ owns (c : Thread nD τ) arg5 fullShare la ∗ owns (c : Thread nD τ) arg6 fullShare ln
        ∗ (∃ d, owns (c : Thread nD τ) arg7 fullShare d) ∗ (∃ d, owns (c : Thread nD τ) arg8 fullShare d)
        ∗ owns (c : Thread nD τ) arg9 fullShare sC ∗ owns (c : Thread nD τ) arg10 fullShare sT
        ∗ (iprop(owns (c : Thread nD τ) arg1 fullShare xa ∗ owns (c : Thread nD τ) arg2 fullShare xp ∗ owns (c : Thread nD τ) arg3 fullShare xn
            ∗ owns (c : Thread nD τ) arg4 fullShare ex ∗ owns (c : Thread nD τ) arg5 fullShare la ∗ owns (c : Thread nD τ) arg6 fullShare ln
            ∗ owns (c : Thread nD τ) arg7 fullShare (stepC xa xn ex la ln sC) ∗ owns (c : Thread nD τ) arg8 fullShare (stepT xa xp xn sT)
            ∗ owns (c : Thread nD τ) arg9 fullShare (stepC xa xn ex la ln sC) ∗ owns (c : Thread nD τ) arg10 fullShare (stepT xa xp xn sT)) -∗ K ⟨⟩))
      ⊢ wp frame (wpE (defs₀ (F := F)) Variants.none c none) E (cc1__triplet_center_kernel i arg1 harg1 arg2 harg2 arg3 harg3 arg4 harg4 arg5 harg5 arg6 harg6 arg7 harg7 arg8 harg8 arg9 harg9 arg10 harg10) K := by
  simp only [cc1__triplet_center_kernel_eq_skeleton]; unfold cc1__triplet_center_kernel_skel
  simp only [k1_part1_eq_skeleton, k1_part2_eq_skeleton]; unfold k1_part1_skel k1_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [read_store_whole (S := S1x1) _ _ zeros2]
    simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
    rfl
  isplitl [H8]
  · iexists _; isplitr
    swap; · iexact H8
    ipureintro
    sl_unfold_words
    rw [read_store_whole (S := S1x1) _ _ zeros2]
    simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
    rfl
  isplitl [H9]
  · iexists _; isplitr
    swap; · iexact H9
    ipureintro
    sl_unfold_words
    rw [read_store_whole (S := S1x1) _ _ zeros2]
    simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
    rfl
  iexists _; isplitr
  swap; · iexact H10
  ipureintro
  sl_unfold_words
  rw [read_store_whole (S := S1x1) _ _ zeros2]
  simp only [View.readAt_eq_ld, Memref.IsWhole.read_unread, View.readCov_unit_zero (S := S1x1) _ zeros2, View.ld_unit_zero (S := S1x1) zeros2, View.ld_unit_zero (S := S512x512) zeros2, View.ld_unit_zero (S := S1000x512) zeros2, View.ld_unit_zero (S := S512x1) zeros2]
  rfl

/-- The first conditional holds at the first point only, the last at the last only: decided over the grid. -/
theorem hcond1_0 : ∀ t : Fin cfg1.N, cond1_0 (grid1.coords t) ↔ t.val % 32 = 0 :=
  (by decide +kernel : ∀ t : Fin grid1.N, cond1_0 (grid1.coords t) ↔ t.val % 32 = 0)
theorem hcond1_1 : ∀ t : Fin cfg1.N, cond1_1 (grid1.coords t) ↔ t.val % 32 = 31 :=
  (by decide +kernel : ∀ t : Fin grid1.N, cond1_1 (grid1.coords t) ↔ t.val % 32 = 31)

/-- Away from the last point the two output windows are idle and not written back; at the last point they are live. -/
theorem idleAt1_6 : ∀ t : Fin cfg1.N, ¬cond1_1 (grid1.coords t) → cfg1.idle 6 (grid1.coords t) = true := by decide +kernel
theorem idleAt1_7 : ∀ t : Fin cfg1.N, ¬cond1_1 (grid1.coords t) → cfg1.idle 7 (grid1.coords t) = true := by decide +kernel
theorem noFlush1_6 : ∀ t : Fin cfg1.N, ¬cond1_1 (grid1.coords t) → (cfg1.win 6).flush t = false := by decide +kernel
theorem noFlush1_7 : ∀ t : Fin cfg1.N, ¬cond1_1 (grid1.coords t) → (cfg1.win 7).flush t = false := by decide +kernel
theorem liveAt1_6 : ∀ t : Fin cfg1.N, cond1_1 (grid1.coords t) → cfg1.idle 6 (grid1.coords t) = false := by decide +kernel
theorem liveAt1_7 : ∀ t : Fin cfg1.N, cond1_1 (grid1.coords t) → cfg1.idle 7 (grid1.coords t) = false := by decide +kernel

/-- What the body leaves in each input window's buffer: its block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = accC V c t.val t.isLt := by dsimp only [dat1]
theorem after1_7 (c : Dev nD) (t : Fin cfg1.N) : (dat1 V c).after 7 t = accT V c t.val t.isLt := by dsimp only [dat1]

/-- Each input window's current buffer holds its block at every point, fetched there or not (the exemplar table is
    fetched once: its block index never moves). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- The invariant before a point, by whether it is the first. -/
theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) scC1 fullShare (accC V c n hn) ∗ owns (c : Thread nD τ) scT1 fullShare (accT V c n hn)
      ∗ Pipeline.scopedRestBut (Ix := Unit) (Name := ℕ) (U := UR sig nD τ) (Lvl := ℕ) (Val := Elt F) spec1 c [cc1_scratch0, cc1_scratch1] ∗ (∃ r, prngReg c r)) := rfl
theorem Phi1_pos (c : Dev nD) (n : ℕ) (h : n ≤ cfg1.N) (hz : n ≠ 0) :
    Phi1 V c n h = iprop(owns (c : Thread nD τ) scC1 fullShare (accC V c (n - 1) (by omega)) ∗ owns (c : Thread nD τ) scT1 fullShare (accT V c (n - 1) (by omega))
      ∗ Pipeline.scopedRestBut (Ix := Unit) (Name := ℕ) (U := UR sig nD τ) (Lvl := ℕ) (Val := Elt F) spec1 c [cc1_scratch0, cc1_scratch1] ∗ (∃ r, prngReg c r)) := by
  cases n with
  | zero => exact absurd rfl hz
  | succ n => rfl
theorem Phi1_castSucc (c : Dev nD) (t : Fin cfg1.N) :
    (dat1 V c).Φ t.castSucc = Phi1 V c t.val (Nat.le_of_lt t.isLt) := by
  dsimp only [dat1]; simp only [Fin.coe_castSucc]

/-- The running sums after a point, by whether it is the first. -/
theorem accC_first (c : Dev nD) (t : Fin cfg1.N) (hz : t.val = 0) :
    accC V c t.val t.isLt = stepC (ablk1 V c t) (nblk1 V c t) (eblk1 V c t) (lablk1 V c t) (lnblk1 V c t) (k1_pay3 (F := F)) := by
  obtain ⟨n, hn⟩ := t
  cases n with
  | zero => rfl
  | succ n => exact absurd hz (Nat.succ_ne_zero n)
theorem accC_next (c : Dev nD) (t : Fin cfg1.N) (hz : t.val ≠ 0) :
    accC V c t.val t.isLt = stepC (ablk1 V c t) (nblk1 V c t) (eblk1 V c t) (lablk1 V c t) (lnblk1 V c t) (accC V c (t.val - 1) (Nat.lt_of_le_of_lt (Nat.sub_le _ _) t.isLt)) := by
  obtain ⟨n, hn⟩ := t
  cases n with
  | zero => exact absurd rfl hz
  | succ n => rfl
theorem accT_first (c : Dev nD) (t : Fin cfg1.N) (hz : t.val = 0) :
    accT V c t.val t.isLt = stepT (ablk1 V c t) (pblk1 V c t) (nblk1 V c t) (k1_pay4 (F := F)) := by
  obtain ⟨n, hn⟩ := t
  cases n with
  | zero => rfl
  | succ n => exact absurd hz (Nat.succ_ne_zero n)
theorem accT_next (c : Dev nD) (t : Fin cfg1.N) (hz : t.val ≠ 0) :
    accT V c t.val t.isLt = stepT (ablk1 V c t) (pblk1 V c t) (nblk1 V c t) (accT V c (t.val - 1) (Nat.lt_of_le_of_lt (Nat.sub_le _ _) t.isLt)) := by
  obtain ⟨n, hn⟩ := t
  cases n with
  | zero => exact absurd rfl hz
  | succ n => rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) ((cfg1.win 0).stage (cfg1.slots t 0)) fullShare ((dat1 V c).before 0 t d))
    ∗ (∃ d, owns (c : Thread nD τ) ((cfg1.win 1).stage (cfg1.slots t 1)) fullShare ((dat1 V c).before 1 t d))
    ∗ (∃ d, owns (c : Thread nD τ) ((cfg1.win 2).stage (cfg1.slots t 2)) fullShare ((dat1 V c).before 2 t d))
    ∗ (∃ d, owns (c : Thread nD τ) ((cfg1.win 3).stage (cfg1.slots t 3)) fullShare ((dat1 V c).before 3 t d))
    ∗ (∃ d, owns (c : Thread nD τ) ((cfg1.win 4).stage (cfg1.slots t 4)) fullShare ((dat1 V c).before 4 t d))
    ∗ (∃ d, owns (c : Thread nD τ) ((cfg1.win 5).stage (cfg1.slots t 5)) fullShare ((dat1 V c).before 5 t d))
    ∗ (∃ d, owns (c : Thread nD τ) ((cfg1.win 6).stage (cfg1.slots t 6)) fullShare ((dat1 V c).before 6 t d))
    ∗ (∃ d, owns (c : Thread nD τ) ((cfg1.win 7).stage (cfg1.slots t 7)) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' buffers hold their blocks. At the first point the invariant hands the two scratch
    buffers at anything and takes them back at the first partial sums over zero; at a later point it hands them at the
    sums so far and takes them back advanced. Before the last point the two output buffers are idle and go back as they
    came; at the last point they are stored whole with the final sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ, Phi1_castSucc]
  rw [show (dat1 V c).leavesExact 0 t = owns (c : Thread nD τ) ((cfg1.win 0).stage (cfg1.slots t 0)) fullShare ((dat1 V c).after 0 t) from by
    unfold Dat.leavesExact; rw [show cfg1.idle 0 (cfg1.grid.coords t) = false from rfl], after1_0]
  rw [show (dat1 V c).leavesExact 1 t = owns (c : Thread nD τ) ((cfg1.win 1).stage (cfg1.slots t 1)) fullShare ((dat1 V c).after 1 t) from by
    unfold Dat.leavesExact; rw [show cfg1.idle 1 (cfg1.grid.coords t) = false from rfl], after1_1]
  rw [show (dat1 V c).leavesExact 2 t = owns (c : Thread nD τ) ((cfg1.win 2).stage (cfg1.slots t 2)) fullShare ((dat1 V c).after 2 t) from by
    unfold Dat.leavesExact; rw [show cfg1.idle 2 (cfg1.grid.coords t) = false from rfl], after1_2]
  rw [show (dat1 V c).leavesExact 3 t = owns (c : Thread nD τ) ((cfg1.win 3).stage (cfg1.slots t 3)) fullShare ((dat1 V c).after 3 t) from by
    unfold Dat.leavesExact; rw [show cfg1.idle 3 (cfg1.grid.coords t) = false from rfl], after1_3]
  rw [show (dat1 V c).leavesExact 4 t = owns (c : Thread nD τ) ((cfg1.win 4).stage (cfg1.slots t 4)) fullShare ((dat1 V c).after 4 t) from by
    unfold Dat.leavesExact; rw [show cfg1.idle 4 (cfg1.grid.coords t) = false from rfl], after1_4]
  rw [show (dat1 V c).leavesExact 5 t = owns (c : Thread nD τ) ((cfg1.win 5).stage (cfg1.slots t 5)) fullShare ((dat1 V c).after 5 t) from by
    unfold Dat.leavesExact; rw [show cfg1.idle 5 (cfg1.grid.coords t) = false from rfl], after1_5]
  have hN : t.val < 32 := lt_of_lt_of_eq t.isLt (show cfg1.N = 32 from N_1)
  by_cases hz : t.val = 0
  · have h0 : cond1_0 (grid1.coords t) := (hcond1_0 t).mpr (by omega)
    have h1 : ¬cond1_1 (grid1.coords t) := fun h => by have := (hcond1_1 t).mp h; omega
    rw [Dat.leavesExact_idle (dat1 V c) 6 t (idleAt1_6 t h1) (noFlush1_6 t h1), Dat.leavesExact_idle (dat1 V c) 7 t (idleAt1_7 t h1) (noFlush1_7 t h1)]
    rw [Phi1_zero V c _ _ hz, PhiA1_eq, accC_first V c t hz, accT_first V c t hz]
    iintro ⟨⟨⟨%dC, HC⟩, ⟨%dT, HT⟩, HR, Hg⟩, Ho, ⟨%e0, H0⟩, ⟨%e1, H1⟩, ⟨%e2, H2⟩, ⟨%e3, H3⟩, ⟨%e4, H4⟩, ⟨%e5, H5⟩, ⟨%d6, H6⟩, ⟨%d7, H7⟩⟩
    iapply (run1_first c Set.univ (grid1.coords t) _ _ _ _ _ _ _ _ _ _ _ _ _ _ _ _ _ _ _ _ h0 h1 (ablk1 V c t) (pblk1 V c t) (nblk1 V c t) (eblk1 V c t) (lablk1 V c t) (lnblk1 V c t) ((dat1 V c).before 6 t d6) ((dat1 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HC]; · iexists _; iexact HC
    isplitl [HT]; · iexists _; iexact HT
    iintro ⟨H0, H1, H2, H3, H4, H5, H6, H7, HC, HT⟩
    isplitl [HC HT HR Hg]
    · isplitl [HC]; · iexact HC
      isplitl [HT]; · iexact HT
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · by_cases hl : t.val = 31
    · have h0 : ¬cond1_0 (grid1.coords t) := fun h => by have := (hcond1_0 t).mp h; omega
      have h1 : cond1_1 (grid1.coords t) := (hcond1_1 t).mpr (by omega)
      rw [show (dat1 V c).leavesExact 6 t = owns (c : Thread nD τ) ((cfg1.win 6).stage (cfg1.slots t 6)) fullShare ((dat1 V c).after 6 t) from by
        unfold Dat.leavesExact; rw [liveAt1_6 t h1], after1_6]
      rw [show (dat1 V c).leavesExact 7 t = owns (c : Thread nD τ) ((cfg1.win 7).stage (cfg1.slots t 7)) fullShare ((dat1 V c).after 7 t) from by
        unfold Dat.leavesExact; rw [liveAt1_7 t h1], after1_7]
      rw [Phi1_pos V c _ _ hz, accC_next V c t hz, accT_next V c t hz]
      iintro ⟨⟨HC, HT, HR, Hg⟩, Ho, ⟨%e0, H0⟩, ⟨%e1, H1⟩, ⟨%e2, H2⟩, ⟨%e3, H3⟩, ⟨%e4, H4⟩, ⟨%e5, H5⟩, ⟨%d6, H6⟩, ⟨%d7, H7⟩⟩
      iapply (run1_last c Set.univ (grid1.coords t) _ _ _ _ _ _ _ _ _ _ _ _ _ _ _ _ _ _ _ _ h0 h1 (ablk1 V c t) (pblk1 V c t) (nblk1 V c t) (eblk1 V c t) (lablk1 V c t) (lnblk1 V c t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HC]; · iexact HC
      isplitl [HT]; · iexact HT
      iintro ⟨H0, H1, H2, H3, H4, H5, H6, H7, HC, HT⟩
      isplitl [HC HT HR Hg]
      · isplitl [HC]; · iexact HC
        isplitl [HT]; · iexact HT
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have h0 : ¬cond1_0 (grid1.coords t) := fun h => by have := (hcond1_0 t).mp h; omega
      have h1 : ¬cond1_1 (grid1.coords t) := fun h => by have := (hcond1_1 t).mp h; omega
      rw [Dat.leavesExact_idle (dat1 V c) 6 t (idleAt1_6 t h1) (noFlush1_6 t h1), Dat.leavesExact_idle (dat1 V c) 7 t (idleAt1_7 t h1) (noFlush1_7 t h1)]
      rw [Phi1_pos V c _ _ hz, accC_next V c t hz, accT_next V c t hz]
      iintro ⟨⟨HC, HT, HR, Hg⟩, Ho, ⟨%e0, H0⟩, ⟨%e1, H1⟩, ⟨%e2, H2⟩, ⟨%e3, H3⟩, ⟨%e4, H4⟩, ⟨%e5, H5⟩, ⟨%d6, H6⟩, ⟨%d7, H7⟩⟩
      iapply (run1_mid c Set.univ (grid1.coords t) _ _ _ _ _ _ _ _ _ _ _ _ _ _ _ _ _ _ _ _ h0 h1 (ablk1 V c t) (pblk1 V c t) (nblk1 V c t) (eblk1 V c t) (lablk1 V c t) (lnblk1 V c t) ((dat1 V c).before 6 t d6) ((dat1 V c).before 7 t d7) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HC]; · iexact HC
      isplitl [HT]; · iexact HT
      iintro ⟨H0, H1, H2, H3, H4, H5, H6, H7, HC, HT⟩
      isplitl [HC HT HR Hg]
      · isplitl [HC]; · iexact HC
        isplitl [HT]; · iexact HT
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The body obligation at every point of region 1. -/
theorem body_obligation1 (c : Dev nD) :
    BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 (Nat.zero_le _) from rfl]
  exact Idealize.SL.BI.Entails.refl _

/-- After the last point the invariant gives the launch's back, the sums' names forgotten. -/
theorem hout1 (c : Dev nD) : (dat1 V c).Φ (Fin.last cfg1.N) ⊢ (Pipeline.ΦA spec1 c : sProp 𝕄) := by
  rw [show (dat1 V c).Φ (Fin.last cfg1.N) = Phi1 V c (31 + 1) (by decide) from rfl, PhiA1_eq]
  unfold Phi1
  iintro ⟨HC, HT, HR, Hg⟩
  isplitl [HC]; · iexists _; iexact HC
  isplitl [HT]; · iexists _; iexact HT
  isplitl [HR]; · iexact HR
  iexact Hg

/-! ## The two output arrays after the region -/

/-- The last point of the grid. -/
abbrev tLast1 : Fin cfg1.N := ⟨31, by decide⟩

/-- The center sum after the last point, as contents of its output array (one block: the whole array). -/
abbrev res1_6 (c : Dev nD) : Buf (Elt F) ((c : Thread nD τ).loc main_v7_0) := accC V c 31 (by decide)

/-- Output window 6's block at the last point starts at the array's origin. -/
theorem off1_6 : (fun a => win1_6.index tLast1 a * main_v7_0.ty.shape.size a) = fun _ => 0 :=
  funext fun a => by fin_cases a <;> decide

/-- Its one write-back, at the last point, writes the final center sum. -/
theorem flushed1_6_eq (c : Dev nD) (t : Fin cfg1.N) (hf : (cfg1.win 6).flush t = true) :
    (dat1 V c).flushed 6 t = ((cfg1.win 6).blk t).view.read (Elt F) (res1_6 V c) := by
  have hN : cfg1.N = 32 := N_1
  have h31 : t.val = 31 := by have := (flush1_6 t).mp hf; have := t.isLt; omega
  obtain rfl : t = tLast1 := Fin.ext h31
  show (cfg1.win 6).cut (grid1.coords tLast1) ((dat1 V c).after 6 tLast1) = _
  rw [after1_6]
  exact (Memref.read_access_unit_zero (Elt F) main_v7_0 off1_6 (fun a => by rw [congrFun off1_6 a]; simp) (res1_6 V c)).symm

/-- The triplet sum after the last point, as contents of its output array (one block: the whole array). -/
abbrev res1_7 (c : Dev nD) : Buf (Elt F) ((c : Thread nD τ).loc main_v7_1) := accT V c 31 (by decide)

/-- Output window 7's block at the last point starts at the array's origin. -/
theorem off1_7 : (fun a => win1_7.index tLast1 a * main_v7_1.ty.shape.size a) = fun _ => 0 :=
  funext fun a => by fin_cases a <;> decide

/-- Its one write-back, at the last point, writes the final triplet sum. -/
theorem flushed1_7_eq (c : Dev nD) (t : Fin cfg1.N) (hf : (cfg1.win 7).flush t = true) :
    (dat1 V c).flushed 7 t = ((cfg1.win 7).blk t).view.read (Elt F) (res1_7 V c) := by
  have hN : cfg1.N = 32 := N_1
  have h31 : t.val = 31 := by have := (flush1_7 t).mp hf; have := t.isLt; omega
  obtain rfl : t = tLast1 := Fin.ext h31
  show (cfg1.win 7).cut (grid1.coords tLast1) ((dat1 V c).after 7 tLast1) = _
  rw [after1_7]
  exact (Memref.read_access_unit_zero (Elt F) main_v7_1 off1_7 (fun a => by rw [congrFun off1_7 a]; simp) (res1_7 V c)).symm

/-- The two output arrays after the region: the running sums after the last point. -/
theorem arrAt1_out6 (c : Dev nD) : (dat1 V c).arrAt 6 cfg1.N = accC V c 31 (by decide) := by
  refine (dat1 V c).arrAt_eq_of_cover 6 (res1_6 V c) (flushed1_6_eq V c) fun i => ⟨tLast1, (flush1_6 tLast1).mpr rfl, ?_⟩
  show i ∈ ((View.whole main_v7_0).slice (win1_6.rect tLast1)).set
  rw [View.set_slice_whole]
  exact View.mem_set_unit_zero off1_6 _ i
theorem arrAt1_out7 (c : Dev nD) : (dat1 V c).arrAt 7 cfg1.N = accT V c 31 (by decide) := by
  refine (dat1 V c).arrAt_eq_of_cover 7 (res1_7 V c) (flushed1_7_eq V c) fun i => ⟨tLast1, (flush1_7 tLast1).mpr rfl, ?_⟩
  show i ∈ ((View.whole main_v7_1).slice (win1_7.rect tLast1)).set
  rw [View.set_slice_whole]
  exact View.mem_set_unit_zero off1_7 _ i

end Cert.KernelIdeal.Hand

end
-- ==== Proof.KIRun.lean ====
/-
  The run of the two-region program, at any float instance: the contents of the unscoped buffers at every item
  boundary of @main, with what each region leaves in its output arrays read off that region's proof data; each
  region as a segment entered from the boundary before it and left at the boundary after it; and from the launch
  theorem over the five segments, the final memory at every unscoped buffer, hence the arguments as launched.
-/
import proofs.«414664_j17102559773292_3_alg».proof.Proof.Gen.KernelIdeal.Regions
import proofs.«414664_j17102559773292_3_alg».proof.Proof.KIR0Frame
import proofs.«414664_j17102559773292_3_alg».proof.Proof.KIR1Frame
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents at the boundaries -/

/-- Region 0's entry contents, read at the TensorCore's references. -/
abbrev VE0 : (c : Dev nD) → (b : Ref sig .tc) → Buf (Elt F) ((c : Thread nD τ).loc b) := fun c b => Gen.V1 m c b

/-- At region 0's exit: its arrays at what the pipeline leaves, every other buffer as entered. -/
def Wafter0 (c : Dev nD) : Valuation τ sig (Elt F) :=
  Pipeline.withArrays spec0 c (Gen.V1 m c) fun w => (dat0 (VE0 m) c).arrAt w cfg0.N

/-- What region 0 leaves, at every later boundary index: the unknowns read at item 2 only. -/
def outsA : Gen.Outs (F := F) := fun _ r c => Wafter0 m c r

/-- Region 1's entry contents, read at the TensorCore's references. -/
abbrev VE1 : (c : Dev nD) → (b : Ref sig .tc) → Buf (Elt F) ((c : Thread nD τ).loc b) := fun c b => Gen.V3 m (outsA m) c b

/-- At region 1's exit: its arrays at what the pipeline leaves, every other buffer as entered. -/
def Wafter1 (c : Dev nD) : Valuation τ sig (Elt F) :=
  Pipeline.withArrays spec1 c (Gen.V3 m (outsA m) c) fun w => (dat1 (VE1 m) c).arrAt w cfg1.N

/-- What the regions leave: after item 1 region 0's exit contents, after item 3 region 1's. -/
def outsK : Gen.Outs (F := F) := fun J r c =>
  match J with
  | 2 => Wafter0 m c r
  | _ => Wafter1 m c r

theorem outsK_two (r : Ref sig .tc) (c : Dev nD) : outsK m 2 r c = Wafter0 m c r := rfl
theorem outsK_four (r : Ref sig .tc) (c : Dev nD) : outsK m 4 r c = Wafter1 m c r := rfl

/-- Region 1 is entered from the same contents whichever of the two families the boundary after region 0 is read from. -/
theorem V3_outsK : (fun (c : Dev nD) (b : Ref sig .tc) => Gen.V3 m (outsK m) c b) = VE1 m := rfl

theorem Wafter0_arr (c : Dev nD) (w : Fin cfg0.W) :
    Wafter0 m c (Proc.devRef .tc (Pipeline.arrRef spec0 w)) = (dat0 (VE0 m) c).arrAt w cfg0.N := by
  unfold Wafter0; exact Pipeline.withArrays_arr spec0 launch0.win.arr_inj c _ _ w
theorem Wafter1_arr (c : Dev nD) (w : Fin cfg1.W) :
    Wafter1 m c (Proc.devRef .tc (Pipeline.arrRef spec1 w)) = (dat1 (VE1 m) c).arrAt w cfg1.N := by
  unfold Wafter1; exact Pipeline.withArrays_arr spec1 launch1.win.arr_inj c _ _ w

theorem outsK_v3 (c : Dev nD) : outsK m 2 main_v3 c = acc0 (fun c b => Gen.V1 m c b) c 47 (by decide) :=
  (Wafter0_arr m c 2).trans (arrAt0_out (VE0 m) c)
theorem outsK_v7_0 (c : Dev nD) : outsK m 4 main_v7_0 c = accC (fun c b => Gen.V3 m (outsK m) c b) c 31 (by decide) :=
  (Wafter1_arr m c 6).trans (arrAt1_out6 (VE1 m) c)
theorem outsK_v7_1 (c : Dev nD) : outsK m 4 main_v7_1 c = accT (fun c b => Gen.V3 m (outsK m) c b) c 31 (by decide) :=
  (Wafter1_arr m c 7).trans (arrAt1_out7 (VE1 m) c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What a region's exit contents are, array by array and off the arrays -/

/-- After region 0 each of its arrays holds what the pipeline leaves: the two inputs are never written back and are
    no output of the region, the output is the boundary's one changed buffer. -/
theorem hF0 (c : Dev nD) : ∀ w : Fin cfg0.W, (dat0 (VE0 m) c).arrAt w cfg0.N = Gen.V2 m (outsK m) c (Pipeline.arrRef spec0 w)
  | ⟨0, _⟩ => ((dat0 (VE0 m) c).arrAt_in 0 rfl _).trans ((A_eq0 (VE0 m) c 0).trans (Gen.V2_of m (outsK m) c (Pipeline.arrRef spec0 0) (by decide)).symm)
  | ⟨1, _⟩ => ((dat0 (VE0 m) c).arrAt_in 1 rfl _).trans ((A_eq0 (VE0 m) c 1).trans (Gen.V2_of m (outsK m) c (Pipeline.arrRef spec0 1) (by decide)).symm)
  | ⟨2, _⟩ => by
    show _ = Function.update (Gen.V1 m c) (Proc.devRef .tc main_v3) (Wafter0 m c main_v3) (Proc.devRef .tc main_v3)
    rw [Function.update_self]; exact (Wafter0_arr m c 2).symm

theorem hrest0 (c : Dev nD) (b : Ref sig .tc) (hb : b ∉ Finset.univ.image (Pipeline.arrRef spec0)) :
    Gen.V2 m (outsK m) c b = Gen.V1 m c b :=
  Gen.V2_of m (outsK m) c b fun hmem =>
    hb (Finset.mem_image.mpr ⟨2, Finset.mem_univ _, (List.mem_singleton.mp hmem).symm⟩)

/-- After region 1 each of its arrays holds what the pipeline leaves: the six inputs as entered, the two outputs the
    boundary's two changed buffers. -/
theorem hF1 (c : Dev nD) : ∀ w : Fin cfg1.W, (dat1 (VE1 m) c).arrAt w cfg1.N = Gen.V4 m (outsK m) c (Pipeline.arrRef spec1 w)
  | ⟨0, _⟩ => ((dat1 (VE1 m) c).arrAt_in 0 rfl _).trans ((A_eq1 (VE1 m) c 0).trans (Gen.V4_of m (outsK m) c (Pipeline.arrRef spec1 0) (by decide)).symm)
  | ⟨1, _⟩ => ((dat1 (VE1 m) c).arrAt_in 1 rfl _).trans ((A_eq1 (VE1 m) c 1).trans (Gen.V4_of m (outsK m) c (Pipeline.arrRef spec1 1) (by decide)).symm)
  | ⟨2, _⟩ => ((dat1 (VE1 m) c).arrAt_in 2 rfl _).trans ((A_eq1 (VE1 m) c 2).trans (Gen.V4_of m (outsK m) c (Pipeline.arrRef spec1 2) (by decide)).symm)
  | ⟨3, _⟩ => ((dat1 (VE1 m) c).arrAt_in 3 rfl _).trans ((A_eq1 (VE1 m) c 3).trans (Gen.V4_of m (outsK m) c (Pipeline.arrRef spec1 3) (by decide)).symm)
  | ⟨4, _⟩ => ((dat1 (VE1 m) c).arrAt_in 4 rfl _).trans ((A_eq1 (VE1 m) c 4).trans (Gen.V4_of m (outsK m) c (Pipeline.arrRef spec1 4) (by decide)).symm)
  | ⟨5, _⟩ => ((dat1 (VE1 m) c).arrAt_in 5 rfl _).trans ((A_eq1 (VE1 m) c 5).trans (Gen.V4_of m (outsK m) c (Pipeline.arrRef spec1 5) (by decide)).symm)
  | ⟨6, _⟩ => by
    show _ = Function.update (Function.update (Gen.V3 m (outsK m) c) (Proc.devRef .tc main_v7_0) (Wafter1 m c main_v7_0))
      (Proc.devRef .tc main_v7_1) (Wafter1 m c main_v7_1) (Proc.devRef .tc main_v7_0)
    rw [Function.update_of_ne (StableHlo.devRef_ne_of_ne (by decide)), Function.update_self]
    exact (Wafter1_arr m c 6).symm
  | ⟨7, _⟩ => by
    show _ = Function.update (Function.update (Gen.V3 m (outsK m) c) (Proc.devRef .tc main_v7_0) (Wafter1 m c main_v7_0))
      (Proc.devRef .tc main_v7_1) (Wafter1 m c main_v7_1) (Proc.devRef .tc main_v7_1)
    rw [Function.update_self]; exact (Wafter1_arr m c 7).symm

theorem hrest1 (c : Dev nD) (b : Ref sig .tc) (hb : b ∉ Finset.univ.image (Pipeline.arrRef spec1)) :
    Gen.V4 m (outsK m) c b = Gen.V3 m (outsK m) c b :=
  Gen.V4_of m (outsK m) c b fun hmem => by
    rcases List.mem_cons.mp hmem with h | h
    · exact hb (Finset.mem_image.mpr ⟨6, Finset.mem_univ _, h.symm⟩)
    · exact hb (Finset.mem_image.mpr ⟨7, Finset.mem_univ _, (List.mem_singleton.mp h).symm⟩)

/-! ## The thread state beside the buffers, and the proof data -/

abbrev 𝒱K : Variants := Variants.none
/-- No core owes another anything: no level is assigned. -/
abbrev LK : GSem nD τ sig → Finset Unit := fun _ => ∅
abbrev lvK : GSem nD τ sig → Unit → ℕ := fun _ _ => 0

/-- What every boundary holds beside the unscoped buffers: the core's generator register at some state, and the core
    owing nothing. -/
abbrev Rest (c : Dev nD) : sProp 𝕄 :=
  iprop((∃ r, prngReg c r) ∗ ∃ W, owes (c : Thread nD τ) (0 : CellTallies nD τ sig Unit) W)

/-- The three rest states of the conditional frame are all this one. -/
abbrev EK : Fin 3 → Dev nD → sProp 𝕄 := fun _ c => Rest c

/-- Each pipeline's proof data at the contents its region is entered from. -/
def pdatsK : (p : Fin 2) → (c : Dev nD) → Dat τ (Elt F) Unit ℕ (UR sig nD τ) ℕ (cfgs p) c
  | ⟨0, _⟩ => fun c => dat0 (VE0 m) c
  | ⟨1, _⟩ => fun c => dat1 (VE1 m) c

/-- A core owing nothing is what a pipeline whose proof data owe nothing and bound nothing holds of it, -/
theorem owesAt_of_zero {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Dat.owesAt Pipeline.owesWithin Dat.bound
  rw [ho, hr]
  iintro ⟨%W, H⟩
  iexists W
  isplitr
  · ipureintro; exact fun _ _ => Or.inl trivial
  iexact H

/-- and conversely. -/
theorem zero_of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Dat.owesAt Pipeline.owesWithin
  rw [ho]
  iintro ⟨%W, -, H⟩
  iexists W
  iexact H

/-! ## Region 0 as a segment -/

set_option backward.isDefEq.respectTransparency.types false in
/-- Region 0 between the boundary after the first host stretch and the one before the second: its three arrays leave
    the unscoped buffers at entry and come back at the exit contents; the generator register goes into the launch's
    invariant, which the region's own invariant starts from and ends at; nothing is owed; the kernel has no semaphore
    of its own. -/
def reg0 : Pipeline.RegionSeg (pcfgs (F := F)) adm (pdatsK m) () defs₀ 𝒱K LK lvK 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ LK lvK 0 fun _ _ => rfl
  pre c := iprop(StableHlo.held (c : Thread nD τ) (Pipeline.ucRefs τ sig) (Gen.V1 m c) ∗ Rest c)
  post c := iprop(StableHlo.held (c : Thread nD τ) (Pipeline.ucRefs τ sig) (Gen.V2 m (outsK m) c) ∗ Rest c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    have hsplit := Pipeline.arrays_of_unscopedBufs (p := 0) (pcfgs (F := F)) adm (pdatsK m) launch0.win launch0.arr_whole c
      ((pdatsK m 0 c).share_full fun _ => rfl) (VE0 m c) fun _ => rfl
    rw [Pipeline.unscopedBufs_held] at hsplit
    iintro ⟨⟨Hbufs, Hg, Ho⟩, -, -⟩
    ihave Hs := hsplit $$ Hbufs
    imodintro
    icases Hs with ⟨Harr, Hoff⟩
    isplitl [Harr]
    · iexact Harr
    isplitr
    · unfold Pipeline.prefHeld
      rw [show (Finset.univ : Finset (Fin 0)) = ∅ from rfl, BI.bigSep_empty]
      iempintro
    isplitl [Ho]
    · iapply (owesAt_of_zero (pdatsK m 0 c) 0 rfl rfl)
      iexact Ho
    isplitl [Hg]
    · iexact Hg
    iexact Hoff
  hin c := by
    refine BIBase.Entails.trans ?_ (hin0 (VE0 m) c)
    unfold Pipeline.ΦA
    iintro ⟨Hg, -, Hs⟩
    isplitl [Hs]
    · iexact Hs
    iexact Hg
  hout c := by
    refine BIBase.Entails.trans (hout0 (VE0 m) c) ?_
    rw [Pipeline.ownSems0_none]
    unfold Pipeline.ΦA
    iintro ⟨Hs, Hg⟩
    isplitl [Hg]
    · iexact Hg
    isplitr
    · iempintro
    iexact Hs
  hexit c := by
    have hjoin := Pipeline.unscopedBufs_of_arrays (p := 0) (pcfgs (F := F)) adm (Ix := Unit) (Name := ℕ) (U := UR sig nD τ) (Lvl := ℕ)
      launch0.win launch0.arr_whole c (pdatsK m) ((pdatsK m 0 c).share_full fun _ => rfl)
      (VE0 m c) (fun b => Gen.V2 m (outsK m) c b) ((pdatsK m 0 c).arrAt · cfg0.N) (hF0 m c) (hrest0 m c)
    rw [Pipeline.unscopedBufs_held] at hjoin
    iintro ⟨Harr, Ho, Hg, Hoff⟩
    imodintro
    isplitl [Harr Hoff]
    · iapply hjoin
      isplitl [Harr]
      · iexact Harr
      iexact Hoff
    isplitl [Hg]
    · iexact Hg
    iapply (zero_of_owesAt (pdatsK m 0 c) (Fin.last _) rfl)
    iexact Ho

/-! ## Region 1 as a segment -/

/-- The boundary before region 1, read through either family of what region 0 leaves. -/
theorem V3K (c : Dev nD) : Gen.V3 m (outsK m) c = Gen.V3 m (outsA m) c := rfl

set_option backward.isDefEq.respectTransparency.types false in
/-- Region 1 between the boundary after the second host stretch and the one before the third: its eight arrays leave
    the unscoped buffers at entry and come back at the exit contents; the generator register goes into the launch's
    invariant, which the region's own invariant starts from and ends at; nothing is owed; the kernel has no semaphore
    of its own. -/
def reg1 : Pipeline.RegionSeg (pcfgs (F := F)) adm (pdatsK m) () defs₀ 𝒱K LK lvK 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ LK lvK 1 fun _ _ => rfl
  pre c := iprop(StableHlo.held (c : Thread nD τ) (Pipeline.ucRefs τ sig) (Gen.V3 m (outsK m) c) ∗ Rest c)
  post c := iprop(StableHlo.held (c : Thread nD τ) (Pipeline.ucRefs τ sig) (Gen.V4 m (outsK m) c) ∗ Rest c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    have hsplit := Pipeline.arrays_of_unscopedBufs (p := 1) (pcfgs (F := F)) adm (pdatsK m) launch1.win launch1.arr_whole c
      ((pdatsK m 1 c).share_full fun _ => rfl) (VE1 m c) fun _ => rfl
    rw [Pipeline.unscopedBufs_held, ← V3K m c] at hsplit
    iintro ⟨⟨Hbufs, Hg, Ho⟩, -, -⟩
    ihave Hs := hsplit $$ Hbufs
    imodintro
    icases Hs with ⟨Harr, Hoff⟩
    isplitl [Harr]
    · iexact Harr
    isplitr
    · unfold Pipeline.prefHeld
      rw [show (Finset.univ : Finset (Fin 0)) = ∅ from rfl, BI.bigSep_empty]
      iempintro
    isplitl [Ho]
    · iapply (owesAt_of_zero (pdatsK m 1 c) 0 rfl rfl)
      iexact Ho
    isplitl [Hg]
    · iexact Hg
    iexact Hoff
  hin c := by
    refine BIBase.Entails.trans ?_ (hin1 (VE1 m) c)
    unfold Pipeline.ΦA
    iintro ⟨Hg, -, Hs⟩
    isplitl [Hs]
    · iexact Hs
    iexact Hg
  hout c := by
    refine BIBase.Entails.trans (hout1 (VE1 m) c) ?_
    rw [Pipeline.ownSems0_none]
    unfold Pipeline.ΦA
    iintro ⟨Hs, Hg⟩
    isplitl [Hg]
    · iexact Hg
    isplitr
    · iempintro
    iexact Hs
  hexit c := by
    have hjoin := Pipeline.unscopedBufs_of_arrays (p := 1) (pcfgs (F := F)) adm (Ix := Unit) (Name := ℕ) (U := UR sig nD τ) (Lvl := ℕ)
      launch1.win launch1.arr_whole c (pdatsK m) ((pdatsK m 1 c).share_full fun _ => rfl)
      (VE1 m c) (fun b => Gen.V4 m (outsK m) c b) ((pdatsK m 1 c).arrAt · cfg1.N) (hF1 m c) (hrest1 m c)
    rw [Pipeline.unscopedBufs_held] at hjoin
    iintro ⟨Harr, Ho, Hg, Hoff⟩
    imodintro
    isplitl [Harr Hoff]
    · iapply hjoin
      isplitl [Harr]
      · iexact Harr
      iexact Hoff
    isplitl [Hg]
    · iexact Hg
    iapply (zero_of_owesAt (pdatsK m 1 c) (Fin.last _) rfl)
    iexact Ho

/-! ## The launch over the five segments -/

set_option backward.isDefEq.respectTransparency.types false in
/-- Every weakly fair execution of @main from memory `m` with zero counters terminates, and every final memory holds
    each unscoped buffer of every core at the last boundary's contents: the launch theorem over the two host-stretch
    segments around each region's, the chain of thread states closing by reflexivity at every joint, the first thread
    state made from what the launch deals, the last one read against the final state. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V5 m (outsK m) c b) := by
  refine Pipeline.θ_run_regions_kit_dev (pcfgs (F := F)) adm (pdatsK m) () cellOf_inj emb₁ defs₀ 𝒱K LK lvK m ρ main
    (Gen.segs m (outsK m) 𝒱K LK lvK EK () (pdatsK m) (reg0 m) (reg1 m))
    (fun c Q => by
      rewrite [main_chain c, Pipeline.Seg.run_eq_chain,
        show (Gen.segs m (outsK m) 𝒱K LK lvK EK () (pdatsK m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (Gen.V0 m c) ∗ Rest c))
    (Tₙ := fun c => StableHlo.held (c : Thread nD τ) (Pipeline.ucRefs τ sig) (Gen.V5 m (outsK m) c))
    (hch := fun c => ⟨.rfl, .rfl, .rfl, .rfl, .rfl, sep_mono .rfl (by iintro ⟨-, Ho⟩; iexact Ho)⟩)
    (hinit := ?_)
    (QY := fun c s => ∀ b ∈ Pipeline.ucRefs τ sig, s.mem ((c : Thread nD τ).1, b) = Gen.V5 m (outsK m) c b)
    (hfin := fun c s' => ?_) (hQ := fun _ h => h)
  · -- the launch element is the pipelines' own, and no core holds a ghost resource of the certificate's
    have hown : (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) := .rfl
    have hnone : (BI.emp : sProp 𝕄) ⊢ bigSep Finset.univ (fun _ : Dev nD => (BI.emp : sProp 𝕄)) := by
      rw [BI.bigSep_emp_const]
    iintro Hu
    imodintro
    isplitl [Hu]
    · iapply hown
      iexact Hu
    iapply hnone
    iempintro
  · -- core by core: the unscoped buffers are held at the launch contents, the generator register is at its launch
    -- state, and the core owes what the launch says, which is nothing
    refine Pipeline.initEach LK lvK fun c => ?_
    rw [Pipeline.unscopedBufs_held c (Gen.V0 m c)]
    iintro ⟨⟨Hbufs, -, Ho, -, Hg, -⟩, -⟩
    imodintro
    isplitl [Hbufs]
    · iexact Hbufs
    isplitl [Hg]
    · iexists (ρ c); iexact Hg
    iexists ∅
    iexact Ho
  · -- the last thread state is every unscoped buffer held at the last boundary's contents: so the memory reads
    unfold StableHlo.held
    iintro ⟨Hbufs, HSI⟩
    imodintro
    iapply (pointsTo_read_all (Pipeline.ucRefs τ sig) (fun b => ((c : Thread nD τ).1, b)) (Gen.V5 m (outsK m) c) s')
    isplitl [Hbufs]
    · iexact Hbufs
    iexact HSI

/-- The frame claim: each of the seven argument arrays is unscoped, and the last boundary's contents at an argument
    are the launch's, no host stretch writing it and no region changing it. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (Gen.V5_main_arg0 m (outsK m) c),
     (h c _ (mem_uc main_arg1 (by decide))).trans (Gen.V5_main_arg1 m (outsK m) c),
     (h c _ (mem_uc main_arg2 (by decide))).trans (Gen.V5_main_arg2 m (outsK m) c),
     (h c _ (mem_uc main_arg3 (by decide))).trans (Gen.V5_main_arg3 m (outsK m) c),
     (h c _ (mem_uc main_arg4 (by decide))).trans (Gen.V5_main_arg4 m (outsK m) c),
     (h c _ (mem_uc main_arg5 (by decide))).trans (Gen.V5_main_arg5 m (outsK m) c),
     (h c _ (mem_uc main_arg6 (by decide))).trans (Gen.V5_main_arg6 m (outsK m) c)⟩) (run_all m ρ)

end Cert.KernelIdeal.Hand

end
-- ==== Proof.LibNary3.lean ====
/-
  A host operation over a LITERAL family of three references — a concatenation of three operands — leaves at its result
  reference its function of the three operands' contents, each read AT ITS OWN REFERENCE.

  The general statement for a family `xs : Fin n → Ref` gives the operands as `fun k => F (xs k)`; under that binder the
  reference `![x, a, b] k` is no literal, so nothing further can be said about the contents there. Spelling the family out
  (`Fin.cons` of the three contents) keeps each operand's contents at a literal reference, where the operations before it
  can be read in turn. The library states this for four references; this is the same statement for three.
-/
import Idealize.ShloMosaic.Lib.StableHlo.Run

noncomputable section

namespace Idealize.ShloMosaic.StableHlo

open Idealize.SL.Sem

variable {τ : Topo} {sig : RefSig} {Val : EltTy → Type} {x a b y : Ref sig .tc}

/-- The result of an operation over the three references `x`, `a`, `b`, with each operand's contents at its own
    reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a one-pass `simp` over an operation list uses. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.LibRowOps.lean ====
/-
  Layout operations and a lane sum read at an index given by coordinates: the column forms that sit beside the
  row forms of the library's layout lemmas.

  * a column [a, 1] broadcast along its unit axis to [a, b] reads, at (p, c), the column's entry p;
  * a vector [a] cast to a column [a, 1] reads, at (i, 0), the vector's entry i;
  * a sum over the second axis of an [a, b] array, read at p, is the sum over n of the entries (p, n);
  * a block of extents [1, m, n] loaded from an [k, m, n] array at offset (i, 0, 0) reads, at (0, r, c), the array's
    entry (i, r, c); likewise a [1, n] row of a [k, n] array and one entry of a vector.
-/
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

/-- A column broadcast along its unit axis: entry (p, c) of the result is entry p of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: entry (i, 0) of the column is entry i of the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the second axis of an [a, b] array of extended reals, read at p: the sum over n of entry (p, n). -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

/-- A load through a unit-stride rectangle reads, at j, the array at the index k whose coordinates are the
    rectangle's offsets plus j's. -/
theorem ld_unit_apply {S : Shape} {Val : EltTy → Type} {e : EltTy} (X : S.Idx → Val e)
    (off size : Fin S.rank → Nat) (inb : ∀ a, off a + size a ≤ S.size a)
    (j : (Rect.unit off size inb).shape.Idx) (k : S.Idx) (hk : ∀ a, (k a).val = off a + (j a).val) :
    View.ld X (Rect.unit off size inb) j = X k := by
  show X ((Rect.unit off size inb).idx j) = X k
  refine congrArg X (funext fun a => Fin.ext ?_)
  rw [hk a]
  show off a + 1 * (j a).val = off a + (j a).val
  rw [Nat.one_mul]

end Cert.RowOps

end
-- ==== Proof.Spec.lean ====
/-
  What both programs compute, on the extended reals, as functions of the argument arrays over plain coordinates.

  A row of 1000 logits goes to its log-softmax: each entry less the row's maximum, less the logarithm of the sum of the
  exponentials of those differences. The softmax loss is minus the mean, over the 49152 rows, of the log-softmax entry
  at the row's label (the labels being the anchors' labels twice, then the negatives'). The pairwise distance of two
  rows of 512 is the square root of the sum of the squares of their differences offset by a constant. The center
  term of a triple adds two thresholded gaps between distances to the labelled exemplar rows; the triplet term is the
  thresholded gap between the anchor's distances to the positive and to the negative. The float literals stay the
  words the programs spell: the same word stands on both sides and is never evaluated.
-/
import Idealize.ShloMosaic.PureOps.Ideal
import Idealize.ShloMosaic.PureOps.Ideal.Laws

noncomputable section

namespace Cert.Spec

open Idealize.ShloMosaic

/-- The literals, as the extended reals their words denote. -/
abbrev negInfW : EReal := Ideal.ofBits .f32 0xFF800000#32
abbrev zeroW : EReal := Ideal.ofBits .f32 0x00000000#32
abbrev oneW : EReal := Ideal.ofBits .f32 0x3F800000#32
abbrev epsW : EReal := Ideal.ofBits .f32 0x358637BD#32
abbrev marginW : EReal := Ideal.ofBits .f32 0x3E4CCCCD#32
abbrev countW : EReal := Ideal.ofBits .f32 0x47400000#32
abbrev weightW : EReal := Ideal.ofBits .f32 0x3C23D70A#32

/-- A row's maximum, folded from minus infinity. -/
def rowMax (f : Fin 1000 → EReal) : EReal := (Finset.univ : Finset (Fin 1000)).fold max negInfW f

/-- The log-softmax of a row at column `k`. -/
def lsm (f : Fin 1000 → EReal) (k : Fin 1000) : EReal :=
  (f k - rowMax f) - Ideal.log (∑ j : Fin 1000, Ideal.exp (f j - rowMax f))

/-- The offset pairwise distance of two rows of 512. -/
def pdist (f g : Fin 512 → EReal) : EReal :=
  Ideal.sqrt (∑ d : Fin 512, (f d - g d + epsW) * (f d - g d + epsW))

/-- `max x 0`, and the test `x > 0` as a bit. -/
def relu (x : EReal) : EReal := max x zeroW
def pos (x : EReal) : BitVec 1 := Ideal.cmp .ogt x zeroW

/-- The first center term: where the gap `dr - dn` is positive, the gap widened by the margin, cut at zero. -/
def c1 (dr dn : EReal) : EReal := Scalar.select (pos (relu (dr - dn))) (relu (dr - dn + marginW)) zeroW
/-- A thresholded gap: `g` where it is positive, else zero (the second center term and the triplet term). -/
def gap (a b : EReal) : EReal := Scalar.select (pos (relu (a - b))) (relu (a - b)) zeroW

/-- The arguments over plain coordinates, the labels as column numbers. -/
structure Inputs where
  A : Fin 16384 → Fin 512 → EReal
  P : Fin 16384 → Fin 512 → EReal
  N : Fin 16384 → Fin 512 → EReal
  O : Fin 49152 → Fin 1000 → EReal
  ka : Fin 16384 → Fin 1000
  kn : Fin 16384 → Fin 1000
  E : Fin 1000 → Fin 512 → EReal

variable (I : Inputs)

/-- Row `r`'s label: the anchors' labels, the anchors' labels again, the negatives' labels. -/
def lab (r : Fin 49152) : Fin 1000 :=
  if h : r.val < 16384 then I.ka ⟨r.val, h⟩
  else if h' : r.val < 32768 then I.ka ⟨r.val - 16384, by omega⟩
  else I.kn ⟨r.val - 32768, by have := r.isLt; omega⟩

/-- Row `r`'s selected log-probability. -/
def softRow (r : Fin 49152) : EReal := lsm (fun k => I.O r k * oneW) (lab I r)
def softSum : EReal := ∑ r : Fin 49152, softRow I r
def lossSoft : EReal := -(Ideal.div (softSum I) countW)

/-- Triple `i`'s center term and triplet term. -/
def centerRow (i : Fin 16384) : EReal :=
  c1 (pdist (I.A i) (I.E (I.ka i))) (pdist (I.N i) (I.E (I.ka i)))
    + gap (pdist (I.N i) (I.E (I.kn i))) (pdist (I.A i) (I.E (I.kn i)))
def tripRow (i : Fin 16384) : EReal := gap (pdist (I.A i) (I.P i)) (pdist (I.A i) (I.N i))
def center : EReal := ∑ i : Fin 16384, centerRow I i
def triplet : EReal := ∑ i : Fin 16384, tripRow I i
def total : EReal := (lossSoft I + weightW * center I) + oneW * triplet I

end Cert.Spec

end
-- ==== Proof.KIHost.lean ====
/-
  The host operations around the two regions, read at the buffers the regions and the results depend on.

  Before region 0 the two label arrays are recast as columns and joined — anchors' labels, anchors' labels again,
  negatives' labels — into one column of 49152 words: row r of it is the anchors' word r, the anchors' word r - 16384
  or the negatives' word r - 32768 according to the third r falls in. No host operation writes an argument. After
  region 0 its (1,1) sum is recast as a scalar, divided by the row count and negated; after region 1 its two (1,1)
  sums are recast as scalars and the total is the softmax loss plus the weighted center sum plus the triplet sum.
-/
import proofs.«414664_j17102559773292_3_alg».proof.Proof.Gen.KernelIdeal.Regions
import proofs.«414664_j17102559773292_3_alg».proof.Proof.LibNary3
import proofs.«414664_j17102559773292_3_alg».proof.Proof.LibRowOps
import proofs.«414664_j17102559773292_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Idealize.ShloMosaic Idealize.ShloMosaic.TcCoe Idealize.ShloMosaic.ValueIdx Idealize.ShloMosaic.StableHlo
open Idealize.SL Idealize.SL.Sem
open Cert.KernelIdeal Cert.KernelIdeal.Gen

variable {F : FTy → Type} [FloatOps F]
variable (m : (ℓ : Loc nD τ sig) → Buf (Elt F) ℓ) (outs : Gen.Outs (F := F))

/-- The two label arrays as launched, at their literal type. -/
abbrev lab4 (c : Dev nD) : IVec S16384 32 := m ((c : Thread nD τ).loc main_arg4)
abbrev lab5 (c : Dev nD) : IVec S16384 32 := m ((c : Thread nD τ).loc main_arg5)

/-! ## Region 0's entry -/

/-- The logits reach region 0 as launched. -/
theorem V1_arg3 (c : Dev nD) : Gen.V1 m c main_arg3 = m ((c : Thread nD τ).loc main_arg3) :=
  (Gen.V1_of m c main_arg3 (by decide)).trans rfl

/-- The three columns that are joined: the anchors' labels, the anchors' labels again, the negatives' labels. -/
abbrev labPieces (c : Dev nD) : List ((s : Shape) × (s.Idx → BitVec 32)) :=
  [⟨S16384x1, shapeCast S16384x1 (lab4 m c) shapeCasts_S16384_S16384x1⟩,
   ⟨S16384x1, shapeCast S16384x1 (lab4 m c) shapeCasts_S16384_S16384x1⟩,
   ⟨S16384x1, shapeCast S16384x1 (lab5 m c) shapeCasts_S16384_S16384x1⟩]

/-- The joined label column region 0 is handed. -/
theorem V1_v2 (c : Dev nD) :
    Gen.V1 m c main_v2 = concatenate S49152x1 0 (labPieces m c)
      concatenates_S16384x1_S16384x1_S16384x1_S49152x1_d0 := by
  show StableHlo.after hostOps0 (Gen.V0 m c) (Proc.devRef .tc main_v2) = _
  simp only [after_cons, after_nil]
  rw [nary3_result]
  repeat (first | rw [reshape_result] | (rw [reshape_result_ne]; rotate_left; decide))
  rfl

/-- Row `r` of the joined label column: the anchors' word, the anchors' word again, or the negatives' word. -/
theorem V1_v2_apply (c : Dev nD) (r : Fin 49152) :
    Gen.V1 m c main_v2 (ix2 r (0 : Fin 1)) =
      if h : r.val < 16384 then lab4 m c (ix1 ⟨r.val, h⟩)
      else if h' : r.val < 32768 then lab4 m c (ix1 ⟨r.val - 16384, by omega⟩)
      else lab5 m c (ix1 ⟨r.val - 32768, by have := r.isLt; omega⟩) := by
  rw [V1_v2]
  split_ifs with h h'
  · refine (concatenate_apply_piece (t := S49152x1) (0 : Fin 2) (labPieces m c) (show Shape.Concatenates ((labPieces m c).map (·.1)) S49152x1 0 from concatenates_S16384x1_S16384x1_S16384x1_S49152x1_d0) (ix2 r (0 : Fin 1)) 0 (show 0 < 3 from by omega) S16384x1 _ rfl rfl 0 rfl
      (ix2 (⟨r.val, h⟩ : Fin 16384) (0 : Fin 1)) ?_ ?_).trans ?_
    · intro b hb
      match b with
      | ⟨0, _⟩ => exact absurd rfl hb
      | ⟨1, _⟩ => rfl
    · show 0 + r.val = r.val
      omega
    · exact Cert.RowOps.shapeCast_a_a1_apply _ _ _ _
  · refine (concatenate_apply_piece (t := S49152x1) (0 : Fin 2) (labPieces m c) (show Shape.Concatenates ((labPieces m c).map (·.1)) S49152x1 0 from concatenates_S16384x1_S16384x1_S16384x1_S49152x1_d0) (ix2 r (0 : Fin 1)) 1 (show 1 < 3 from by omega) S16384x1 _ rfl rfl 16384 rfl
      (ix2 (⟨r.val - 16384, by omega⟩ : Fin 16384) (0 : Fin 1)) ?_ ?_).trans ?_
    · intro b hb
      match b with
      | ⟨0, _⟩ => exact absurd rfl hb
      | ⟨1, _⟩ => rfl
    · show 16384 + (r.val - 16384) = r.val
      omega
    · exact Cert.RowOps.shapeCast_a_a1_apply _ _ _ _
  · refine (concatenate_apply_piece (t := S49152x1) (0 : Fin 2) (labPieces m c) (show Shape.Concatenates ((labPieces m c).map (·.1)) S49152x1 0 from concatenates_S16384x1_S16384x1_S16384x1_S49152x1_d0) (ix2 r (0 : Fin 1)) 2 (show 2 < 3 from by omega) S16384x1 _ rfl rfl 32768 rfl
      (ix2 (⟨r.val - 32768, by have := r.isLt; omega⟩ : Fin 16384) (0 : Fin 1)) ?_ ?_).trans ?_
    · intro b hb
      match b with
      | ⟨0, _⟩ => exact absurd rfl hb
      | ⟨1, _⟩ => rfl
    · show 32768 + (r.val - 32768) = r.val
      omega
    · exact Cert.RowOps.shapeCast_a_a1_apply _ _ _ _

/-! ## Region 1's entry -/

/-- A buffer no item before region 1 writes reaches it as launched. -/
theorem V3_of_launch (c : Dev nD) (r : Ref sig .tc) (h0 : r ∉ hostOps0_W) (h2 : r ∉ ([main_v3] : List (Ref sig .tc)))
    (h1 : r ∉ hostOps1_W) : Gen.V3 m outs c r = m ((c : Thread nD τ).loc r) :=
  (Gen.V3_of m outs c r h1).trans ((Gen.V2_of m outs c r h2).trans ((Gen.V1_of m c r h0).trans rfl))

theorem V3_arg0 (c : Dev nD) : Gen.V3 m outs c main_arg0 = m ((c : Thread nD τ).loc main_arg0) :=
  V3_of_launch m outs c main_arg0 (by decide) (by decide) (by decide)
theorem V3_arg1 (c : Dev nD) : Gen.V3 m outs c main_arg1 = m ((c : Thread nD τ).loc main_arg1) :=
  V3_of_launch m outs c main_arg1 (by decide) (by decide) (by decide)
theorem V3_arg2 (c : Dev nD) : Gen.V3 m outs c main_arg2 = m ((c : Thread nD τ).loc main_arg2) :=
  V3_of_launch m outs c main_arg2 (by decide) (by decide) (by decide)
theorem V3_arg6 (c : Dev nD) : Gen.V3 m outs c main_arg6 = m ((c : Thread nD τ).loc main_arg6) :=
  V3_of_launch m outs c main_arg6 (by decide) (by decide) (by decide)

/-- The anchors' label column region 1 is handed: the label array recast. -/
theorem V3_v0 (c : Dev nD) :
    Gen.V3 m outs c main_v0 = shapeCast S16384x1 (lab4 m c) shapeCasts_S16384_S16384x1 := by
  refine (Gen.V3_of m outs c main_v0 (by decide)).trans ((Gen.V2_of m outs c main_v0 (by decide)).trans ?_)
  show StableHlo.after hostOps0 (Gen.V0 m c) (Proc.devRef .tc main_v0) = _
  after_results
  rfl
theorem V3_v1 (c : Dev nD) :
    Gen.V3 m outs c main_v1 = shapeCast S16384x1 (lab5 m c) shapeCasts_S16384_S16384x1 := by
  refine (Gen.V3_of m outs c main_v1 (by decide)).trans ((Gen.V2_of m outs c main_v1 (by decide)).trans ?_)
  show StableHlo.after hostOps0 (Gen.V0 m c) (Proc.devRef .tc main_v1) = _
  after_results
  rfl
theorem V3_v0_apply (c : Dev nD) (i : Fin 16384) : Gen.V3 m outs c main_v0 (ix2 i (0 : Fin 1)) = lab4 m c (ix1 i) := by
  rw [V3_v0]; exact Cert.RowOps.shapeCast_a_a1_apply _ _ _ _
theorem V3_v1_apply (c : Dev nD) (i : Fin 16384) : Gen.V3 m outs c main_v1 (ix2 i (0 : Fin 1)) = lab5 m c (ix1 i) := by
  rw [V3_v1]; exact Cert.RowOps.shapeCast_a_a1_apply _ _ _ _

/-! ## The results -/

/-- What region 0 left in its output array is what the next stretch reads there. -/
theorem V2_v3 (c : Dev nD) : Gen.V2 m outs c main_v3 = outs 2 main_v3 c := by
  simp only [Gen.V2, Function.update_self]
theorem V4_v7_1 (c : Dev nD) : Gen.V4 m outs c main_v7_1 = outs 4 main_v7_1 c := by
  simp only [Gen.V4, Function.update_self]
theorem V4_v7_0 (c : Dev nD) : Gen.V4 m outs c main_v7_0 = outs 4 main_v7_0 c := by
  simp only [Gen.V4]
  rw [Function.update_of_ne (StableHlo.devRef_ne_of_ne (by decide) : (Proc.devRef .tc main_v7_0 : DevRef τ sig) ≠ Proc.devRef .tc main_v7_1),
    Function.update_self]

/-- The softmax loss: region 0's sum as a scalar, over the row count, negated. -/
theorem V3_v6 (c : Dev nD) :
    Gen.V3 m outs c main_v6
      = Host.negf (Host.divf (shapeCast S_ (outs 2 main_v3 c) shapeCasts_S1x1_S_) (constant S_ .f32 0x47400000#32)) := by
  show StableHlo.after hostOps1 (Gen.V2 m outs c) (Proc.devRef .tc main_v6) = _
  after_results
  rw [V2_v3]
  rfl
theorem V5_v6 (c : Dev nD) : Gen.V5 m outs c main_v6 = Gen.V3 m outs c main_v6 :=
  (Gen.V5_of m outs c main_v6 (by decide)).trans (Gen.V4_of m outs c main_v6 (by decide))
theorem V5_v8 (c : Dev nD) :
    Gen.V5 m outs c main_v8 = shapeCast S_ (outs 4 main_v7_0 c) shapeCasts_S1x1_S_ := by
  show StableHlo.after hostOps2 (Gen.V4 m outs c) (Proc.devRef .tc main_v8) = _
  after_results
  rw [V4_v7_0]
  rfl
theorem V5_v9 (c : Dev nD) :
    Gen.V5 m outs c main_v9 = shapeCast S_ (outs 4 main_v7_1 c) shapeCasts_S1x1_S_ := by
  show StableHlo.after hostOps2 (Gen.V4 m outs c) (Proc.devRef .tc main_v9) = _
  after_results
  rw [V4_v7_1]
  rfl
theorem V5_v13 (c : Dev nD) :
    Gen.V5 m outs c main_v13
      = addf (addf (Gen.V3 m outs c main_v6)
            (mulf (constant S_ .f32 0x3C23D70A#32) (shapeCast S_ (outs 4 main_v7_0 c) shapeCasts_S1x1_S_)))
          (mulf (constant S_ .f32 0x3F800000#32) (shapeCast S_ (outs 4 main_v7_1 c) shapeCasts_S1x1_S_)) := by
  show StableHlo.after hostOps2 (Gen.V4 m outs c) (Proc.devRef .tc main_v13) = _
  after_results
  rw [V4_v7_0, V4_v7_1, Gen.V4_of m outs c main_v6 (by decide)]
  rfl

end Cert.KernelIdeal.HandV

end
-- ==== Proof.LibRowMax.lean ====
/-
  A maximum over the second axis of an [a, b] array of extended reals, read at an index given by a
  coordinate: the row form that sits beside the lane sum read at an index.
-/
import Idealize.ShloMosaic.Lib.ValueIdx
import Idealize.ShloMosaic.PureOps.Ideal.Laws

noncomputable section

namespace Cert.RowMax

open Idealize.ShloMosaic Idealize.ShloMosaic.ValueIdx

/-- The f32 word of minus infinity denotes the bottom extended real. -/
theorem ofBits_neg_inf_f32 : Ideal.ofBits .f32 0xFF800000#32 = (⊥ : EReal) := by simp [Ideal.ofBits, Ideal.ieee]

/-- The maximum over the second axis of an [a, b] array, taken from minus infinity and read at p: the fold of `max`
    from the bottom element over the entries (p, n). -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (⊥ : EReal) (fun n => src (ix2 p n)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg ((Finset.univ : Finset (Fin b)).fold max (⊥ : EReal)) (funext fun n => congrArg src (funext fun c => Fin.ext ?_))
  show h.liftVal (ix1 p) n.val c = _
  match c with
  | ⟨0, _⟩ => simp [Shape.Reduces.liftVal]
  | ⟨1, _⟩ => simp [Shape.Reduces.liftVal]

end Cert.RowMax

end
-- ==== Proof.KIR0Value.lean ====
/-
  Region 0's running sum on the extended reals. A tile's partial sum is, row by row, the sum over the 1000 columns of
  the row's log-softmax entry times the indicator that the column is the row's label word; for a label word that is
  a column number this is the log-softmax entry at the label (every other term is a product with zero). The running
  sum after the last of the 48 tiles is the zero it started from plus the 48 partial sums, and the 48 tiles of 1024
  rows are the 49152 rows in order: the sum over all rows of the selected log-probability.
-/
import proofs.«414664_j17102559773292_3_alg».proof.Proof.KIR0Defs
import proofs.«414664_j17102559773292_3_alg».proof.Proof.Spec
import proofs.«414664_j17102559773292_3_alg».proof.Proof.LibRowOps
import proofs.«414664_j17102559773292_3_alg».proof.Proof.LibRowMax
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandV0

open Idealize.ShloMosaic Idealize.ShloMosaic.TcCoe Idealize.ShloMosaic.ValueIdx
open Idealize.SL Idealize.SL.Sem
open Cert.KernelIdeal Cert.KernelIdeal.Gen Cert.KernelIdeal.Hand
open Cert.RowOps Cert.RowMax

/-! ## Words and reductions read at an index -/

/-- The sum over the first axis of an [a, b] array of extended reals, read at u: the sum over q of the entries (q, u). -/
theorem colSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (u : Fin b) :
    multiReduction .add [0] ⟨1, ![b]⟩ src 0x00000000#32 h hφ hacc (ix1 u) = ∑ q : Fin a, src (ix2 q u) := by
  refine (Ideal.multiReduction_add_single src 0x00000000#32 h hφ hacc (ix1 u)).trans ?_
  refine Finset.sum_congr rfl fun q _ => congrArg src (funext fun c => Fin.ext ?_)
  show h.liftVal (ix1 u) q.val c = _
  match c with
  | ⟨0, _⟩ => simp [Shape.Reduces.liftVal]
  | ⟨1, _⟩ => simp [Shape.Reduces.liftVal]

/-- The indicator of two column numbers as the extended real the compare, widen, convert chain makes of their words. -/
theorem ind_words (k j : ℕ) (hk : k < 1000) (hj : j < 1000) :
    ((((IntOp.cmpi .eq (BitVec.ofNat 32 k) (BitVec.ofNat 32 j)).setWidth 32).toInt : ℝ) : EReal) = if k = j then 1 else 0 := by
  by_cases h : k = j
  · subst h
    rw [if_pos rfl]
    have : (IntOp.cmpi .eq (BitVec.ofNat 32 k) (BitVec.ofNat 32 k)) = 1#1 := by simp [IntOp.cmpi]
    rw [this]
    norm_num
  · rw [if_neg h]
    have : (IntOp.cmpi .eq (BitVec.ofNat 32 k) (BitVec.ofNat 32 j)) = 0#1 := by
      simp only [IntOp.cmpi]
      have hne : (BitVec.ofNat 32 k == BitVec.ofNat 32 j) = false := by
        rw [beq_eq_false_iff_ne]
        intro e
        have := congrArg BitVec.toNat e
        simp only [BitVec.toNat_ofNat] at this
        omega
      rw [hne]; rfl
    rw [this]
    norm_num

/-! ## The payloads at their one index -/

/-- A row's maximum taken along the lanes, cast to a column and spread back over the lanes, read at (q, k). -/
theorem maxStage (y : FVec Ideal S1024x1000 .f32) (h : S1024x1000.Reduces [1] S1024) (hφ : FKind.Formats .f32)
    (hacc : (0xFF800000#32 : BitVec 32) = FKind.maximumf.neutral .f32 hφ) (hc : S1024.ShapeCasts S1024x1)
    (hb : S1024x1.Broadcasts S1024x1000) (q : Fin 1024) (k : Fin 1000) :
    broadcastTo S1024x1000 (shapeCast S1024x1 (multiReduction .maximumf [1] S1024 y 0xFF800000#32 h hφ hacc) hc) hb (ix2 q k)
      = Cert.Spec.rowMax (fun n => y (ix2 q n)) := by
  refine (broadcastTo_a1_ab_apply _ hb q k).trans ?_
  refine (shapeCast_a_a1_apply _ hc q (0 : Fin 1)).trans ?_
  refine (laneMax_apply y h hφ hacc q).trans ?_
  unfold Cert.Spec.rowMax Cert.Spec.negInfW
  rw [ofBits_neg_inf_f32]

/-- The logarithm of a row's sum along the lanes, as a column spread back over the lanes, read at (q, k). -/
theorem logSumStage (z : FVec Ideal S1024x1000 .f32) (h : S1024x1000.Reduces [1] S1024) (hφ : FKind.Formats .f32)
    (hacc : (0x00000000#32 : BitVec 32) = FKind.add.neutral .f32 hφ) (hc : S1024.ShapeCasts S1024x1)
    (hb : S1024x1.Broadcasts S1024x1000) (q : Fin 1024) (k : Fin 1000) :
    broadcastTo S1024x1000 (log (shapeCast S1024x1 (multiReduction .add [1] S1024 z 0x00000000#32 h hφ hacc) hc)) hb (ix2 q k)
      = Ideal.log (∑ n : Fin 1000, z (ix2 q n)) := by
  refine (broadcastTo_a1_ab_apply _ hb q k).trans ?_
  show Ideal.log (shapeCast S1024x1 (multiReduction .add [1] S1024 z 0x00000000#32 h hφ hacc) hc (ix2 q (0 : Fin 1))) = _
  refine congrArg Ideal.log ?_
  refine (shapeCast_a_a1_apply _ hc q (0 : Fin 1)).trans ?_
  exact laneSum_apply z h hφ hacc q

/-- The zero the first point stores. -/
theorem pay1_apply (j : S1x1.Idx) : (k0_pay1 (F := Ideal)) j = 0 := by
  unfold k0_pay1
  rw [shapeCast_self]
  exact Ideal.ofBits_zero_f32

/-- A row's scaled logits. -/
abbrev rowOf (x : Vec Ideal S1024x1000 .f32) (p : Fin 1024) : Fin 1000 → EReal := fun k => x (ix2 p k) * Cert.Spec.oneW

/-- The indicator the kernel multiplies by, at row p and column n. -/
abbrev indOf (l : Vec Ideal S1024x1 .i32) (p : Fin 1024) (n : Fin 1000) : EReal :=
  ((((IntOp.cmpi .eq (BitVec.ofNat 32 n.val) (l (ix2 p (0 : Fin 1)))).setWidth 32).toInt : ℝ) : EReal)

/-- The compare of the column counter with a row's label word, widened and converted, read at (q, n). -/
theorem indStage (l : Vec Ideal S1024x1 .i32) (hi : S1024x1000.Iotas .tc 32 [1]) (hc : S1024x1.ShapeCasts S1024x1)
    (hb : S1024x1.Broadcasts S1024x1000) (hw : 1 < 32) (q : Fin 1024) (n : Fin 1000) :
    (sitofp .f32 (extui 32 (cmpi .eq (iota .tc S1024x1000 32 [1] hi) (broadcastTo S1024x1000 (shapeCast S1024x1 l hc) hb)) hw)
      : FVec Ideal S1024x1000 .f32) (ix2 q n) = indOf l q n := by
  have e1 : iota .tc S1024x1000 32 [1] hi (ix2 q n) = BitVec.ofNat 32 n.val :=
    iota_single_apply .tc S1024x1000 32 (1 : Fin S1024x1000.rank) hi (ix2 q n)
  have e2 : broadcastTo S1024x1000 (shapeCast S1024x1 l hc) hb (ix2 q n) = l (ix2 q (0 : Fin 1)) := by
    rw [shapeCast_self]; exact broadcastTo_a1_ab_apply _ hb q n
  show ((((IntOp.cmpi .eq (iota .tc S1024x1000 32 [1] hi (ix2 q n))
    (broadcastTo S1024x1000 (shapeCast S1024x1 l hc) hb (ix2 q n))).setWidth 32).toInt : ℝ) : EReal) = _
  rw [e1, e2]

/-- The tile's payload at its one index: the loaded scratch plus, over the tile's rows and columns, the log-softmax
    entry times the indicator. -/
theorem pay2_apply (x : Vec Ideal S1024x1000 .f32) (l : Vec Ideal S1024x1 .i32) (a : Vec Ideal S1x1 .f32) :
    k0_pay2 x l a (ix2 (0 : Fin 1) (0 : Fin 1))
      = a (ix2 (0 : Fin 1) (0 : Fin 1)) + ∑ q : Fin 1024, ∑ n : Fin 1000, Cert.Spec.lsm (rowOf x q) n * indOf l q n := by
  unfold k0_pay2
  rw [shapeCast_self]
  refine congrArg (a (ix2 (0 : Fin 1) (0 : Fin 1)) + ·) ?_
  refine (shapeCast_a_a1_apply _ _ (0 : Fin 1) (0 : Fin 1)).trans ?_
  refine (colSum_apply _ _ _ _ (0 : Fin 1)).trans ?_
  refine Finset.sum_congr rfl fun q _ => ?_
  refine (shapeCast_a_a1_apply _ _ q (0 : Fin 1)).trans ?_
  refine (laneSum_apply _ _ _ _ q).trans ?_
  refine Finset.sum_congr rfl fun n _ => ?_
  refine congrArg₂ (· * ·) ?_ ?_
  · unfold Cert.Spec.lsm
    refine congrArg₂ (· - ·) (congrArg₂ (· - ·) rfl ?_) ?_
    · exact maxStage _ _ _ _ _ _ q n
    · refine (logSumStage _ _ _ _ _ _ q n).trans (congrArg Ideal.log (Finset.sum_congr rfl fun j _ => ?_))
      exact congrArg Ideal.exp (congrArg₂ (· - ·) rfl (maxStage _ _ _ _ _ _ q j))
  · exact indStage l _ _ _ _ q n

/-! ## The tiles read off the arrays -/

variable (V : (c : Dev nD) → (b : Ref sig .tc) → Buf (Elt Ideal) ((c : Thread nD τ).loc b))

/-- Tile `t` of either window is block `t` along the rows and block 0 along the columns. -/
theorem idx_tile : ∀ t : Fin cfg0.N,
    win0_0.index t (0 : Fin 2) = t.val ∧ win0_0.index t (1 : Fin 2) = 0
      ∧ win0_1.index t (0 : Fin 2) = t.val ∧ win0_1.index t (1 : Fin 2) = 0 :=
  (by decide +kernel : ∀ t : Fin grid0.N, _)

/-- The logits the point reads: entry (p, k) of tile `t` is entry (1024 t + p, k) of the array. -/
theorem xblk0_apply (c : Dev nD) (t : Fin cfg0.N) (p : Fin 1024) (k : Fin 1000) (r : Fin 49152)
    (hr : r.val = t.val * 1024 + p.val) :
    xblk0 V c t (ix2 p k) = V c main_arg3 (ix2 r k) := by
  have hi := idx_tile t
  unfold xblk0 iblk0
  rw [View.read_apply]
  show V c main_arg3 _ = V c main_arg3 _
  congr 1
  funext a
  apply Fin.ext
  match a with
  | ⟨0, _⟩ => show win0_0.index t 0 * 1024 + 1 * p.val = r.val; rw [hi.1, hr]; omega
  | ⟨1, _⟩ => show win0_0.index t 1 * 1000 + 1 * k.val = k.val; rw [hi.2.1]; omega

/-- The label words the point reads: entry (p, 0) of tile `t` is entry (1024 t + p, 0) of the label column. -/
theorem lblk0_apply (c : Dev nD) (t : Fin cfg0.N) (p : Fin 1024) (r : Fin 49152)
    (hr : r.val = t.val * 1024 + p.val) :
    lblk0 V c t (ix2 p (0 : Fin 1)) = V c main_v2 (ix2 r (0 : Fin 1)) := by
  have hi := idx_tile t
  unfold lblk0 iblk0
  rw [View.read_apply]
  show V c main_v2 _ = V c main_v2 _
  congr 1
  funext a
  apply Fin.ext
  match a with
  | ⟨0, _⟩ => show win0_1.index t 0 * 1024 + 1 * p.val = r.val; rw [hi.2.2.1, hr]; omega
  | ⟨1, _⟩ => show win0_1.index t 1 * 1 + 1 * 0 = 0; rw [hi.2.2.2]

/-! ## The running sum -/

/-- A row's selected log-probability, the rows numbered by the naturals (zero past the last row). -/
def rowVal (I : Cert.Spec.Inputs) (r : ℕ) : EReal := if h : r < 49152 then Cert.Spec.softRow I ⟨r, h⟩ else 0

/-- A tile's partial sum: the selected log-probabilities of its 1024 rows. -/
def tileSum (I : Cert.Spec.Inputs) (t : ℕ) : EReal := ∑ p : Fin 1024, rowVal I (t * 1024 + p.val)

/-- A sum against the indicator of one column keeps that column's term. -/
theorem sum_mul_ind (f : Fin 1000 → EReal) (j : Fin 1000) :
    ∑ n : Fin 1000, f n * (if n.val = j.val then (1 : EReal) else 0) = f j := by
  rw [Finset.sum_eq_single_of_mem j (Finset.mem_univ j) fun n _ hne => by
    rw [if_neg fun e => hne (Fin.ext e), mul_zero]]
  rw [if_pos rfl, mul_one]

/-- The body at a point adds the tile's partial sum to the scratch it loaded. -/
theorem step (c : Dev nD) (I : Cert.Spec.Inputs)
    (hO : ∀ (r : Fin 49152) (k : Fin 1000), V c main_arg3 (ix2 r k) = I.O r k)
    (hL : ∀ r : Fin 49152, V c main_v2 (ix2 r (0 : Fin 1)) = BitVec.ofNat 32 (Cert.Spec.lab I r).val)
    (t : Fin cfg0.N) (a : Vec Ideal S1x1 .f32) :
    k0_pay2 (xblk0 V c t) (lblk0 V c t) a (ix2 (0 : Fin 1) (0 : Fin 1))
      = a (ix2 (0 : Fin 1) (0 : Fin 1)) + tileSum I t.val := by
  rw [pay2_apply]
  refine congrArg (a (ix2 (0 : Fin 1) (0 : Fin 1)) + ·) ?_
  unfold tileSum
  refine Finset.sum_congr rfl fun q _ => ?_
  have hN : cfg0.N = 48 := N_0
  have ht : t.val < 48 := hN ▸ t.isLt
  have hlt : t.val * 1024 + q.val < 49152 := by have := q.isLt; omega
  have hx : rowOf (xblk0 V c t) q = fun k => I.O ⟨t.val * 1024 + q.val, hlt⟩ k * Cert.Spec.oneW :=
    funext fun k => by
      show xblk0 V c t (ix2 q k) * Cert.Spec.oneW = _
      rw [xblk0_apply V c t q k ⟨t.val * 1024 + q.val, hlt⟩ rfl, hO]
  have hi : ∀ n : Fin 1000, indOf (lblk0 V c t) q n
      = if n.val = (Cert.Spec.lab I ⟨t.val * 1024 + q.val, hlt⟩).val then 1 else 0 := fun n => by
    show ((((IntOp.cmpi .eq (BitVec.ofNat 32 n.val) (lblk0 V c t (ix2 q (0 : Fin 1)))).setWidth 32).toInt : ℝ) : EReal) = _
    rw [lblk0_apply V c t q ⟨t.val * 1024 + q.val, hlt⟩ rfl, hL]
    exact ind_words _ _ n.isLt (Cert.Spec.lab I _).isLt
  rw [hx]
  simp only [hi]
  rw [sum_mul_ind]
  unfold rowVal
  rw [dif_pos hlt]
  rfl

/-- The running sum after point n: the partial sums of the tiles up to n. -/
theorem acc0_eq (c : Dev nD) (I : Cert.Spec.Inputs)
    (hO : ∀ (r : Fin 49152) (k : Fin 1000), V c main_arg3 (ix2 r k) = I.O r k)
    (hL : ∀ r : Fin 49152, V c main_v2 (ix2 r (0 : Fin 1)) = BitVec.ofNat 32 (Cert.Spec.lab I r).val) :
    ∀ (n : ℕ) (h : n < cfg0.N), acc0 (F := Ideal) V c n h (ix2 (0 : Fin 1) (0 : Fin 1)) = ∑ t ∈ Finset.range (n + 1), tileSum I t
  | 0, h => by
    rw [acc0_zero, step V c I hO hL ⟨0, h⟩, pay1_apply, zero_add, Finset.sum_range_one]
  | n + 1, h => by
    rw [acc0_succ, step V c I hO hL ⟨n + 1, h⟩, acc0_eq c I hO hL n (Nat.lt_of_succ_lt h), Finset.sum_range_succ _ (n + 1)]

/-- The 48 tiles of 1024 rows are the 49152 rows in order. -/
theorem tiles_all (I : Cert.Spec.Inputs) : ∑ t ∈ Finset.range 48, tileSum I t = Cert.Spec.softSum I := by
  unfold tileSum Cert.Spec.softSum
  rw [Finset.sum_range]
  rw [← Finset.sum_product' (Finset.univ : Finset (Fin 48)) (Finset.univ : Finset (Fin 1024)) (fun t p => rowVal I (t.val * 1024 + p.val))]
  rw [Finset.univ_product_univ]
  refine Fintype.sum_equiv (finProdFinEquiv (m := 48) (n := 1024)) _ _ fun tp => ?_
  have hlt : tp.1.val * 1024 + tp.2.val < 49152 := by have := tp.1.isLt; have := tp.2.isLt; omega
  unfold rowVal
  rw [dif_pos hlt]
  refine congrArg (Cert.Spec.softRow I) (Fin.ext ?_)
  show tp.1.val * 1024 + tp.2.val = tp.2.val + 1024 * tp.1.val
  omega

/-- After the last point the scratch holds the selected log-probabilities' sum over all 49152 rows, when the region
    finds the logits `I.O` in its first window's array and, in its second's, each row's label as a column number. -/
theorem acc0_final (c : Dev nD) (I : Cert.Spec.Inputs)
    (hO : ∀ (r : Fin 49152) (k : Fin 1000), V c main_arg3 (ix2 r k) = I.O r k)
    (hL : ∀ r : Fin 49152, V c main_v2 (ix2 r (0 : Fin 1)) = BitVec.ofNat 32 (Cert.Spec.lab I r).val) :
    acc0 (F := Ideal) V c 47 (by decide) = fun _ => Cert.Spec.softSum I := by
  funext j
  have hj : j = ix2 (0 : Fin 1) (0 : Fin 1) := by
    funext a
    match a with
    | ⟨0, _⟩ => exact Fin.ext (by have h0 : (j 0).val < 1 := (j 0).isLt; show (j 0).val = 0; omega)
    | ⟨1, _⟩ => exact Fin.ext (by have h1 : (j 1).val < 1 := (j 1).isLt; show (j 1).val = 0; omega)
  rw [hj, acc0_eq V c I hO hL 47 _, tiles_all]

end Cert.KernelIdeal.HandV0

end
-- ==== Proof.LibPlainDot.lean ====
/-
  A plain product of an m×k array by a k×n array, accumulated into the zero array and read at one entry. Over the
  extended reals it is the sum, over the contracted coordinate, of the products of the two arrays' entries — the same
  sum the host's product of the same two arrays is at that entry.
-/
import Idealize.ShloMosaic.Lib.StackMember
import Idealize.ShloMosaic.PureOps.Ideal.Laws

noncomputable section

namespace Cert.Lib.PlainDot

open Idealize.ShloMosaic Idealize.ShloMosaic.ValueIdx

/-- `A · B` into the zero accumulator, at entry `(a, b)`: `∑ c, A[a, c] * B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.KIR1ValueA.lean ====
/-
  One grid point of region 1 on the extended reals, entry by entry. The product of a one-hot row (the indicator of
  the label word among the 1000 columns) with the exemplar table is the labelled exemplar row, every other term being a
  product with zero; each of the six distance columns reads, at a row, the offset distance of the two rows; the
  thresholded gaps and the two per-row terms are the specification's at each row; a sum down a 512-row column into one
  entry is the sum of the column's entries; so a point's update adds to the running sum the sum over the tile's 512
  rows of the row terms.
-/
import proofs.«414664_j17102559773292_3_alg».proof.Proof.KIR1Defs
import proofs.«414664_j17102559773292_3_alg».proof.Proof.Spec
import proofs.«414664_j17102559773292_3_alg».proof.Proof.LibRowOps
import proofs.«414664_j17102559773292_3_alg».proof.Proof.LibPlainDot
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandV

open Idealize.ShloMosaic Idealize.ShloMosaic.TcCoe Idealize.ShloMosaic.ValueIdx
open Idealize.SL Idealize.SL.Sem
open Cert.KernelIdeal Cert.KernelIdeal.Gen Cert.KernelIdeal.Hand

/-- Two column numbers below 1000 have the same 32-bit word exactly when they are equal. -/
theorem word_eq_iff (c k : Fin 1000) : (BitVec.ofNat 32 c.val == BitVec.ofNat 32 k.val) = decide (c = k) := by
  have hc := c.isLt
  have hk := k.isLt
  by_cases h : c = k
  · subst h; simp
  · have : ¬ BitVec.ofNat 32 c.val = BitVec.ofNat 32 k.val := by
      intro e
      have := congrArg BitVec.toNat e
      rw [BitVec.toNat_ofNat, BitVec.toNat_ofNat, Nat.mod_eq_of_lt (by omega), Nat.mod_eq_of_lt (by omega)] at this
      exact h (Fin.ext this)
    simp [h, this]

/-- The indicator of a row's label among the 1000 columns: at (p, c) it is 1 when c is row p's label, else 0. -/
theorem onehot_apply (la : Vec Ideal S512x1 .i32) (p : Fin 512) (c k : Fin 1000)
    (hk : la (ix2 p (0 : Fin 1)) = BitVec.ofNat 32 k.val) :
    (sitofp .f32 (extui 32 (cmpi .eq (iota .tc S512x1000 32 [1] iota_S512x1000_d1_w32)
        (broadcastTo S512x1000 (shapeCast S512x1 la shapeCasts_S512x1_S512x1) broadcasts_S512x1_S512x1000)) natLt_1_32)
      : FVec Ideal S512x1000 .f32) (ix2 p c) = if c = k then 1 else 0 := by
  rw [sitofp_apply, extui_apply]
  show FloatOps.sitofp .f32 ((IntOp.cmpi .eq (iota .tc S512x1000 32 [1] iota_S512x1000_d1_w32 (ix2 p c))
        (broadcastTo S512x1000 (shapeCast S512x1 la shapeCasts_S512x1_S512x1) broadcasts_S512x1_S512x1000 (ix2 p c))).setWidth 32) = _
  rw [iota_single_apply]
  have hb : broadcastTo S512x1000 (shapeCast S512x1 la shapeCasts_S512x1_S512x1) broadcasts_S512x1_S512x1000 (ix2 p c)
      = la (ix2 p (0 : Fin 1)) := by
    rw [shapeCast_self]
    exact Cert.RowOps.broadcastTo_a1_ab_apply la _ p c
  rw [hb, hk]
  show ((((BitVec.ofBool (BitVec.ofNat 32 c.val == BitVec.ofNat 32 k.val)).setWidth 32).toInt : ℝ) : EReal) = _
  rw [word_eq_iff]
  by_cases h : c = k
  · rw [if_pos h]; simp [h]
  · rw [if_neg h]; simp [h]

/-- The product of the label indicator with the exemplar table is, at row p, the labelled exemplar row: every other
    term of the sum over the 1000 columns is a product with zero. -/
theorem pay5_apply (la : Vec Ideal S512x1 .i32) (ex : Vec Ideal S1000x512 .f32) (p d : Fin 512) (k : Fin 1000)
    (hk : la (ix2 p (0 : Fin 1)) = BitVec.ofNat 32 k.val) :
    k1_pay5 la ex (ix2 p d) = ex (ix2 k d) := by
  unfold k1_pay5
  refine (Cert.Lib.PlainDot.matmul_plain_zero_apply (m := 512) (k := 1000) (n := 512) (some .fp32) _ ex p d).trans ?_
  rw [Finset.sum_congr rfl (fun c _ => by rw [onehot_apply la p c k hk])]
  simp [ite_mul, Finset.sum_ite_eq']

/-- The same for the second label column. -/
theorem pay6_apply (ln : Vec Ideal S512x1 .i32) (ex : Vec Ideal S1000x512 .f32) (p d : Fin 512) (k : Fin 1000)
    (hk : ln (ix2 p (0 : Fin 1)) = BitVec.ofNat 32 k.val) :
    k1_pay6 ln ex (ix2 p d) = ex (ix2 k d) := by
  unfold k1_pay6
  refine (Cert.Lib.PlainDot.matmul_plain_zero_apply (m := 512) (k := 1000) (n := 512) (some .fp32) _ ex p d).trans ?_
  rw [Finset.sum_congr rfl (fun c _ => by rw [onehot_apply ln p c k hk])]
  simp [ite_mul, Finset.sum_ite_eq']

/-- The column of offset distances between the rows of two 512-row blocks, as every one of the six is computed:
    the square root of the lane sum of the squared offset differences. -/
def distCol (x y : FVec Ideal S512x512 .f32) : FVec Ideal S512x1 .f32 :=
  sqrt (shapeCast S512x1
    (multiReduction .add [1] S512
      (mulf (addf (subf x y) (broadcast S512x512 (eps1 (F := Ideal)))) (addf (subf x y) (broadcast S512x512 (eps1 (F := Ideal)))))
      0x00000000#32 reduces_S512x512_S512 (.inl rfl) rfl) shapeCasts_S512_S512x1)

/-- Its entry at row p is the specification's offset distance of the two rows. -/
theorem distCol_apply (x y : FVec Ideal S512x512 .f32) (p : Fin 512) (u : Fin 1) :
    distCol x y (ix2 p u) = Cert.Spec.pdist (fun d => x (ix2 p d)) (fun d => y (ix2 p d)) := by
  show Ideal.sqrt (shapeCast S512x1 _ shapeCasts_S512_S512x1 (ix2 p u)) = _
  rw [Cert.RowOps.shapeCast_a_a1_apply]
  exact congrArg Ideal.sqrt (Cert.RowOps.laneSum_apply _ _ _ _ p)

theorem pay7_eq (la : Vec Ideal S512x1 .i32) (ex : Vec Ideal S1000x512 .f32) (x : Vec Ideal S512x512 .f32) :
    k1_pay7 la ex x = distCol x (k1_pay5 la ex) := rfl
theorem pay8_eq (la : Vec Ideal S512x1 .i32) (ex : Vec Ideal S1000x512 .f32) (x : Vec Ideal S512x512 .f32) :
    k1_pay8 la ex x = distCol x (k1_pay5 la ex) := rfl
theorem pay10_eq (ln : Vec Ideal S512x1 .i32) (ex : Vec Ideal S1000x512 .f32) (x : Vec Ideal S512x512 .f32) :
    k1_pay10 (k1_pay9 ln ex x) (eps1 (F := Ideal)) = distCol x (k1_pay6 ln ex) := rfl
theorem pay11_eq (y : FVec Ideal S512x512 .f32) (x : Vec Ideal S512x512 .f32) :
    k1_pay11 y x = distCol x y := rfl
theorem pay12_eq (x y : Vec Ideal S512x512 .f32) : k1_pay12 x y = distCol x y := rfl
theorem pay13_eq (x y : Vec Ideal S512x512 .f32) : k1_pay13 x y = distCol x y := rfl

/-- The first center term at a row: the specification's, of the two distances at that row. -/
theorem pay14_apply (d1 d2 : FVec Ideal S512x1 .f32) (i : S512x1.Idx) :
    k1_pay14 d1 d2 i = Cert.Spec.c1 (d1 i) (d2 i) := rfl

/-- The second center term at a row, from its mask and its gap: the specification's thresholded gap. -/
theorem gapC_apply (y : FVec Ideal S512x512 .f32) (xn : Vec Ideal S512x512 .f32) (v36 : FVec Ideal S512x512 .f32)
    (e : Ideal .f32) (i : S512x1.Idx) :
    select (k1_pay15 y xn v36 e) (maximumf (k1_pay16 y xn v36 e) (broadcast S512x1 (zero1 (F := Ideal))))
        (broadcast S512x1 (Scalar.ofBits .f32 0x00000000#32)) i
      = Cert.Spec.gap (k1_pay11 y xn i) (k1_pay10 v36 e i) := rfl

/-- The sum down the first axis of a column [a, 1] into its one entry: the sum of the column's entries. -/
theorem colSum_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction .add [0] ⟨1, ![1]⟩ src 0x00000000#32 h hφ hacc (ix1 u) = ∑ n : Fin a, src (ix2 n (0 : Fin 1)) := by
  refine (Ideal.multiReduction_add_single src 0x00000000#32 h hφ hacc (ix1 u)).trans ?_
  refine Finset.sum_congr rfl fun n _ => congrArg src (funext fun c => Fin.ext ?_)
  show h.liftVal (ix1 u) n.val c = _
  have hu : u.val = 0 := by omega
  match c with
  | ⟨0, _⟩ => simp [Shape.Reduces.liftVal]
  | ⟨1, _⟩ => simp [Shape.Reduces.liftVal, hu]

/-- The center scratch's update at its one entry: what was there plus the sum over the 512 rows of the first term plus
    the second term's gap where its mask is set, cut at the given zero. -/
theorem pay1_apply (v75 : FVec Ideal S512x1 .f32) (v80 : IVec S512x1 1) (v81 : FVec Ideal S512x1 .f32) (z : Ideal .f32)
    (a : FVec Ideal S1x1 .f32) (u v : Fin 1) :
    k1_pay1 v75 v80 v81 z a (ix2 u v) = a (ix2 u v) + ∑ p : Fin 512,
      (v75 (ix2 p (0 : Fin 1)) + select v80 (maximumf v81 (broadcast S512x1 z))
        (broadcast S512x1 (Scalar.ofBits .f32 0x00000000#32)) (ix2 p (0 : Fin 1))) := by
  unfold k1_pay1
  show (shapeCast S1x1 (addf a (shapeCast S1x1 _ shapeCasts_S1_S1x1)) shapeCasts_S1x1_S1x1) (ix2 u v) = _
  rw [shapeCast_self]
  show a (ix2 u v) + shapeCast S1x1 _ shapeCasts_S1_S1x1 (ix2 u v) = _
  rw [Cert.RowOps.shapeCast_a_a1_apply]
  exact congrArg (a (ix2 u v) + ·) (colSum_apply _ _ _ _ u)

/-- The triplet scratch's update at its one entry: what was there plus the sum over the 512 rows of the thresholded gap
    of the two distances. -/
theorem pay2_apply (d1 d2 : FVec Ideal S512x1 .f32) (a : FVec Ideal S1x1 .f32) (u v : Fin 1) :
    k1_pay2 d1 d2 a (ix2 u v) = a (ix2 u v) + ∑ p : Fin 512,
      Cert.Spec.gap (d1 (ix2 p (0 : Fin 1))) (d2 (ix2 p (0 : Fin 1))) := by
  unfold k1_pay2
  show (shapeCast S1x1 (addf a (shapeCast S1x1 _ shapeCasts_S1_S1x1)) shapeCasts_S1x1_S1x1) (ix2 u v) = _
  rw [shapeCast_self]
  show a (ix2 u v) + shapeCast S1x1 _ shapeCasts_S1_S1x1 (ix2 u v) = _
  rw [Cert.RowOps.shapeCast_a_a1_apply]
  exact congrArg (a (ix2 u v) + ·) (colSum_apply _ _ _ _ u)

/-- A row's center term from a tile's anchor rows, negative rows, the exemplar table and the row's two labels. -/
def rowC (xa xn : Vec Ideal S512x512 .f32) (ex : Vec Ideal S1000x512 .f32) (ka kn : Fin 512 → Fin 1000) (p : Fin 512) : EReal :=
  Cert.Spec.c1 (Cert.Spec.pdist (fun d => xa (ix2 p d)) (fun d => ex (ix2 (ka p) d)))
      (Cert.Spec.pdist (fun d => xn (ix2 p d)) (fun d => ex (ix2 (ka p) d)))
    + Cert.Spec.gap (Cert.Spec.pdist (fun d => xn (ix2 p d)) (fun d => ex (ix2 (kn p) d)))
      (Cert.Spec.pdist (fun d => xa (ix2 p d)) (fun d => ex (ix2 (kn p) d)))

/-- A row's triplet term from a tile's anchor, positive and negative rows. -/
def rowT (xa xp xn : Vec Ideal S512x512 .f32) (p : Fin 512) : EReal :=
  Cert.Spec.gap (Cert.Spec.pdist (fun d => xa (ix2 p d)) (fun d => xp (ix2 p d)))
    (Cert.Spec.pdist (fun d => xa (ix2 p d)) (fun d => xn (ix2 p d)))

/-- One point's update of the center sum, at the scratch's one entry: the running sum plus the tile's 512 row terms. -/
theorem stepC_apply (xa xn : Vec Ideal S512x512 .f32) (ex : Vec Ideal S1000x512 .f32) (la ln : Vec Ideal S512x1 .i32)
    (a : Vec Ideal S1x1 .f32) (ka kn : Fin 512 → Fin 1000)
    (hka : ∀ p : Fin 512, la (ix2 p (0 : Fin 1)) = BitVec.ofNat 32 (ka p).val)
    (hkn : ∀ p : Fin 512, ln (ix2 p (0 : Fin 1)) = BitVec.ofNat 32 (kn p).val) (j : S1x1.Idx) :
    stepC xa xn ex la ln a j = a j + ∑ p : Fin 512, rowC xa xn ex ka kn p := by
  obtain ⟨u, v, rfl⟩ : ∃ (u v : Fin 1), j = ix2 u v := ⟨j 0, j 1, eq_ix2 j⟩
  unfold stepC
  rw [pay1_apply]
  refine congrArg (a (ix2 u v) + ·) (Finset.sum_congr rfl fun p _ => ?_)
  rw [pay14_apply, gapC_apply, pay7_eq, pay8_eq, pay10_eq, pay11_eq, distCol_apply, distCol_apply, distCol_apply,
    distCol_apply]
  have e5 : (fun d => k1_pay5 la ex (ix2 p d)) = fun d => ex (ix2 (ka p) d) := funext fun d => pay5_apply la ex p d (ka p) (hka p)
  have e6 : (fun d => k1_pay6 ln ex (ix2 p d)) = fun d => ex (ix2 (kn p) d) := funext fun d => pay6_apply ln ex p d (kn p) (hkn p)
  rw [e5, e6]
  rfl

/-- One point's update of the triplet sum, at the scratch's one entry. -/
theorem stepT_apply (xa xp xn : Vec Ideal S512x512 .f32) (a : Vec Ideal S1x1 .f32) (j : S1x1.Idx) :
    stepT xa xp xn a j = a j + ∑ p : Fin 512, rowT xa xp xn p := by
  obtain ⟨u, v, rfl⟩ : ∃ (u v : Fin 1), j = ix2 u v := ⟨j 0, j 1, eq_ix2 j⟩
  unfold stepT
  rw [pay2_apply]
  refine congrArg (a (ix2 u v) + ·) (Finset.sum_congr rfl fun p _ => ?_)
  rw [pay12_eq, pay13_eq, distCol_apply, distCol_apply]
  rfl

/-- The zeros the two scratches start from, at their one entry. -/
theorem pay3_apply (j : S1x1.Idx) : (k1_pay3 (F := Ideal)) j = 0 := by
  unfold k1_pay3
  show (shapeCast S1x1 (broadcast S1x1 (Scalar.ofBits (F := Ideal) .f32 0x00000000#32)) shapeCasts_S1x1_S1x1) j = 0
  rw [shapeCast_self]
  exact Ideal.ofBits_zero_f32
theorem pay4_apply (j : S1x1.Idx) : (k1_pay4 (F := Ideal)) j = 0 := by
  unfold k1_pay4
  show (shapeCast S1x1 (broadcast S1x1 (Scalar.ofBits (F := Ideal) .f32 0x00000000#32)) shapeCasts_S1x1_S1x1) j = 0
  rw [shapeCast_self]
  exact Ideal.ofBits_zero_f32

end Cert.KernelIdeal.HandV

end
-- ==== Proof.KIR1Value.lean ====
/-
  Region 1's two running sums on the extended reals. The product of a one-hot row (the indicator of the label word
  among the 1000 columns) with the exemplar table is the labelled exemplar row (every other term is a product with
  zero); the six pairwise distances, the thresholded gaps and the two per-row terms follow entry by entry; a tile's
  partial sums run over its 512 rows, the running sums after the last of the 32 tiles are the zeros they started
  from plus the 32 partial sums, and the 32 tiles of 512 rows are the 16384 triples in order.

  Here: a window's block at a point read at an entry (block index times block size plus the coordinate in the block),
  a tile's row terms as the specification's terms of the rows they are among the 16384, the running sums by induction
  on the position, and the regrouping of tiles and rows in a tile into all rows.
-/
import proofs.«414664_j17102559773292_3_alg».proof.Proof.KIR1Defs
import proofs.«414664_j17102559773292_3_alg».proof.Proof.KIR1ValueA
import proofs.«414664_j17102559773292_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandV

open Idealize.ShloMosaic Idealize.ShloMosaic.TcCoe Idealize.ShloMosaic.ValueIdx
open Idealize.SL Idealize.SL.Sem
open Cert.KernelIdeal Cert.KernelIdeal.Gen Cert.KernelIdeal.Hand

variable (V : (c : Dev nD) → (b : Ref sig .tc) → Buf (Elt Ideal) ((c : Thread nD τ).loc b))

/-- Row p of the tile numbered s among the 16384 rows (taken modulo 16384, so that it names a row for every s). -/
def rowOf (s : ℕ) (p : Fin 512) : Fin 16384 := ⟨(512 * s + p.val) % 16384, Nat.mod_lt _ (by decide)⟩

/-- A tile's block of the anchors is rows 512t … 512t + 511 of the array. -/
theorem ablk1_apply (c : Dev nD) (t : Fin cfg1.N) (p d : Fin 512) :
    ablk1 V c t (ix2 p d) = V c main_arg0 (ix2 (rowOf t.val p) d) := by
  have hi : win1_0.index t 0 = t.val ∧ win1_0.index t 1 = 0 :=
    (by decide +kernel : ∀ t : Fin grid1.N, win1_0.index t (0 : Fin 2) = t.val ∧ win1_0.index t (1 : Fin 2) = 0) t
  have ht : t.val < 32 := Nat.lt_of_lt_of_eq t.isLt N_1
  show ((cfg1.win 0).blk t).view.read (Elt Ideal) (V c (Pipeline.arrRef spec1 0)) (ix2 p d) = _
  rw [View.read_apply]
  show V c main_arg0 _ = V c main_arg0 _
  congr 1
  funext a
  apply Fin.ext
  match a with
  | ⟨0, _⟩ => show win1_0.index t 0 * 512 + 1 * p.val = (512 * t.val + p.val) % 16384; rw [hi.1]; omega
  | ⟨1, _⟩ => show win1_0.index t 1 * 512 + 1 * d.val = d.val; rw [hi.2]; omega

/-- Likewise the positives' block. -/
theorem pblk1_apply (c : Dev nD) (t : Fin cfg1.N) (p d : Fin 512) :
    pblk1 V c t (ix2 p d) = V c main_arg1 (ix2 (rowOf t.val p) d) := by
  have hi : win1_1.index t 0 = t.val ∧ win1_1.index t 1 = 0 :=
    (by decide +kernel : ∀ t : Fin grid1.N, win1_1.index t (0 : Fin 2) = t.val ∧ win1_1.index t (1 : Fin 2) = 0) t
  have ht : t.val < 32 := Nat.lt_of_lt_of_eq t.isLt N_1
  show ((cfg1.win 1).blk t).view.read (Elt Ideal) (V c (Pipeline.arrRef spec1 1)) (ix2 p d) = _
  rw [View.read_apply]
  show V c main_arg1 _ = V c main_arg1 _
  congr 1
  funext a
  apply Fin.ext
  match a with
  | ⟨0, _⟩ => show win1_1.index t 0 * 512 + 1 * p.val = (512 * t.val + p.val) % 16384; rw [hi.1]; omega
  | ⟨1, _⟩ => show win1_1.index t 1 * 512 + 1 * d.val = d.val; rw [hi.2]; omega

/-- Likewise the negatives' block. -/
theorem nblk1_apply (c : Dev nD) (t : Fin cfg1.N) (p d : Fin 512) :
    nblk1 V c t (ix2 p d) = V c main_arg2 (ix2 (rowOf t.val p) d) := by
  have hi : win1_2.index t 0 = t.val ∧ win1_2.index t 1 = 0 :=
    (by decide +kernel : ∀ t : Fin grid1.N, win1_2.index t (0 : Fin 2) = t.val ∧ win1_2.index t (1 : Fin 2) = 0) t
  have ht : t.val < 32 := Nat.lt_of_lt_of_eq t.isLt N_1
  show ((cfg1.win 2).blk t).view.read (Elt Ideal) (V c (Pipeline.arrRef spec1 2)) (ix2 p d) = _
  rw [View.read_apply]
  show V c main_arg2 _ = V c main_arg2 _
  congr 1
  funext a
  apply Fin.ext
  match a with
  | ⟨0, _⟩ => show win1_2.index t 0 * 512 + 1 * p.val = (512 * t.val + p.val) % 16384; rw [hi.1]; omega
  | ⟨1, _⟩ => show win1_2.index t 1 * 512 + 1 * d.val = d.val; rw [hi.2]; omega

/-- The exemplar table's block is the whole table at every point. -/
theorem eblk1_apply (c : Dev nD) (t : Fin cfg1.N) (k : Fin 1000) (d : Fin 512) :
    eblk1 V c t (ix2 k d) = V c main_arg6 (ix2 k d) := by
  have hi : win1_3.index t 0 = 0 ∧ win1_3.index t 1 = 0 :=
    (by decide +kernel : ∀ t : Fin grid1.N, win1_3.index t (0 : Fin 2) = 0 ∧ win1_3.index t (1 : Fin 2) = 0) t
  show ((cfg1.win 3).blk t).view.read (Elt Ideal) (V c (Pipeline.arrRef spec1 3)) (ix2 k d) = _
  rw [View.read_apply]
  show V c main_arg6 _ = V c main_arg6 _
  congr 1
  funext a
  apply Fin.ext
  match a with
  | ⟨0, _⟩ => show win1_3.index t 0 * 1000 + 1 * k.val = k.val; rw [hi.1]; omega
  | ⟨1, _⟩ => show win1_3.index t 1 * 512 + 1 * d.val = d.val; rw [hi.2]; omega

/-- A tile's block of the first label column is entries 512t … 512t + 511 of the column. -/
theorem lablk1_apply (c : Dev nD) (t : Fin cfg1.N) (p : Fin 512) :
    lablk1 V c t (ix2 p (0 : Fin 1)) = V c main_v0 (ix2 (rowOf t.val p) (0 : Fin 1)) := by
  have hi : win1_4.index t 0 = t.val ∧ win1_4.index t 1 = 0 :=
    (by decide +kernel : ∀ t : Fin grid1.N, win1_4.index t (0 : Fin 2) = t.val ∧ win1_4.index t (1 : Fin 2) = 0) t
  have ht : t.val < 32 := Nat.lt_of_lt_of_eq t.isLt N_1
  show ((cfg1.win 4).blk t).view.read (Elt Ideal) (V c (Pipeline.arrRef spec1 4)) (ix2 p (0 : Fin 1)) = _
  rw [View.read_apply]
  show V c main_v0 _ = V c main_v0 _
  congr 1
  funext a
  apply Fin.ext
  match a with
  | ⟨0, _⟩ => show win1_4.index t 0 * 512 + 1 * p.val = (512 * t.val + p.val) % 16384; rw [hi.1]; omega
  | ⟨1, _⟩ => show win1_4.index t 1 * 1 + 1 * 0 = 0; rw [hi.2]

/-- Likewise the second label column. -/
theorem lnblk1_apply (c : Dev nD) (t : Fin cfg1.N) (p : Fin 512) :
    lnblk1 V c t (ix2 p (0 : Fin 1)) = V c main_v1 (ix2 (rowOf t.val p) (0 : Fin 1)) := by
  have hi : win1_5.index t 0 = t.val ∧ win1_5.index t 1 = 0 :=
    (by decide +kernel : ∀ t : Fin grid1.N, win1_5.index t (0 : Fin 2) = t.val ∧ win1_5.index t (1 : Fin 2) = 0) t
  have ht : t.val < 32 := Nat.lt_of_lt_of_eq t.isLt N_1
  show ((cfg1.win 5).blk t).view.read (Elt Ideal) (V c (Pipeline.arrRef spec1 5)) (ix2 p (0 : Fin 1)) = _
  rw [View.read_apply]
  show V c main_v1 _ = V c main_v1 _
  congr 1
  funext a
  apply Fin.ext
  match a with
  | ⟨0, _⟩ => show win1_5.index t 0 * 512 + 1 * p.val = (512 * t.val + p.val) % 16384; rw [hi.1]; omega
  | ⟨1, _⟩ => show win1_5.index t 1 * 1 + 1 * 0 = 0; rw [hi.2]

/-- A tile's row term of the center sum is the specification's term of that row among the 16384. -/
theorem tileC (c : Dev nD) (I : Cert.Spec.Inputs)
    (hA : ∀ (i : Fin 16384) (d : Fin 512), V c main_arg0 (ix2 i d) = I.A i d)
    (hN : ∀ (i : Fin 16384) (d : Fin 512), V c main_arg2 (ix2 i d) = I.N i d)
    (hE : ∀ (k : Fin 1000) (d : Fin 512), V c main_arg6 (ix2 k d) = I.E k d)
    (t : Fin cfg1.N) (p : Fin 512) :
    rowC (ablk1 V c t) (nblk1 V c t) (eblk1 V c t) (fun p => I.ka (rowOf t.val p)) (fun p => I.kn (rowOf t.val p)) p
      = Cert.Spec.centerRow I (rowOf t.val p) := by
  have eA : (fun d => ablk1 V c t (ix2 p d)) = I.A (rowOf t.val p) :=
    funext fun d => (ablk1_apply V c t p d).trans (hA _ d)
  have eN : (fun d => nblk1 V c t (ix2 p d)) = I.N (rowOf t.val p) :=
    funext fun d => (nblk1_apply V c t p d).trans (hN _ d)
  have eE : ∀ k : Fin 1000, (fun d => eblk1 V c t (ix2 k d)) = I.E k :=
    fun k => funext fun d => (eblk1_apply V c t k d).trans (hE k d)
  dsimp only [rowC, Cert.Spec.centerRow]
  rw [eA, eN, eE, eE]

/-- A tile's row term of the triplet sum is the specification's term of that row among the 16384. -/
theorem tileT (c : Dev nD) (I : Cert.Spec.Inputs)
    (hA : ∀ (i : Fin 16384) (d : Fin 512), V c main_arg0 (ix2 i d) = I.A i d)
    (hP : ∀ (i : Fin 16384) (d : Fin 512), V c main_arg1 (ix2 i d) = I.P i d)
    (hN : ∀ (i : Fin 16384) (d : Fin 512), V c main_arg2 (ix2 i d) = I.N i d)
    (t : Fin cfg1.N) (p : Fin 512) :
    rowT (ablk1 V c t) (pblk1 V c t) (nblk1 V c t) p = Cert.Spec.tripRow I (rowOf t.val p) := by
  have eA : (fun d => ablk1 V c t (ix2 p d)) = I.A (rowOf t.val p) :=
    funext fun d => (ablk1_apply V c t p d).trans (hA _ d)
  have eP : (fun d => pblk1 V c t (ix2 p d)) = I.P (rowOf t.val p) :=
    funext fun d => (pblk1_apply V c t p d).trans (hP _ d)
  have eN : (fun d => nblk1 V c t (ix2 p d)) = I.N (rowOf t.val p) :=
    funext fun d => (nblk1_apply V c t p d).trans (hN _ d)
  dsimp only [rowT, Cert.Spec.tripRow]
  rw [eA, eP, eN]

/-- The center scratch after the body at position n: the sum, over the tiles up to n and their 512 rows, of the
    specification's row terms (the zero it starts from adds nothing). By induction on the position. -/
theorem accC_apply (c : Dev nD) (I : Cert.Spec.Inputs)
    (hA : ∀ (i : Fin 16384) (d : Fin 512), V c main_arg0 (ix2 i d) = I.A i d)
    (hN : ∀ (i : Fin 16384) (d : Fin 512), V c main_arg2 (ix2 i d) = I.N i d)
    (hE : ∀ (k : Fin 1000) (d : Fin 512), V c main_arg6 (ix2 k d) = I.E k d)
    (hla : ∀ i : Fin 16384, V c main_v0 (ix2 i (0 : Fin 1)) = BitVec.ofNat 32 (I.ka i).val)
    (hln : ∀ i : Fin 16384, V c main_v1 (ix2 i (0 : Fin 1)) = BitVec.ofNat 32 (I.kn i).val) :
    ∀ (n : ℕ) (h : n < cfg1.N) (j : S1x1.Idx),
      accC V c n h j = ∑ s ∈ Finset.range (n + 1), ∑ p : Fin 512, Cert.Spec.centerRow I (rowOf s p)
  | 0, h, j => by
    rw [accC_zero, stepC_apply _ _ _ _ _ _ (fun p => I.ka (rowOf 0 p)) (fun p => I.kn (rowOf 0 p))
      (fun p => (lablk1_apply V c ⟨0, h⟩ p).trans (hla _)) (fun p => (lnblk1_apply V c ⟨0, h⟩ p).trans (hln _)) j,
      pay3_apply, zero_add, Finset.sum_range_one]
    exact Finset.sum_congr rfl fun p _ => tileC V c I hA hN hE ⟨0, h⟩ p
  | n + 1, h, j => by
    rw [accC_succ, stepC_apply _ _ _ _ _ _ (fun p => I.ka (rowOf (n + 1) p)) (fun p => I.kn (rowOf (n + 1) p))
      (fun p => (lablk1_apply V c ⟨n + 1, h⟩ p).trans (hla _)) (fun p => (lnblk1_apply V c ⟨n + 1, h⟩ p).trans (hln _)) j,
      accC_apply c I hA hN hE hla hln n (Nat.lt_of_succ_lt h) j, Finset.sum_range_succ _ (n + 1)]
    exact congrArg (_ + ·) (Finset.sum_congr rfl fun p _ => tileC V c I hA hN hE ⟨n + 1, h⟩ p)

/-- The triplet scratch after the body at position n, likewise. -/
theorem accT_apply (c : Dev nD) (I : Cert.Spec.Inputs)
    (hA : ∀ (i : Fin 16384) (d : Fin 512), V c main_arg0 (ix2 i d) = I.A i d)
    (hP : ∀ (i : Fin 16384) (d : Fin 512), V c main_arg1 (ix2 i d) = I.P i d)
    (hN : ∀ (i : Fin 16384) (d : Fin 512), V c main_arg2 (ix2 i d) = I.N i d) :
    ∀ (n : ℕ) (h : n < cfg1.N) (j : S1x1.Idx),
      accT V c n h j = ∑ s ∈ Finset.range (n + 1), ∑ p : Fin 512, Cert.Spec.tripRow I (rowOf s p)
  | 0, h, j => by
    rw [accT_zero, stepT_apply, pay4_apply, zero_add, Finset.sum_range_one]
    exact Finset.sum_congr rfl fun p _ => tileT V c I hA hP hN ⟨0, h⟩ p
  | n + 1, h, j => by
    rw [accT_succ, stepT_apply, accT_apply c I hA hP hN n (Nat.lt_of_succ_lt h) j, Finset.sum_range_succ _ (n + 1)]
    exact congrArg (_ + ·) (Finset.sum_congr rfl fun p _ => tileT V c I hA hP hN ⟨n + 1, h⟩ p)

/-- The 32 tiles of 512 rows are the 16384 rows in order: a sum over tiles and rows in a tile is the sum over all rows. -/
theorem sum_tiles (f : Fin 16384 → EReal) :
    ∑ s ∈ Finset.range 32, ∑ p : Fin 512, f (rowOf s p) = ∑ i : Fin 16384, f i := by
  rw [← Equiv.sum_comp (finProdFinEquiv : Fin 32 × Fin 512 ≃ Fin 16384) f, Fintype.sum_prod_type,
    ← Fin.sum_univ_eq_sum_range (fun s => ∑ p : Fin 512, f (rowOf s p)) 32]
  refine Finset.sum_congr rfl fun s _ => Finset.sum_congr rfl fun p _ => congrArg f (Fin.ext ?_)
  have h1 := s.isLt
  have h2 := p.isLt
  show (512 * s.val + p.val) % 16384 = p.val + 512 * s.val
  omega

/-- After the last point the first scratch holds the center terms' sum over all 16384 triples. -/
theorem accC_final (c : Dev nD) (I : Cert.Spec.Inputs)
    (hA : ∀ (i : Fin 16384) (d : Fin 512), V c main_arg0 (ix2 i d) = I.A i d)
    (hN : ∀ (i : Fin 16384) (d : Fin 512), V c main_arg2 (ix2 i d) = I.N i d)
    (hE : ∀ (k : Fin 1000) (d : Fin 512), V c main_arg6 (ix2 k d) = I.E k d)
    (hla : ∀ i : Fin 16384, V c main_v0 (ix2 i (0 : Fin 1)) = BitVec.ofNat 32 (I.ka i).val)
    (hln : ∀ i : Fin 16384, V c main_v1 (ix2 i (0 : Fin 1)) = BitVec.ofNat 32 (I.kn i).val) :
    accC (F := Ideal) V c 31 (by decide) = fun _ => Cert.Spec.center I := by
  funext j
  rw [accC_apply V c I hA hN hE hla hln 31 (by decide) j]
  exact sum_tiles (Cert.Spec.centerRow I)

/-- After the last point the second scratch holds the triplet terms' sum over all 16384 triples. -/
theorem accT_final (c : Dev nD) (I : Cert.Spec.Inputs)
    (hA : ∀ (i : Fin 16384) (d : Fin 512), V c main_arg0 (ix2 i d) = I.A i d)
    (hP : ∀ (i : Fin 16384) (d : Fin 512), V c main_arg1 (ix2 i d) = I.P i d)
    (hN : ∀ (i : Fin 16384) (d : Fin 512), V c main_arg2 (ix2 i d) = I.N i d) :
    accT (F := Ideal) V c 31 (by decide) = fun _ => Cert.Spec.triplet I := by
  funext j
  rw [accT_apply V c I hA hP hN 31 (by decide) j]
  exact sum_tiles (Cert.Spec.tripRow I)

end Cert.KernelIdeal.HandV

end
-- ==== Proof.KIValue.lean ====
/-
  The idealized kernel's four results on the extended reals. The run leaves every unscoped buffer at the host
  operations' values over what the two regions leave; region 0 leaves the selected log-probabilities' sum over all
  rows, region 1 the center terms' and the triplet terms' sums over all triples; the last host operations turn the
  first into minus its mean and add the weighted center sum and the triplet sum. Under the label-range
  precondition every label word is a column number, which is all the sums' closed forms ask.
-/
import proofs.«414664_j17102559773292_3_alg».proof.Proof.KIRun
import proofs.«414664_j17102559773292_3_alg».proof.Proof.KIHost
import proofs.«414664_j17102559773292_3_alg».proof.Proof.KIR0Value
import proofs.«414664_j17102559773292_3_alg».proof.Proof.KIR1Value
import proofs.«414664_j17102559773292_3_alg».proof.Proof.Spec

set_option maxRecDepth 16384

noncomputable section

namespace Cert.KernelIdeal.HandV

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Hand

variable (m : (ℓ : Loc nD τ sig) → Buf (Elt Ideal) ℓ)

/-- The arguments as launched, at their literal types. -/
abbrev argA (c : Dev nD) : FVec Ideal S16384x512 .f32 := m ((c : Thread nD τ).loc main_arg0)
abbrev argP (c : Dev nD) : FVec Ideal S16384x512 .f32 := m ((c : Thread nD τ).loc main_arg1)
abbrev argN (c : Dev nD) : FVec Ideal S16384x512 .f32 := m ((c : Thread nD τ).loc main_arg2)
abbrev argO (c : Dev nD) : FVec Ideal S49152x1000 .f32 := m ((c : Thread nD τ).loc main_arg3)
abbrev argE (c : Dev nD) : FVec Ideal S1000x512 .f32 := m ((c : Thread nD τ).loc main_arg6)

/-- The arguments over plain coordinates, each label word (a column number, by `h4`, `h5`) as its number. -/
def inputsOf (c : Dev nD) (h4 : ∀ i : Fin 16384, (lab4 m c (ix1 i)).toNat < 1000)
    (h5 : ∀ i : Fin 16384, (lab5 m c (ix1 i)).toNat < 1000) : Cert.Spec.Inputs where
  A i d := argA m c (ix2 i d)
  P i d := argP m c (ix2 i d)
  N i d := argN m c (ix2 i d)
  O r k := argO m c (ix2 r k)
  ka i := ⟨(lab4 m c (ix1 i)).toNat, h4 i⟩
  kn i := ⟨(lab5 m c (ix1 i)).toNat, h5 i⟩
  E k d := argE m c (ix2 k d)

/-- A word is the word of its own number. -/
theorem word_of_toNat (x : BitVec 32) : BitVec.ofNat 32 x.toNat = x := by simp

variable (c : Dev nD) (h4 : ∀ i : Fin 16384, (lab4 m c (ix1 i)).toNat < 1000)
  (h5 : ∀ i : Fin 16384, (lab5 m c (ix1 i)).toNat < 1000)

/-- Region 0 leaves the sum over all rows of the selected log-probability. -/
theorem region0_sum : outsK m 2 main_v3 c = fun _ => Cert.Spec.softSum (inputsOf m c h4 h5) := by
  rw [outsK_v3]
  refine Cert.KernelIdeal.HandV0.acc0_final (fun c b => Gen.V1 m c b) c (inputsOf m c h4 h5) (fun r k => ?_) (fun r => ?_)
  · show Gen.V1 m c main_arg3 (ix2 r k) = _
    rw [V1_arg3]; rfl
  · show Gen.V1 m c main_v2 (ix2 r (0 : Fin 1)) = _
    rw [V1_v2_apply]
    unfold Cert.Spec.lab
    split_ifs <;> exact (word_of_toNat _).symm

/-- Region 1 leaves the center terms' sum and the triplet terms' sum over all triples. -/
theorem region1_center : outsK m 4 main_v7_0 c = fun _ => Cert.Spec.center (inputsOf m c h4 h5) := by
  rw [outsK_v7_0]
  refine accC_final (fun c b => Gen.V3 m (outsK m) c b) c (inputsOf m c h4 h5) (fun i d => ?_) (fun i d => ?_) (fun k d => ?_)
    (fun i => ?_) (fun i => ?_)
  · show Gen.V3 m (outsK m) c main_arg0 (ix2 i d) = _
    rw [V3_arg0]; rfl
  · show Gen.V3 m (outsK m) c main_arg2 (ix2 i d) = _
    rw [V3_arg2]; rfl
  · show Gen.V3 m (outsK m) c main_arg6 (ix2 k d) = _
    rw [V3_arg6]; rfl
  · show Gen.V3 m (outsK m) c main_v0 (ix2 i (0 : Fin 1)) = _
    rw [V3_v0_apply]; exact (word_of_toNat _).symm
  · show Gen.V3 m (outsK m) c main_v1 (ix2 i (0 : Fin 1)) = _
    rw [V3_v1_apply]; exact (word_of_toNat _).symm

theorem region1_triplet : outsK m 4 main_v7_1 c = fun _ => Cert.Spec.triplet (inputsOf m c h4 h5) := by
  rw [outsK_v7_1]
  refine accT_final (fun c b => Gen.V3 m (outsK m) c b) c (inputsOf m c h4 h5) (fun i d => ?_) (fun i d => ?_) (fun i d => ?_)
  · show Gen.V3 m (outsK m) c main_arg0 (ix2 i d) = _
    rw [V3_arg0]; rfl
  · show Gen.V3 m (outsK m) c main_arg1 (ix2 i d) = _
    rw [V3_arg1]; rfl
  · show Gen.V3 m (outsK m) c main_arg2 (ix2 i d) = _
    rw [V3_arg2]; rfl

/-- The four results after the last host operations. -/
theorem res_soft : Gen.V5 m (outsK m) c main_v6 = fun _ => Cert.Spec.lossSoft (inputsOf m c h4 h5) := by
  rw [V5_v6, V3_v6, region0_sum m c h4 h5]
  rfl
theorem res_center : Gen.V5 m (outsK m) c main_v8 = fun _ => Cert.Spec.center (inputsOf m c h4 h5) := by
  rw [V5_v8, region1_center m c h4 h5]
  rfl
theorem res_triplet : Gen.V5 m (outsK m) c main_v9 = fun _ => Cert.Spec.triplet (inputsOf m c h4 h5) := by
  rw [V5_v9, region1_triplet m c h4 h5]
  rfl
theorem res_total : Gen.V5 m (outsK m) c main_v13 = fun _ => Cert.Spec.total (inputsOf m c h4 h5) := by
  rw [V5_v13, V3_v6, region0_sum m c h4 h5, region1_center m c h4 h5, region1_triplet m c h4 h5]
  rfl

end Cert.KernelIdeal.HandV

end
-- ==== Proof.RefRunH.lean ====
/-
  The reference program's run, stated over the stages of its reading: every execution ends with the four results at
  the stage functions of the arguments' launch contents, and the arguments unchanged. The operations are in
  single-assignment order, so the fold of their results is read one stretch at a time: a prefix of the list leaves a
  valuation, the next stretch is read over that valuation held opaque, and what a stretch reads of earlier stretches
  is named by the stage functions, never opened.
-/
import proofs.«414664_j17102559773292_3_alg».proof.Proof.RefRunP
import proofs.«414664_j17102559773292_3_alg».proof.Proof.RefReadP

noncomputable section

namespace Cert.ReferenceIdeal.RunH

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-! ## Tools -/

/-- The fold of the results over two lists in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Contents moved to a typed reference's buffer and back are the contents. -/
theorem ofBuf_toBuf {T : BufTy} (x : TRef sig T) (v : T.Contents (Elt F)) : x.ofBuf (x.toBuf v) = v := by
  obtain ⟨ref, ty_eq, a, b⟩ := x
  subst ty_eq
  rfl

/-- At a literal reference whose buffer type is the value's, moving contents to or from the buffer is the identity. -/
theorem ofBuf_c5 (v : (⟨S49152x1x1, .i32⟩ : BufTy).Contents (Elt F)) :
    (TRef.of (sig := sig) (T := ⟨S49152x1x1, .i32⟩) main_call1_v5).ofBuf v = v := rfl
theorem ofBuf_v3 (v : (⟨S49152x1000, .f32⟩ : BufTy).Contents (Elt F)) :
    (TRef.of (sig := sig) (T := ⟨S49152x1000, .f32⟩) main_v3).ofBuf v = v := rfl
theorem toBuf_v5 (v : (⟨S49152x1, .f32⟩ : BufTy).Contents (Elt F)) :
    (TRef.of (sig := sig) (T := ⟨S49152x1, .f32⟩) main_v5).toBuf v = v := rfl

/-- The one reshape of the program, read without a cast: the element types of its two buffers are the same type. -/
theorem reshape_v5 (V : Valuation τ sig (Elt F)) :
    (TRef.reshape (τ := τ) (Val := Elt F) (TRef.of (T := ⟨S49152x1, .i32⟩) main_call1_v4) (TRef.of (T := ⟨S49152x1x1, .i32⟩) main_call1_v5) rfl shapeCasts_S49152x1_S49152x1x1).result V (no_index (Proc.devRef .tc main_call1_v5))
      = shapeCast _ (V (Proc.devRef .tc main_call1_v4)) shapeCasts_S49152x1_S49152x1x1 :=
  (reshape_result _ _ _ _ _ _ V).trans rfl

/-! ## The stretches -/

/-- The stretches of the operation list: the joined labels and the log-softmax; the start indices up to the reshape;
    the guarded take and the mean; everything after the softmax loss; and, counted from the other end, the last six
    operations, which weigh the three losses. -/
abbrev opsA : List (HloOp τ sig (Elt F)) := ops.take 19
abbrev opsB : List (HloOp τ sig (Elt F)) := (ops.drop 19).take 9
abbrev opsC : List (HloOp τ sig (Elt F)) := (ops.drop 28).take 19
abbrev opsD : List (HloOp τ sig (Elt F)) := ops.drop 47
abbrev opsE : List (HloOp τ sig (Elt F)) := ops.drop 163

set_option maxRecDepth 8192 in
theorem ops_split : (ops : List (HloOp τ sig (Elt F))) = opsA ++ (opsB ++ (opsC ++ opsD)) := rfl

/-! ## The softmax loss, stretch by stretch -/

set_option maxRecDepth 8192 in
/-- After the first stretch the log-softmax's buffer holds its stage. -/
theorem stageA_v3 (V : Valuation τ sig (Elt F)) :
    after opsA V (Proc.devRef .tc main_v3) = val_main_v3 (F := F) (V (Proc.devRef .tc main_arg3)) := by
  simp only [opsA, opsB, opsC, opsD, opsE, ops, List.take_succ_cons, List.take_zero, List.drop_succ_cons, List.drop_zero]
  after_results_simp
  simp only [ofBuf_toBuf]
  rfl

set_option maxRecDepth 8192 in
/-- After the first stretch the joined labels' buffer holds its stage. -/
theorem stageA_v0 (V : Valuation τ sig (Elt F)) :
    after opsA V (Proc.devRef .tc main_v0) = val_main_v0 (F := F) (V (Proc.devRef .tc main_arg4)) (V (Proc.devRef .tc main_arg5)) := by
  simp only [opsA, opsB, opsC, opsD, opsE, ops, List.take_succ_cons, List.take_zero, List.drop_succ_cons, List.drop_zero]
  after_results_simp
  rfl

set_option maxRecDepth 8192 in
/-- The second stretch does not write the log-softmax's buffer. -/
theorem keepB_v3 (W : Valuation τ sig (Elt F)) :
    after opsB W (Proc.devRef .tc main_v3) = W (Proc.devRef .tc main_v3) := by
  simp only [opsA, opsB, opsC, opsD, opsE, ops, List.take_succ_cons, List.take_zero, List.drop_succ_cons, List.drop_zero]
  after_results_simp <;> rfl

set_option maxRecDepth 8192 in
/-- The second stretch, over any valuation that holds the joined labels: the reshaped start indices. -/
theorem stageB (W : Valuation τ sig (Elt F)) (x4 x5 : (⟨S16384, .i32⟩ : BufTy).Contents (Elt F))
    (h0 : W (Proc.devRef .tc main_v0) = val_main_v0 (F := F) x4 x5) :
    after opsB W (Proc.devRef .tc main_call1_v5) = val_main_call1_v5 (F := F) x4 x5 := by
  simp only [opsA, opsB, opsC, opsD, opsE, ops, List.take_succ_cons, List.take_zero, List.drop_succ_cons, List.drop_zero]
  simp (disch := decide) only [after_cons, after_nil,
      nullary_result', unary_result', binary_result', ternary_result', quaternary_result', reshape_v5, nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  simp only [ofBuf_toBuf, h0]
  rfl

set_option maxRecDepth 8192 in
/-- The third stretch, over any valuation that holds the start indices and the log-softmax: the softmax loss. -/
theorem stageC (W : Valuation τ sig (Elt F)) (x3 : (⟨S49152x1000, .f32⟩ : BufTy).Contents (Elt F))
    (x4 x5 : (⟨S16384, .i32⟩ : BufTy).Contents (Elt F))
    (h5 : W (Proc.devRef .tc main_call1_v5) = val_main_call1_v5 (F := F) x4 x5)
    (h3 : W (Proc.devRef .tc main_v3) = val_main_v3 (F := F) x3) :
    after opsC W (Proc.devRef .tc main_v8) = val_main_v8 (F := F) x3 x4 x5 := by
  simp only [opsA, opsB, opsC, opsD, opsE, ops, List.take_succ_cons, List.take_zero, List.drop_succ_cons, List.drop_zero]
  after_results_simp
  simp only [ofBuf_toBuf, h5, h3, ofBuf_c5, ofBuf_v3, toBuf_v5]
  rfl

set_option maxRecDepth 8192 in
set_option maxHeartbeats 4000000 in
/-- Nothing after the softmax loss writes its buffer. -/
theorem keepD_v8 (W : Valuation τ sig (Elt F)) :
    after opsD W (Proc.devRef .tc main_v8) = W (Proc.devRef .tc main_v8) := by
  simp only [opsA, opsB, opsC, opsD, opsE, ops, List.take_succ_cons, List.take_zero, List.drop_succ_cons, List.drop_zero]
  after_results_simp <;> rfl

theorem out_v8 (V : Valuation τ sig (Elt F)) :
    after ops V (Proc.devRef .tc main_v8) = val_main_v8 (F := F) (V (Proc.devRef .tc main_arg3)) (V (Proc.devRef .tc main_arg4)) (V (Proc.devRef .tc main_arg5)) := by
  rw [ops_split, after_app, after_app, after_app, keepD_v8]
  exact stageC _ _ _ _ (stageB _ _ _ (stageA_v0 V)) ((keepB_v3 _).trans (stageA_v3 V))

/-! ## The two sums over the triples, read whole -/

set_option maxRecDepth 8192 in
set_option maxHeartbeats 8000000 in
theorem out_v84 (V : Valuation τ sig (Elt F)) :
    after ops V (Proc.devRef .tc main_v84) = val_main_v84 (F := F) (V (Proc.devRef .tc main_arg0)) (V (Proc.devRef .tc main_arg1)) (V (Proc.devRef .tc main_arg2)) := by
  after_results_simp <;> rfl

set_option maxRecDepth 8192 in
set_option maxHeartbeats 8000000 in
theorem out_v83 (V : Valuation τ sig (Elt F)) :
    after ops V (Proc.devRef .tc main_v83) = val_main_v83 (F := F) (V (Proc.devRef .tc main_arg0)) (V (Proc.devRef .tc main_arg2)) (V (Proc.devRef .tc main_arg4)) (V (Proc.devRef .tc main_arg5)) (V (Proc.devRef .tc main_arg6)) := by
  after_results_simp <;> rfl

/-! ## The weighted total: the last six operations over what the rest leaves -/

set_option maxRecDepth 8192 in
theorem keepE_v8 (W : Valuation τ sig (Elt F)) :
    after opsE W (Proc.devRef .tc main_v8) = W (Proc.devRef .tc main_v8) := by
  simp only [opsA, opsB, opsC, opsD, opsE, ops, List.take_succ_cons, List.take_zero, List.drop_succ_cons, List.drop_zero]
  after_results_simp <;> rfl
set_option maxRecDepth 8192 in
theorem keepE_v83 (W : Valuation τ sig (Elt F)) :
    after opsE W (Proc.devRef .tc main_v83) = W (Proc.devRef .tc main_v83) := by
  simp only [opsA, opsB, opsC, opsD, opsE, ops, List.take_succ_cons, List.take_zero, List.drop_succ_cons, List.drop_zero]
  after_results_simp <;> rfl
set_option maxRecDepth 8192 in
theorem keepE_v84 (W : Valuation τ sig (Elt F)) :
    after opsE W (Proc.devRef .tc main_v84) = W (Proc.devRef .tc main_v84) := by
  simp only [opsA, opsB, opsC, opsD, opsE, ops, List.take_succ_cons, List.take_zero, List.drop_succ_cons, List.drop_zero]
  after_results_simp <;> rfl

set_option maxRecDepth 8192 in
/-- The last six operations, over any valuation that holds the three losses. -/
theorem stageE (W : Valuation τ sig (Elt F)) (x0 x1 x2 : (⟨S16384x512, .f32⟩ : BufTy).Contents (Elt F))
    (x3 : (⟨S49152x1000, .f32⟩ : BufTy).Contents (Elt F)) (x4 x5 : (⟨S16384, .i32⟩ : BufTy).Contents (Elt F))
    (x6 : (⟨S1000x512, .f32⟩ : BufTy).Contents (Elt F))
    (h8 : W (Proc.devRef .tc main_v8) = val_main_v8 (F := F) x3 x4 x5)
    (h83 : W (Proc.devRef .tc main_v83) = val_main_v83 (F := F) x0 x2 x4 x5 x6)
    (h84 : W (Proc.devRef .tc main_v84) = val_main_v84 (F := F) x0 x1 x2) :
    after opsE W (Proc.devRef .tc main_v88) = val_main_v88 (F := F) x0 x1 x2 x3 x4 x5 x6 := by
  simp only [opsA, opsB, opsC, opsD, opsE, ops, List.take_succ_cons, List.take_zero, List.drop_succ_cons, List.drop_zero]
  after_results_simp
  simp only [h8, h83, h84]
  rfl

theorem out_v88 (V : Valuation τ sig (Elt F)) :
    after ops V (Proc.devRef .tc main_v88) = val_main_v88 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  have cut : after ops V = after opsE (after (ops.take 163) V) := by
    rw [← after_app, List.take_append_drop]
  have h8 := out_v8 V
  have h83 := out_v83 V
  have h84 := out_v84 V
  rw [cut] at h8 h83 h84 ⊢
  rw [keepE_v8] at h8
  rw [keepE_v83] at h83
  rw [keepE_v84] at h84
  exact stageE _ _ _ _ _ _ _ _ h8 h83 h84

/-! ## The arguments are not written -/

set_option maxRecDepth 8192 in
set_option maxHeartbeats 4000000 in
theorem out_arg0 (V : Valuation τ sig (Elt F)) : after ops V (Proc.devRef .tc main_arg0) = V (Proc.devRef .tc main_arg0) := by
  after_results_simp <;> rfl

set_option maxRecDepth 8192 in
set_option maxHeartbeats 4000000 in
theorem out_arg1 (V : Valuation τ sig (Elt F)) : after ops V (Proc.devRef .tc main_arg1) = V (Proc.devRef .tc main_arg1) := by
  after_results_simp <;> rfl

set_option maxRecDepth 8192 in
set_option maxHeartbeats 4000000 in
theorem out_arg2 (V : Valuation τ sig (Elt F)) : after ops V (Proc.devRef .tc main_arg2) = V (Proc.devRef .tc main_arg2) := by
  after_results_simp <;> rfl

set_option maxRecDepth 8192 in
set_option maxHeartbeats 4000000 in
theorem out_arg3 (V : Valuation τ sig (Elt F)) : after ops V (Proc.devRef .tc main_arg3) = V (Proc.devRef .tc main_arg3) := by
  after_results_simp <;> rfl

set_option maxRecDepth 8192 in
set_option maxHeartbeats 4000000 in
theorem out_arg4 (V : Valuation τ sig (Elt F)) : after ops V (Proc.devRef .tc main_arg4) = V (Proc.devRef .tc main_arg4) := by
  after_results_simp <;> rfl

set_option maxRecDepth 8192 in
set_option maxHeartbeats 4000000 in
theorem out_arg5 (V : Valuation τ sig (Elt F)) : after ops V (Proc.devRef .tc main_arg5) = V (Proc.devRef .tc main_arg5) := by
  after_results_simp <;> rfl

set_option maxRecDepth 8192 in
set_option maxHeartbeats 4000000 in
theorem out_arg6 (V : Valuation τ sig (Elt F)) : after ops V (Proc.devRef .tc main_arg6) = V (Proc.devRef .tc main_arg6) := by
  after_results_simp <;> rfl

/-! ## The run -/

/-- On every device, for any float values, from any memory with zero counters: every weakly fair execution of
    @main terminates with each result at its stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v84) = val_main_v84 (F := F) (m ((c.tc : Thread nD τ).loc main_arg0)) (m ((c.tc : Thread nD τ).loc main_arg1)) (m ((c.tc : Thread nD τ).loc main_arg2))
      ∧ r.2.mem ((c.tc : Thread nD τ).loc main_v8) = val_main_v8 (F := F) (m ((c.tc : Thread nD τ).loc main_arg3)) (m ((c.tc : Thread nD τ).loc main_arg4)) (m ((c.tc : Thread nD τ).loc main_arg5))
      ∧ r.2.mem ((c.tc : Thread nD τ).loc main_v83) = val_main_v83 (F := F) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v88).trans (out_v88 _), (h c main_v84).trans (out_v84 _),
      (h c main_v8).trans (out_v8 _), (h c main_v83).trans (out_v83 _),
      (h c main_arg0).trans (out_arg0 _), (h c main_arg1).trans (out_arg1 _), (h c main_arg2).trans (out_arg2 _),
      (h c main_arg3).trans (out_arg3 _), (h c main_arg4).trans (out_arg4 _), (h c main_arg5).trans (out_arg5 _),
      (h c main_arg6).trans (out_arg6 _)⟩)
    (run_seq scopedRefs_eq scopedSems_eq defs main (fun _ => ops) main_eq (fun _ => ops_sub) m ρ)

end Cert.ReferenceIdeal.RunH

end
-- ==== Proof.LibRowGather.lean ====
/-
  A gather of whole rows: the operand is an N×C array, the start indices an R×1 array of words, and row `e` of the
  R×C result is the operand's row named by word `e`, read signed and clamped into `[0, N − 1]` (every start index of a
  gather is clamped so that the slice fits). This is what taking rows of a table at an integer vector lowers to.
-/
import Idealize.ShloMosaic.Lib.ValueIdx

noncomputable section

namespace Cert.Lib.RowGather

open Idealize.ShloMosaic Idealize.ShloMosaic.ValueIdx

variable {α : Type}

/-- The dimension numbers of a row gather: the result's axis 1 is the offset axis, the operand's axis 0 is collapsed
    and is the one the start index names, the index vector lies along the start indices' axis 1, slices are `1 × C`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: column `j` of the operand's row `idx[e, 0]`, the word read signed and clamped. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N C R wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowDims N C R wf).start (ix2 e j) idx 0 + (rowDims N C R wf).batchCoord (ix2 e j) 0
        + (rowDims N C R wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e j) ⟨List.idxOf (0 : Fin 2) (rowDims N C R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C R wf).start (ix2 e j) idx 1 + (rowDims N C R wf).batchCoord (ix2 e j) 1
        + (rowDims N C R wf).offCoord (ix2 e j) 1 = j.val
    rw [GatherDims.batchCoord_eq_zero _ _ _ List.not_mem_nil]
    have hs : (rowDims N C R wf).start (ix2 e j) idx 1 = 0 := by
      unfold GatherDims.start
      rw [dif_neg (show ¬ (1 : Fin 2) ∈ ([0] : List (Fin 2)) by decide)]
    have ho : (rowDims N C R wf).offCoord (ix2 e j) 1 = j.val := by
      unfold GatherDims.offCoord
      rw [dif_pos ((GatherDims.mem_sKept _ _).2
        ⟨show ¬ (1 : Fin 2) ∈ ([0] : List (Fin 2)) by decide, List.not_mem_nil⟩)]
      rfl
    rw [hs, ho]
    omega

end Cert.Lib.RowGather

end
-- ==== Proof.RefValueA.lean ====
/-
  Readings the reference's value needs and that do not depend on the program: a label word that is a column number
  is nonnegative as a signed word, so the wrap of negative indices leaves it alone, the range test passes, and the
  clamp of a gather's start index is the number itself; a take-along-axis gather (one entry per row, the row being
  the batch coordinate) read at a row; sums over rank-1 and [n, 1] index sets as sums over the coordinate; the word
  of minus infinity under a maximum; an and-fold over a unit axis.
-/
import Idealize.ShloMosaic.Lib.ValueIdx
import Idealize.ShloMosaic.Lib.Affine
import Idealize.ShloMosaic.PureOps.Ideal.Laws
import proofs.«414664_j17102559773292_3_alg».proof.Proof.Spec

noncomputable section

namespace Cert.RefLemmas

open Idealize.ShloMosaic Idealize.ShloMosaic.ValueIdx

/-! ## A column number as a 32-bit word -/

/-- Read signed, the word of a number below 1000 is that number. -/
theorem toInt_word {k : Nat} (hk : k < 1000) : (BitVec.ofNat 32 k).toInt = (k : Int) := by
  rw [BitVec.toInt_eq_toNat_cond, BitVec.toNat_ofNat]
  have h : k % 2 ^ 32 = k := Nat.mod_eq_of_lt (by omega)
  rw [h]
  split <;> omega

/-- It is not below zero, … -/
theorem slt_zero_word {k : Nat} (hk : k < 1000) : IntOp.cmpi .slt (BitVec.ofNat 32 k) 0#32 = 0#1 := by
  refine eq_zero_of_ne_one fun h => ?_
  have := IntOp.cmpi_slt.1 h
  rw [toInt_word hk] at this
  simp at this
  omega

/-- … so the wrap of a negative index by the axis's extent leaves it as it is. -/
theorem wrap_word {k : Nat} (hk : k < 1000) (e : BitVec 32) :
    Scalar.select (IntOp.cmpi .slt (BitVec.ofNat 32 k) 0#32) (IntOp.addi (BitVec.ofNat 32 k) e) (BitVec.ofNat 32 k)
      = BitVec.ofNat 32 k := by
  rw [slt_zero_word hk, select_zero]

/-- It passes the range test `0 ≤ · ≤ 999`. -/
theorem range_word {k : Nat} (hk : k < 1000) :
    IntOp.andi (IntOp.cmpi .sge (BitVec.ofNat 32 k) 0#32) (IntOp.cmpi .sle (BitVec.ofNat 32 k) 999#32) = 1#1 := by
  refine IntOp.andi_eq_one.2 ⟨IntOp.cmpi_sge.2 ?_, IntOp.cmpi_sle.2 ?_⟩
  · rw [toInt_word hk]; simp
  · rw [toInt_word hk]; simp; omega

/-- Clamped into `[0, 999]` it is itself. -/
theorem clamp_word {k : Nat} (hk : k < 1000) : min (BitVec.ofNat 32 k).toInt.toNat (1000 - 1) = k := by
  rw [toInt_word hk]
  simp
  omega

/-! ## Sums over index sets -/

/-- A rank-1 index set is its coordinate's range. -/
def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over an [n, 1] index set is the sum over the rows. -/
theorem sum_idx2_unit {M : Type*} [AddCommMonoid M] {n : Nat} (f : (⟨2, ![n, 1]⟩ : Shape).Idx → M) :
    ∑ i, f i = ∑ a : Fin n, f (ix2 a 0) := by
  rw [sum_idx2]
  refine Finset.sum_congr rfl fun a _ => ?_
  exact Fin.sum_univ_one _

/-! ## Minus infinity under a maximum -/

/-- The f32 word of minus infinity denotes the bottom extended real, so a maximum with it changes nothing. -/
theorem max_negInf (m : EReal) : max Cert.Spec.negInfW m = m := by
  have h : Cert.Spec.negInfW = (⊥ : EReal) := by simp [Ideal.ofBits, Ideal.ieee]
  rw [h]
  exact max_bot_left m

/-! ## A fold over a unit axis -/

/-- A fold over the one coordinate of a unit axis is one application. -/
theorem fold_fin_one {α : Type} (op : α → α → α) [Std.Commutative op] [Std.Associative op] (b : α) (g : Fin 1 → α) :
    (Finset.univ : Finset (Fin 1)).fold op b g = op (g 0) b := by
  rw [show (Finset.univ : Finset (Fin 1)) = {0} from rfl, Finset.fold_singleton]

/-! ## The take-along-axis gather -/

section Along
variable {α : Type}

/-- The dimension numbers of taking one entry per row of an [R, C] array at an [R, 1, 1] array of column words: the
    rows are the batch (operand axis 0 with start-indices axis 0), the column axis is collapsed and is the one the
    start index names, the index vector lies along the start indices' last axis, slices are single entries. -/
abbrev alongDims (R C : Nat)
    (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- THE GATHER READ AT ROW `r`: the operand's row `r` at the column word `idx[r, 0, 0]`, read signed and clamped. -/
theorem gather_along_apply {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (r : Fin R) :
    Host.gather (alongDims R C wf) x idx (ix2 r 0)
      = x (ix2 r ⟨min (idx (ix3 r 0 0)).toInt.toNat (C - 1), by omega⟩) := by
  unfold Host.gather
  congr 1
  funext a
  refine Fin.ext ?_
  match a with
  | ⟨0, _⟩ =>
    show (alongDims R C wf).start (ix2 r 0) idx 0 + (alongDims R C wf).batchCoord (ix2 r 0) 0
        + (alongDims R C wf).offCoord (ix2 r 0) 0 = r.val
    rw [GatherDims.start_batching _ _ _ _ (List.mem_singleton.mpr rfl),
      GatherDims.offCoord_eq_zero _ _ _ (fun h => ((GatherDims.mem_sKept _ _).mp h).2 (List.mem_singleton.mpr rfl))]
    have hb : (alongDims R C wf).batchCoord (ix2 r 0) 0 = r.val := by
      unfold GatherDims.batchCoord
      rw [dif_pos (show (0 : Fin 2) ∈ (alongDims R C wf).operandBatchingDims from List.mem_singleton.mpr rfl)]
      rfl
    rw [hb]
    omega
  | ⟨1, _⟩ =>
    show (alongDims R C wf).start (ix2 r 0) idx 1 + (alongDims R C wf).batchCoord (ix2 r 0) 1
        + (alongDims R C wf).offCoord (ix2 r 0) 1 = _
    rw [GatherDims.batchCoord_eq_zero _ _ _ (show ¬ (1 : Fin 2) ∈ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx (ix2 r 0) ⟨List.idxOf (1 : Fin 2) (alongDims R C wf).startIndexMap,
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi]
    rfl

end Along

end Cert.RefLemmas

end
-- ==== Proof.RefValue.lean ====
/-
  The reference's four results on the extended reals are the specification's: its log-softmax of each row (the row
  maximum folded from minus infinity and then met with minus infinity again, which changes nothing), the entry taken
  at the row's label (a label word that is a column number is neither wrapped nor out of range, so the guarded read is
  the plain one), minus the mean over the 49152 rows; the exemplar rows taken at the label words; the six pairwise
  distances, the thresholded gaps, the two sums over the 16384 triples; and the weighted total.
-/
import proofs.«414664_j17102559773292_3_alg».proof.Proof.RefReadP
import proofs.«414664_j17102559773292_3_alg».proof.Proof.Spec
import proofs.«414664_j17102559773292_3_alg».proof.Proof.LibRowGather
import proofs.«414664_j17102559773292_3_alg».proof.Proof.RefValueA
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.ReadP
open Cert.RefLemmas

variable (x0 x1 x2 : (⟨S16384x512, .f32⟩ : BufTy).Contents (Elt Ideal)) (x3 : (⟨S49152x1000, .f32⟩ : BufTy).Contents (Elt Ideal))
  (x4 x5 : (⟨S16384, .i32⟩ : BufTy).Contents (Elt Ideal)) (x6 : (⟨S1000x512, .f32⟩ : BufTy).Contents (Elt Ideal))
  (I : Cert.Spec.Inputs)

/-! ## The reading's composed indices, as coordinates -/

theorem idx51 (p : Fin 16384) (k : Fin 512) : idx_main_v51 (ix1 p) k = ix2 p k :=
  funext fun a => Fin.ext (by match a with | ⟨0, _⟩ => rfl | ⟨1, _⟩ => rfl)
theorem idx57 (p : Fin 16384) (k : Fin 512) : idx_main_v57 (ix1 p) k = ix2 p k :=
  funext fun a => Fin.ext (by match a with | ⟨0, _⟩ => rfl | ⟨1, _⟩ => rfl)

/-! ## The triplet term -/

/-- The anchor's distance to the positive, at a row. -/
theorem dist_ap (hA : ∀ (i : Fin 16384) (d : Fin 512), x0 (ix2 i d) = I.A i d)
    (hP : ∀ (i : Fin 16384) (d : Fin 512), x1 (ix2 i d) = I.P i d) (p : Fin 16384) :
    val_main_v52 (F := Ideal) x0 x1 (ix1 p) = Cert.Spec.pdist (I.A p) (I.P p) := by
  rw [val_main_v52_apply, val_main_v51_apply]
  simp only [idx51, val_main_v50_apply, val_main_v49_apply, val_main_v47_apply, val_main_v48_apply,
    val_main_cst_13_apply, val_main_cst_14_apply, hA, hP, Ideal.ofBits_def, Ideal.addf_def, Ideal.subf_def,
    Ideal.mulf_def, Ideal.hostUnary_sqrt_def, Ideal.ofBits_zero_f32, zero_add]
  rfl

/-- The anchor's distance to the negative, at a row. -/
theorem dist_an (hA : ∀ (i : Fin 16384) (d : Fin 512), x0 (ix2 i d) = I.A i d)
    (hN : ∀ (i : Fin 16384) (d : Fin 512), x2 (ix2 i d) = I.N i d) (p : Fin 16384) :
    val_main_v58 (F := Ideal) x0 x2 (ix1 p) = Cert.Spec.pdist (I.A p) (I.N p) := by
  rw [val_main_v58_apply, val_main_v57_apply]
  simp only [idx57, val_main_v56_apply, val_main_v55_apply, val_main_v53_apply, val_main_v54_apply,
    val_main_cst_15_apply, val_main_cst_16_apply, hA, hN, Ideal.ofBits_def, Ideal.addf_def, Ideal.subf_def,
    Ideal.mulf_def, Ideal.hostUnary_sqrt_def, Ideal.ofBits_zero_f32, zero_add]
  rfl

/-- The triplet term of a row. -/
theorem trip_row (hA : ∀ (i : Fin 16384) (d : Fin 512), x0 (ix2 i d) = I.A i d)
    (hP : ∀ (i : Fin 16384) (d : Fin 512), x1 (ix2 i d) = I.P i d)
    (hN : ∀ (i : Fin 16384) (d : Fin 512), x2 (ix2 i d) = I.N i d) (p : Fin 16384) :
    val_main_v81 (F := Ideal) x0 x1 x2 (ix1 p) = Cert.Spec.tripRow I p := by
  rw [val_main_v81_apply, val_main_v78_apply, val_main_v80_apply, val_main_v76_apply, val_main_v79_apply,
    val_main_v75_apply, val_main_v77_apply, val_main_call8_v0_apply, val_main_call9_v0_apply,
    val_main_call10_v0_apply, val_main_cst_22_apply, val_main_cst_23_apply, val_main_call8_cst_apply,
    val_main_call9_cst_apply, dist_ap x0 x1 I hA hP, dist_an x0 x2 I hA hN]
  rfl

/-- The triplet sum. -/
theorem ref_triplet
    (hA : ∀ (i : Fin 16384) (d : Fin 512), x0 (ix2 i d) = I.A i d)
    (hP : ∀ (i : Fin 16384) (d : Fin 512), x1 (ix2 i d) = I.P i d)
    (hN : ∀ (i : Fin 16384) (d : Fin 512), x2 (ix2 i d) = I.N i d) :
    val_main_v84 (F := Ideal) x0 x1 x2 = fun _ => Cert.Spec.triplet I := by
  funext i
  rw [val_main_v84_apply, sum_idx1, val_main_cst_25_apply, Ideal.ofBits_def, Ideal.ofBits_zero_f32, zero_add]
  exact Finset.sum_congr rfl fun p _ => trip_row x0 x1 x2 I hA hP hN p

/-! ## The exemplar rows taken at the label words -/

theorem idx14 (p : Fin 16384) : idx_main_v14 (ix2 p 0) = ix1 p :=
  funext fun a => Fin.ext (by match a with | ⟨0, _⟩ => rfl)
theorem idx21 (p : Fin 16384) : idx_main_v21 (ix2 p 0) = ix1 p :=
  funext fun a => Fin.ext (by match a with | ⟨0, _⟩ => rfl)

/-- The anchors' start-index column holds the label words unchanged. -/
theorem startA (hla : ∀ i : Fin 16384, x4 (ix1 i) = BitVec.ofNat 32 (I.ka i).val) (p : Fin 16384) :
    val_main_v14 (F := Ideal) x4 (ix2 p 0) = BitVec.ofNat 32 (I.ka p).val := by
  rw [val_main_v14_apply, idx14, val_main_v13_apply, val_main_v10_apply, val_main_v12_apply, val_main_v9_apply,
    val_main_c_apply, hla]
  exact wrap_word (I.ka p).isLt _

/-- The negatives' start-index column holds the label words unchanged. -/
theorem startN (hln : ∀ i : Fin 16384, x5 (ix1 i) = BitVec.ofNat 32 (I.kn i).val) (p : Fin 16384) :
    val_main_v21 (F := Ideal) x5 (ix2 p 0) = BitVec.ofNat 32 (I.kn p).val := by
  rw [val_main_v21_apply, idx21, val_main_v20_apply, val_main_v17_apply, val_main_v19_apply, val_main_v16_apply,
    val_main_c_3_apply, hln]
  exact wrap_word (I.kn p).isLt _

/-- The row gathered at the anchor's label is that label's exemplar. -/
theorem exA (hla : ∀ i : Fin 16384, x4 (ix1 i) = BitVec.ofNat 32 (I.ka i).val)
    (hE : ∀ (k : Fin 1000) (d : Fin 512), x6 (ix2 k d) = I.E k d) (p : Fin 16384) (d : Fin 512) :
    val_main_v15 (F := Ideal) x4 x6 (ix2 p d) = I.E (I.ka p) d := by
  unfold val_main_v15
  refine (Cert.Lib.RowGather.gather_rows_apply (N := 1000) (C := 512) (R := 16384) (by decide)
    gather_S1000x512_S16384x1_S16384x512_1_0_n_n_0_1_1512_wf x6 (val_main_v14 (F := Ideal) x4) p d).trans ?_
  refine (congrArg (fun q : Fin 1000 => x6 (ix2 q d)) (Fin.ext ?_)).trans (hE (I.ka p) d)
  show min (val_main_v14 (F := Ideal) x4 (ix2 p 0)).toInt.toNat (1000 - 1) = (I.ka p).val
  rw [startA x4 I hla]
  exact clamp_word (I.ka p).isLt

/-- The row gathered at the negative's label is that label's exemplar. -/
theorem exN (hln : ∀ i : Fin 16384, x5 (ix1 i) = BitVec.ofNat 32 (I.kn i).val)
    (hE : ∀ (k : Fin 1000) (d : Fin 512), x6 (ix2 k d) = I.E k d) (p : Fin 16384) (d : Fin 512) :
    val_main_v22 (F := Ideal) x5 x6 (ix2 p d) = I.E (I.kn p) d := by
  unfold val_main_v22
  refine (Cert.Lib.RowGather.gather_rows_apply (N := 1000) (C := 512) (R := 16384) (by decide)
    gather_S1000x512_S16384x1_S16384x512_1_0_n_n_0_1_1512_wf x6 (val_main_v21 (F := Ideal) x5) p d).trans ?_
  refine (congrArg (fun q : Fin 1000 => x6 (ix2 q d)) (Fin.ext ?_)).trans (hE (I.kn p) d)
  show min (val_main_v21 (F := Ideal) x5 (ix2 p 0)).toInt.toNat (1000 - 1) = (I.kn p).val
  rw [startN x5 I hln]
  exact clamp_word (I.kn p).isLt

/-! ## The four distances to exemplar rows -/

theorem idx27 (p : Fin 16384) (k : Fin 512) : idx_main_v27 (ix1 p) k = ix2 p k :=
  funext fun a => Fin.ext (by match a with | ⟨0, _⟩ => rfl | ⟨1, _⟩ => rfl)
theorem idx33 (p : Fin 16384) (k : Fin 512) : idx_main_v33 (ix1 p) k = ix2 p k :=
  funext fun a => Fin.ext (by match a with | ⟨0, _⟩ => rfl | ⟨1, _⟩ => rfl)
theorem idx39 (p : Fin 16384) (k : Fin 512) : idx_main_v39 (ix1 p) k = ix2 p k :=
  funext fun a => Fin.ext (by match a with | ⟨0, _⟩ => rfl | ⟨1, _⟩ => rfl)
theorem idx45 (p : Fin 16384) (k : Fin 512) : idx_main_v45 (ix1 p) k = ix2 p k :=
  funext fun a => Fin.ext (by match a with | ⟨0, _⟩ => rfl | ⟨1, _⟩ => rfl)

/-- The anchor's distance to its own label's exemplar. -/
theorem dist_a_ea (hA : ∀ (i : Fin 16384) (d : Fin 512), x0 (ix2 i d) = I.A i d)
    (hla : ∀ i : Fin 16384, x4 (ix1 i) = BitVec.ofNat 32 (I.ka i).val)
    (hE : ∀ (k : Fin 1000) (d : Fin 512), x6 (ix2 k d) = I.E k d) (p : Fin 16384) :
    val_main_v28 (F := Ideal) x0 x4 x6 (ix1 p) = Cert.Spec.pdist (I.A p) (I.E (I.ka p)) := by
  rw [val_main_v28_apply, val_main_v27_apply]
  simp only [idx27, val_main_v26_apply, val_main_v25_apply, val_main_v23_apply, val_main_v24_apply,
    val_main_cst_5_apply, val_main_cst_6_apply, hA, exA x4 x6 I hla hE, Ideal.ofBits_def, Ideal.addf_def,
    Ideal.subf_def, Ideal.mulf_def, Ideal.hostUnary_sqrt_def, Ideal.ofBits_zero_f32, zero_add]
  rfl

/-- The negative's distance to the anchor's label's exemplar. -/
theorem dist_n_ea (hN : ∀ (i : Fin 16384) (d : Fin 512), x2 (ix2 i d) = I.N i d)
    (hla : ∀ i : Fin 16384, x4 (ix1 i) = BitVec.ofNat 32 (I.ka i).val)
    (hE : ∀ (k : Fin 1000) (d : Fin 512), x6 (ix2 k d) = I.E k d) (p : Fin 16384) :
    val_main_v34 (F := Ideal) x2 x4 x6 (ix1 p) = Cert.Spec.pdist (I.N p) (I.E (I.ka p)) := by
  rw [val_main_v34_apply, val_main_v33_apply]
  simp only [idx33, val_main_v32_apply, val_main_v31_apply, val_main_v29_apply, val_main_v30_apply,
    val_main_cst_7_apply, val_main_cst_8_apply, hN, exA x4 x6 I hla hE, Ideal.ofBits_def, Ideal.addf_def,
    Ideal.subf_def, Ideal.mulf_def, Ideal.hostUnary_sqrt_def, Ideal.ofBits_zero_f32, zero_add]
  rfl

/-- The anchor's distance to the negative's label's exemplar. -/
theorem dist_a_en (hA : ∀ (i : Fin 16384) (d : Fin 512), x0 (ix2 i d) = I.A i d)
    (hln : ∀ i : Fin 16384, x5 (ix1 i) = BitVec.ofNat 32 (I.kn i).val)
    (hE : ∀ (k : Fin 1000) (d : Fin 512), x6 (ix2 k d) = I.E k d) (p : Fin 16384) :
    val_main_v40 (F := Ideal) x0 x5 x6 (ix1 p) = Cert.Spec.pdist (I.A p) (I.E (I.kn p)) := by
  rw [val_main_v40_apply, val_main_v39_apply]
  simp only [idx39, val_main_v38_apply, val_main_v37_apply, val_main_v35_apply, val_main_v36_apply,
    val_main_cst_9_apply, val_main_cst_10_apply, hA, exN x5 x6 I hln hE, Ideal.ofBits_def, Ideal.addf_def,
    Ideal.subf_def, Ideal.mulf_def, Ideal.hostUnary_sqrt_def, Ideal.ofBits_zero_f32, zero_add]
  rfl

/-- The negative's distance to its own label's exemplar. -/
theorem dist_n_en (hN : ∀ (i : Fin 16384) (d : Fin 512), x2 (ix2 i d) = I.N i d)
    (hln : ∀ i : Fin 16384, x5 (ix1 i) = BitVec.ofNat 32 (I.kn i).val)
    (hE : ∀ (k : Fin 1000) (d : Fin 512), x6 (ix2 k d) = I.E k d) (p : Fin 16384) :
    val_main_v46 (F := Ideal) x2 x5 x6 (ix1 p) = Cert.Spec.pdist (I.N p) (I.E (I.kn p)) := by
  rw [val_main_v46_apply, val_main_v45_apply]
  simp only [idx45, val_main_v44_apply, val_main_v43_apply, val_main_v41_apply, val_main_v42_apply,
    val_main_cst_11_apply, val_main_cst_12_apply, hN, exN x5 x6 I hln hE, Ideal.ofBits_def, Ideal.addf_def,
    Ideal.subf_def, Ideal.mulf_def, Ideal.hostUnary_sqrt_def, Ideal.ofBits_zero_f32, zero_add]
  rfl

/-! ## The center term -/

/-- The center term of a row. -/
theorem center_row (hA : ∀ (i : Fin 16384) (d : Fin 512), x0 (ix2 i d) = I.A i d)
    (hN : ∀ (i : Fin 16384) (d : Fin 512), x2 (ix2 i d) = I.N i d)
    (hla : ∀ i : Fin 16384, x4 (ix1 i) = BitVec.ofNat 32 (I.ka i).val)
    (hln : ∀ i : Fin 16384, x5 (ix1 i) = BitVec.ofNat 32 (I.kn i).val)
    (hE : ∀ (k : Fin 1000) (d : Fin 512), x6 (ix2 k d) = I.E k d) (p : Fin 16384) :
    val_main_v82 (F := Ideal) x0 x2 x4 x5 x6 (ix1 p) = Cert.Spec.centerRow I p := by
  rw [val_main_v82_apply, val_main_v67_apply, val_main_v74_apply, val_main_v62_apply, val_main_v66_apply,
    val_main_v71_apply, val_main_v73_apply, val_main_v60_apply, val_main_v65_apply, val_main_v69_apply,
    val_main_v72_apply, val_main_v59_apply, val_main_v63_apply, val_main_v68_apply, val_main_v61_apply,
    val_main_v64_apply, val_main_v70_apply, val_main_call2_v0_apply, val_main_call3_v0_apply,
    val_main_call4_v0_apply, val_main_call5_v0_apply, val_main_call6_v0_apply, val_main_call7_v0_apply,
    val_main_cst_17_apply, val_main_cst_18_apply, val_main_cst_19_apply, val_main_cst_20_apply,
    val_main_cst_21_apply, val_main_call2_cst_apply, val_main_call3_cst_apply, val_main_call5_cst_apply,
    val_main_call6_cst_apply, dist_a_ea x0 x4 x6 I hA hla hE, dist_n_ea x2 x4 x6 I hN hla hE,
    dist_a_en x0 x5 x6 I hA hln hE, dist_n_en x2 x5 x6 I hN hln hE]
  rfl

/-- The center sum. -/
theorem ref_center
    (hA : ∀ (i : Fin 16384) (d : Fin 512), x0 (ix2 i d) = I.A i d)
    (hN : ∀ (i : Fin 16384) (d : Fin 512), x2 (ix2 i d) = I.N i d)
    (hla : ∀ i : Fin 16384, x4 (ix1 i) = BitVec.ofNat 32 (I.ka i).val)
    (hln : ∀ i : Fin 16384, x5 (ix1 i) = BitVec.ofNat 32 (I.kn i).val)
    (hE : ∀ (k : Fin 1000) (d : Fin 512), x6 (ix2 k d) = I.E k d) :
    val_main_v83 (F := Ideal) x0 x2 x4 x5 x6 = fun _ => Cert.Spec.center I := by
  funext i
  rw [val_main_v83_apply, sum_idx1, val_main_cst_24_apply, Ideal.ofBits_def, Ideal.ofBits_zero_f32, zero_add]
  exact Finset.sum_congr rfl fun p _ => center_row x0 x2 x4 x5 x6 I hA hN hla hln hE p

/-! ## The labels of the 49152 rows -/

/-- The joined label array at row `r` holds the word of that row's label. -/
theorem lab_word (hla : ∀ i : Fin 16384, x4 (ix1 i) = BitVec.ofNat 32 (I.ka i).val)
    (hln : ∀ i : Fin 16384, x5 (ix1 i) = BitVec.ofNat 32 (I.kn i).val) (r : Fin 49152) :
    val_main_v0 (F := Ideal) x4 x5 (ix1 r) = BitVec.ofNat 32 (Cert.Spec.lab I r).val := by
  unfold val_main_v0 Cert.Spec.lab
  let pieces : List ((s : Shape) × (s.Idx → BitVec 32)) := [⟨S16384, x4⟩, ⟨S16384, x4⟩, ⟨S16384, x5⟩]
  by_cases h1 : r.val < 16384
  · rw [dif_pos h1]
    exact (concatenate_apply_piece (0 : Fin S49152.rank) pieces concatenates_S16384_S16384_S16384_S49152_d0 (ix1 r) 0
      (show 0 < 3 by omega) S16384 x4 rfl rfl 0 rfl (ix1 ⟨r.val, h1⟩) (fun b hb => (hb (Subsingleton.elim _ _)).elim)
      (Nat.zero_add _)).trans (hla _)
  · rw [dif_neg h1]
    by_cases h2 : r.val < 32768
    · rw [dif_pos h2]
      exact (concatenate_apply_piece (0 : Fin S49152.rank) pieces concatenates_S16384_S16384_S16384_S49152_d0 (ix1 r) 1
        (show 1 < 3 by omega) S16384 x4 rfl rfl 16384 rfl (ix1 ⟨r.val - 16384, by omega⟩)
        (fun b hb => (hb (Subsingleton.elim _ _)).elim)
        (by show 16384 + (r.val - 16384) = r.val; omega)).trans (hla _)
    · rw [dif_neg h2]
      exact (concatenate_apply_piece (0 : Fin S49152.rank) pieces concatenates_S16384_S16384_S16384_S49152_d0 (ix1 r) 2
        (show 2 < 3 by omega) S16384 x5 rfl rfl 32768 rfl (ix1 ⟨r.val - 32768, by have := r.isLt; omega⟩)
        (fun b hb => (hb (Subsingleton.elim _ _)).elim)
        (by show 32768 + (r.val - 32768) = r.val; omega)).trans (hln _)

theorem idx4 (r : Fin 49152) : idx_main_v4 (ix2 r 0) = ix1 r :=
  funext fun a => Fin.ext (by match a with | ⟨0, _⟩ => rfl)
theorem idxc5 (r : Fin 49152) : idx_main_call1_v5 (ix3 r 0 0) = ix2 r 0 :=
  funext fun a => Fin.ext (by
    match a with
    | ⟨0, _⟩ => show ((r.val * 1 + 0) * 1 + 0) / 1 = r.val; omega
    | ⟨1, _⟩ => rfl)

/-- The start index of row `r`'s take is the label word unchanged. -/
theorem start_soft (hla : ∀ i : Fin 16384, x4 (ix1 i) = BitVec.ofNat 32 (I.ka i).val)
    (hln : ∀ i : Fin 16384, x5 (ix1 i) = BitVec.ofNat 32 (I.kn i).val) (r : Fin 49152) :
    val_main_call1_v5 (F := Ideal) x4 x5 (ix3 r 0 0) = BitVec.ofNat 32 (Cert.Spec.lab I r).val := by
  rw [val_main_call1_v5_apply, idxc5, val_main_call1_v4_apply, val_main_call1_v1_apply, val_main_call1_v3_apply,
    val_main_call1_v0_apply, val_main_call1_c_apply, val_main_v4_apply, idx4, lab_word x4 x5 I hla hln]
  exact wrap_word (Cert.Spec.lab I r).isLt _

/-- The range test of row `r`'s start index passes. -/
theorem in_range (hla : ∀ i : Fin 16384, x4 (ix1 i) = BitVec.ofNat 32 (I.ka i).val)
    (hln : ∀ i : Fin 16384, x5 (ix1 i) = BitVec.ofNat 32 (I.kn i).val) (r : Fin 49152) :
    val_main_call1_v12 (F := Ideal) x4 x5 (ix2 r 0) = 1#1 := by
  unfold val_main_call1_v12
  have hred : S49152x1x1.Reduces [2] S49152x1 := by decide
  refine (Host.reduce_eq_fold_single IntOp.andi _ _ reducesTo_S49152x1x1_S49152x1_d2 hred h_S_ (ix2 r 0)).trans ?_
  refine (fold_fin_one IntOp.andi _ _).trans ?_
  have hl : hred.lift (ix2 r 0) (0 : Fin 1) = ix3 r 0 0 :=
    funext fun a => Fin.ext (by match a with | ⟨0, _⟩ => rfl | ⟨1, _⟩ => rfl | ⟨2, _⟩ => rfl)
  show IntOp.andi (val_main_call1_v11 (F := Ideal) x4 x5 (hred.lift (ix2 r 0) (0 : Fin 1)))
    (val_main_call1_c_3 (F := Ideal) (Shape.Idx.first h_S_)) = 1#1
  rw [hl, val_main_call1_c_3_apply, val_main_call1_v11_apply, val_main_call1_v7_apply, val_main_call1_v10_apply,
    val_main_call1_v6_apply, val_main_call1_c_2_apply, val_main_call1_v9_apply, val_main_call1_v8_apply,
    val_main_call1_c_1_apply, start_soft x4 x5 I hla hln, range_word (Cert.Spec.lab I r).isLt]
  rfl

/-! ## The log-softmax -/

theorem idxc03 (r : Fin 49152) : idx_main_call0_v3 (ix2 r 0) = ix1 r :=
  funext fun a => Fin.ext (by match a with | ⟨0, _⟩ => rfl)
theorem idxc04 (r : Fin 49152) (k : Fin 1000) : idx_main_call0_v4 (ix2 r k) = ix2 r 0 :=
  funext fun a => Fin.ext (by match a with | ⟨0, _⟩ => rfl | ⟨1, _⟩ => rfl)
theorem idxc07 (r : Fin 49152) (k : Fin 1000) : idx_main_call0_v7 (ix1 r) k = ix2 r k :=
  funext fun a => Fin.ext (by match a with | ⟨0, _⟩ => rfl | ⟨1, _⟩ => rfl)
theorem idxc08 (r : Fin 49152) : idx_main_call0_v8 (ix2 r 0) = ix1 r :=
  funext fun a => Fin.ext (by match a with | ⟨0, _⟩ => rfl)
theorem idxc010 (r : Fin 49152) (k : Fin 1000) : idx_main_call0_v10 (ix2 r k) = ix2 r 0 :=
  funext fun a => Fin.ext (by match a with | ⟨0, _⟩ => rfl | ⟨1, _⟩ => rfl)

/-- The scaled logit: the reference multiplies by the word of one on the left. -/
theorem scaled (hO : ∀ (r : Fin 49152) (k : Fin 1000), x3 (ix2 r k) = I.O r k) (r : Fin 49152) (k : Fin 1000) :
    val_main_v2 (F := Ideal) x3 (ix2 r k) = I.O r k * Cert.Spec.oneW := by
  rw [val_main_v2_apply, val_main_v1_apply, val_main_cst_apply, hO, Ideal.mulf_def, Ideal.ofBits_def]
  exact mul_comm _ _

/-- The row maximum: folded from minus infinity, then met with minus infinity once more. -/
theorem row_max (hO : ∀ (r : Fin 49152) (k : Fin 1000), x3 (ix2 r k) = I.O r k) (r : Fin 49152) :
    val_main_call0_v2 (F := Ideal) x3 (ix1 r) = Cert.Spec.rowMax (fun k => I.O r k * Cert.Spec.oneW) := by
  rw [val_main_call0_v2_apply, val_main_call0_v1_apply, val_main_call0_cst_0_apply, Ideal.maximumf_def,
    Ideal.ofBits_def, max_negInf]
  unfold val_main_call0_v0
  have hred : S49152x1000.Reduces [1] S49152 := by decide
  refine (Host.reduce_eq_fold_single FloatOps.maximumf _ _ reducesTo_S49152x1000_S49152_d1 hred h_S_ (ix1 r)).trans ?_
  have hf : (val_main_v2 (F := Ideal) x3 ∘ hred.lift (ix1 r)) = fun k : Fin 1000 => I.O r k * Cert.Spec.oneW := by
    funext k
    have hl : hred.lift (ix1 r) k = ix2 r k :=
      funext fun a => Fin.ext (by match a with | ⟨0, _⟩ => rfl | ⟨1, _⟩ => rfl)
    show val_main_v2 (F := Ideal) x3 (hred.lift (ix1 r) k) = _
    rw [hl]
    exact scaled x3 I hO r k
  rw [hf]
  rfl

/-- The log-softmax of row `r` at column `k`. -/
theorem lsm_read (hO : ∀ (r : Fin 49152) (k : Fin 1000), x3 (ix2 r k) = I.O r k) (r : Fin 49152) (k : Fin 1000) :
    val_main_v3 (F := Ideal) x3 (ix2 r k) = Cert.Spec.lsm (fun k => I.O r k * Cert.Spec.oneW) k := by
  have hshift : ∀ k' : Fin 1000, val_main_call0_v5 (F := Ideal) x3 (ix2 r k')
      = I.O r k' * Cert.Spec.oneW - Cert.Spec.rowMax (fun k => I.O r k * Cert.Spec.oneW) := fun k' => by
    rw [val_main_call0_v5_apply, val_main_call0_v4_apply, idxc04, val_main_call0_v3_apply, idxc03,
      row_max x3 I hO, scaled x3 I hO]
    rfl
  rw [val_main_v3_apply, val_main_call0_v10_apply, idxc010, val_main_call0_v9_apply, val_main_call0_v8_apply,
    idxc08, val_main_call0_v7_apply, val_main_call0_cst_1_apply]
  simp only [idxc07, val_main_call0_v6_apply, hshift, Ideal.ofBits_def, Ideal.ofBits_zero_f32, zero_add,
    Ideal.subf_def, Ideal.hostUnary_exp_def, Ideal.hostUnary_log_def]
  rfl

/-! ## The softmax loss -/

/-- The entry taken from row `r` is the log-softmax at the row's label. -/
theorem taken (hla : ∀ i : Fin 16384, x4 (ix1 i) = BitVec.ofNat 32 (I.ka i).val)
    (hln : ∀ i : Fin 16384, x5 (ix1 i) = BitVec.ofNat 32 (I.kn i).val) (r : Fin 49152) :
    val_main_call1_v13 (F := Ideal) x3 x4 x5 (ix2 r 0)
      = val_main_v3 (F := Ideal) x3 (ix2 r (Cert.Spec.lab I r)) := by
  unfold val_main_call1_v13
  refine (gather_along_apply (R := 49152) (C := 1000) (by decide)
    gather_S49152x1000_S49152x1x1_S49152x1_n_1_0_0_1_2_11_wf (val_main_v3 (F := Ideal) x3)
    (val_main_call1_v5 (F := Ideal) x4 x5) r).trans ?_
  refine congrArg (fun q : Fin 1000 => val_main_v3 (F := Ideal) x3 (ix2 r q)) (Fin.ext ?_)
  show min (val_main_call1_v5 (F := Ideal) x4 x5 (ix3 r 0 0)).toInt.toNat (1000 - 1) = (Cert.Spec.lab I r).val
  rw [start_soft x4 x5 I hla hln]
  exact clamp_word (Cert.Spec.lab I r).isLt

/-- The guarded take of row `r` is the row's selected log-probability. -/
theorem soft_row (hO : ∀ (r : Fin 49152) (k : Fin 1000), x3 (ix2 r k) = I.O r k)
    (hla : ∀ i : Fin 16384, x4 (ix1 i) = BitVec.ofNat 32 (I.ka i).val)
    (hln : ∀ i : Fin 16384, x5 (ix1 i) = BitVec.ofNat 32 (I.kn i).val) (r : Fin 49152) :
    val_main_v5 (F := Ideal) x3 x4 x5 (ix2 r 0) = Cert.Spec.softRow I r := by
  rw [val_main_v5_apply, in_range x4 x5 I hla hln, select_one, taken x3 x4 x5 I hla hln]
  exact lsm_read x3 I hO r (Cert.Spec.lab I r)

/-- The softmax loss. -/
theorem ref_soft
    (hO : ∀ (r : Fin 49152) (k : Fin 1000), x3 (ix2 r k) = I.O r k)
    (hla : ∀ i : Fin 16384, x4 (ix1 i) = BitVec.ofNat 32 (I.ka i).val)
    (hln : ∀ i : Fin 16384, x5 (ix1 i) = BitVec.ofNat 32 (I.kn i).val) :
    val_main_v8 (F := Ideal) x3 x4 x5 = fun _ => Cert.Spec.lossSoft I := by
  funext i
  have hs : ∑ a : Fin 49152, val_main_v5 (F := Ideal) x3 x4 x5 (ix2 a 0) = Cert.Spec.softSum I :=
    Finset.sum_congr rfl fun r _ => soft_row x3 x4 x5 I hO hla hln r
  rw [val_main_v8_apply, val_main_v7_apply, val_main_v6_apply, sum_idx2_unit, hs, val_main_cst_0_apply,
    val_main_cst_1_apply]
  simp only [Ideal.ofBits_def, Ideal.ofBits_zero_f32, zero_add, Ideal.hostNegf_def, Ideal.negf_def,
    Ideal.hostDivf_def]
  rfl

/-! ## The weighted total -/

/-- The weighted total. -/
theorem ref_total
    (hA : ∀ (i : Fin 16384) (d : Fin 512), x0 (ix2 i d) = I.A i d)
    (hP : ∀ (i : Fin 16384) (d : Fin 512), x1 (ix2 i d) = I.P i d)
    (hN : ∀ (i : Fin 16384) (d : Fin 512), x2 (ix2 i d) = I.N i d)
    (hO : ∀ (r : Fin 49152) (k : Fin 1000), x3 (ix2 r k) = I.O r k)
    (hla : ∀ i : Fin 16384, x4 (ix1 i) = BitVec.ofNat 32 (I.ka i).val)
    (hln : ∀ i : Fin 16384, x5 (ix1 i) = BitVec.ofNat 32 (I.kn i).val)
    (hE : ∀ (k : Fin 1000) (d : Fin 512), x6 (ix2 k d) = I.E k d) :
    val_main_v88 (F := Ideal) x0 x1 x2 x3 x4 x5 x6 = fun _ => Cert.Spec.total I := by
  funext i
  rw [val_main_v88_apply, val_main_v86_apply, val_main_v87_apply, val_main_v85_apply, val_main_cst_26_apply,
    val_main_cst_27_apply, ref_soft x3 x4 x5 I hO hla hln, ref_center x0 x2 x4 x5 x6 I hA hN hla hln hE,
    ref_triplet x0 x1 x2 I hA hP hN]
  rfl

end Cert.ReferenceIdeal.RefValue

end
-- ==== Proof.PreFacts.lean ====
/-
  What the precondition says of the two label arrays: each of their 16384 words is at least 0 and less than 1000 as a
  signed number, hence — read unsigned — a column number below 1000. The precondition is a conjunction of nine
  whole-array tests; the last four are the signed comparisons of every label word with 0 and with 1000.
-/
import proofs.«414664_j17102559773292_3_alg».proof.Pre_finite_inputs
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx
open Cert.Pre_finite_inputs

variable {F : FTy → Type} [FloatOps F] [Cert.Pre_finite_inputs.Facts]

/-- A 32-bit word that is, read signed, at least 0 and less than 1000 is, read unsigned, below 1000: a signed value
    that is not negative has its top bit clear, so the two readings agree. -/
theorem word_lt_1000 (x : BitVec 32) (h0 : IntOp.cmpi .sge x 0#32 = 1#1) (h1 : IntOp.cmpi .slt x 1000#32 = 1#1) :
    x.toNat < 1000 := by
  rw [IntOp.cmpi_sge, show (0#32 : BitVec 32).toInt = 0 from by decide] at h0
  rw [IntOp.cmpi_slt, show (1000#32 : BitVec 32).toInt = 1000 from by decide] at h1
  rw [BitVec.toInt_eq_toNat_cond] at h0 h1
  split at h0 <;> omega

/-- The rank-0 shape has exactly one index (the empty tuple). -/
theorem subsingleton_scalar_idx : Subsingleton S_.Idx := ⟨fun a b => funext fun d => d.elim0⟩

/-- Under the precondition every label word, read unsigned, is below 1000. -/
theorem labels_in_range (a0 a1 a2 : FVec F S16384x512 .f32) (a3 : FVec F S49152x1000 .f32)
    (l4 l5 : IVec S16384 32) (a6 : FVec F S1000x512 .f32)
    (h : Cert.Pre_finite_inputs.fn (F := F) a0 a1 a2 a3 l4 l5 a6 = fun _ => 1#1) :
    (∀ i : Fin 16384, (l4 (ix1 i)).toNat < 1000) ∧ (∀ i : Fin 16384, (l5 (ix1 i)).toNat < 1000) := by
  haveI : Subsingleton S_.Idx := subsingleton_scalar_idx
  -- the precondition at its one index: a nine-fold conjunction, associated to the left
  have h0 := congrFun h ValueIdx.ix0
  dsimp only [fn, fn_part1, fn_part2] at h0
  -- peel the last four conjuncts off; each says an all-reduction by "and" of a comparison mask is 1
  obtain ⟨h0, e4⟩ := IntOp.andi_eq_one.1 h0
  obtain ⟨h0, e3⟩ := IntOp.andi_eq_one.1 h0
  obtain ⟨h0, e2⟩ := IntOp.andi_eq_one.1 h0
  obtain ⟨h0, e1⟩ := IntOp.andi_eq_one.1 h0
  clear h0
  -- an all-reduction that is 1 has a 1 at every position; at position i the mask compares the label word with the
  -- broadcast constant (0, then 1000), which is that constant at every position
  exact ⟨fun i => word_lt_1000 (l4 (ix1 i)) (Host.reduce_andi_all _ _ _ _ _ e1 (ix1 i)) (Host.reduce_andi_all _ _ _ _ _ e2 (ix1 i)),
    fun i => word_lt_1000 (l5 (ix1 i)) (Host.reduce_andi_all _ _ _ _ _ e3 (ix1 i)) (Host.reduce_andi_all _ _ _ _ _ e4 (ix1 i))⟩

end Cert.PreFacts

end
-- ==== Proof.lean ====
/-
  A loss made of three parts over 16384 triples of 512-vectors, 49152 rows of 1000 logits and a table of 1000
  exemplar rows: minus the mean of each row's log-softmax entry at the row's label; the sum over the triples of two
  thresholded gaps between distances to the labelled exemplar rows; the sum over the triples of the thresholded gap
  between the anchor's distances to its positive and to its negative.

  The kernel streams the logits in 48 tiles of 1024 rows, selecting each row's entry by multiplying the row of
  log-probabilities with the indicator of the label word and summing, and keeps the running sum in a (1,1) scratch;
  it streams the triples in 32 tiles of 512, takes the labelled exemplar rows as the product of the indicator rows
  with the table, and keeps the two running sums likewise. The reference reads the entries and the rows directly. For a
  label word that is a column number the indicator sum is the entry read (every other term is a product with zero), the
  tiles' sums are the whole sums regrouped, and the last host operations are the same on both sides: so the four results
  agree on the extended reals. The precondition, beside finiteness, says every label word is at least 0 and less than
  1000: outside it the reference wraps a negative word or answers a not-a-number, while the indicator is identically
  zero.

  Each program's frame: the two-region program runs to the end with its arguments untouched (both regions carry their
  running sums in scratch across grid points and publish them at the last point); the reference is its run with the
  results forgotten. The idealization rewrote nothing, so nothing is owed for it.
-/
import proofs.«414664_j17102559773292_3_alg».proof.Defs
import proofs.«414664_j17102559773292_3_alg».proof.Proof.Gen.Kernel
import proofs.«414664_j17102559773292_3_alg».proof.Proof.Gen.KernelIdeal
import proofs.«414664_j17102559773292_3_alg».proof.Proof.Gen.ReferenceIdeal
import proofs.«414664_j17102559773292_3_alg».proof.Proof.Gen.Pre_finite_inputs
import proofs.«414664_j17102559773292_3_alg».proof.Proof.KBRun
import proofs.«414664_j17102559773292_3_alg».proof.Proof.KIRun
import proofs.«414664_j17102559773292_3_alg».proof.Proof.KIValue
import proofs.«414664_j17102559773292_3_alg».proof.Proof.RefRunH
import proofs.«414664_j17102559773292_3_alg».proof.Proof.RefValue
import proofs.«414664_j17102559773292_3_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level program runs to the end, its arguments untouched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference's frame is its run with the four results forgotten. -/
theorem frame_ri : Cert.frame_ReferenceIdeal := fun m ρ _ =>
  (θ_run Cert.ReferenceIdeal.defs _ _).mono (fun _ h c => (h c).2.2.2.2)
    (Cert.ReferenceIdeal.RunH.run (F := Ideal) m ρ)

/-- The ideal pass rewrote no operation. -/
theorem preserves : Cert.preserves_Kernel_KernelIdeal := trivial

open Cert.KernelIdeal.HandV in
/-- On every device both programs end with the specification's total, triplet sum, softmax loss and center sum of the
    arguments, the label words read as column numbers. -/
theorem algebraic : Cert.algebraic_KernelIdeal_ReferenceIdeal := by
  intro m ρ m' ρ' hpre hagree
  have hlab : ∀ c : Dev Cert.KernelIdeal.nD,
      (∀ i : Fin 16384, (lab4 m c (ix1 i)).toNat < 1000) ∧ (∀ i : Fin 16384, (lab5 m c (ix1 i)).toNat < 1000) :=
    fun c => Cert.PreFacts.labels_in_range _ _ _ _ _ _ _ (hpre c)
  refine ⟨fun c => fun _ => Cert.Spec.total (inputsOf m c (hlab c).1 (hlab c).2),
    fun c => fun _ => Cert.Spec.triplet (inputsOf m c (hlab c).1 (hlab c).2),
    fun c => fun _ => Cert.Spec.lossSoft (inputsOf m c (hlab c).1 (hlab c).2),
    fun c => fun _ => Cert.Spec.center (inputsOf m c (hlab c).1 (hlab c).2), ?_, ?_⟩
  · exact (θ_run Cert.KernelIdeal.defs _ _).mono (fun r h c =>
      ⟨(h c _ (Cert.KernelIdeal.Hand.mem_uc Cert.KernelIdeal.main_v13 (by decide))).trans (res_total m c _ _),
       (h c _ (Cert.KernelIdeal.Hand.mem_uc Cert.KernelIdeal.main_v9 (by decide))).trans (res_triplet m c _ _),
       (h c _ (Cert.KernelIdeal.Hand.mem_uc Cert.KernelIdeal.main_v6 (by decide))).trans (res_soft m c _ _),
       (h c _ (Cert.KernelIdeal.Hand.mem_uc Cert.KernelIdeal.main_v8 (by decide))).trans (res_center m c _ _),
       (h c _ (Cert.KernelIdeal.Hand.mem_uc Cert.KernelIdeal.main_arg0 (by decide))).trans (Cert.KernelIdeal.Gen.V5_main_arg0 m _ c),
       (h c _ (Cert.KernelIdeal.Hand.mem_uc Cert.KernelIdeal.main_arg1 (by decide))).trans (Cert.KernelIdeal.Gen.V5_main_arg1 m _ c),
       (h c _ (Cert.KernelIdeal.Hand.mem_uc Cert.KernelIdeal.main_arg2 (by decide))).trans (Cert.KernelIdeal.Gen.V5_main_arg2 m _ c),
       (h c _ (Cert.KernelIdeal.Hand.mem_uc Cert.KernelIdeal.main_arg3 (by decide))).trans (Cert.KernelIdeal.Gen.V5_main_arg3 m _ c),
       (h c _ (Cert.KernelIdeal.Hand.mem_uc Cert.KernelIdeal.main_arg4 (by decide))).trans (Cert.KernelIdeal.Gen.V5_main_arg4 m _ c),
       (h c _ (Cert.KernelIdeal.Hand.mem_uc Cert.KernelIdeal.main_arg5 (by decide))).trans (Cert.KernelIdeal.Gen.V5_main_arg5 m _ c),
       (h c _ (Cert.KernelIdeal.Hand.mem_uc Cert.KernelIdeal.main_arg6 (by decide))).trans (Cert.KernelIdeal.Gen.V5_main_arg6 m _ c)⟩)
      (Cert.KernelIdeal.Hand.run_all m ρ)
  · refine (θ_run Cert.ReferenceIdeal.defs _ _).mono (fun r h c => ?_) (Cert.ReferenceIdeal.RunH.run (F := Ideal) m' ρ')
    obtain ⟨e0, e1, e2, e3, e4, e5, e6⟩ := hagree c
    have hA : ∀ (i : Fin 16384) (d : Fin 512), m' ((c.tc : Thread Cert.ReferenceIdeal.nD Cert.ReferenceIdeal.τ).loc Cert.ReferenceIdeal.main_arg0) (ix2 i d) = (inputsOf m c (hlab c).1 (hlab c).2).A i d :=
      fun i d => congrFun e0 (ix2 i d)
    have hP : ∀ (i : Fin 16384) (d : Fin 512), m' ((c.tc : Thread Cert.ReferenceIdeal.nD Cert.ReferenceIdeal.τ).loc Cert.ReferenceIdeal.main_arg1) (ix2 i d) = (inputsOf m c (hlab c).1 (hlab c).2).P i d :=
      fun i d => congrFun e1 (ix2 i d)
    have hN : ∀ (i : Fin 16384) (d : Fin 512), m' ((c.tc : Thread Cert.ReferenceIdeal.nD Cert.ReferenceIdeal.τ).loc Cert.ReferenceIdeal.main_arg2) (ix2 i d) = (inputsOf m c (hlab c).1 (hlab c).2).N i d :=
      fun i d => congrFun e2 (ix2 i d)
    have hO : ∀ (r : Fin 49152) (k : Fin 1000), m' ((c.tc : Thread Cert.ReferenceIdeal.nD Cert.ReferenceIdeal.τ).loc Cert.ReferenceIdeal.main_arg3) (ix2 r k) = (inputsOf m c (hlab c).1 (hlab c).2).O r k :=
      fun r k => congrFun e3 (ix2 r k)
    have hla : ∀ i : Fin 16384, m' ((c.tc : Thread Cert.ReferenceIdeal.nD Cert.ReferenceIdeal.τ).loc Cert.ReferenceIdeal.main_arg4) (ix1 i) = BitVec.ofNat 32 ((inputsOf m c (hlab c).1 (hlab c).2).ka i).val :=
      fun i => (congrFun e4 (ix1 i)).trans (word_of_toNat _).symm
    have hln : ∀ i : Fin 16384, m' ((c.tc : Thread Cert.ReferenceIdeal.nD Cert.ReferenceIdeal.τ).loc Cert.ReferenceIdeal.main_arg5) (ix1 i) = BitVec.ofNat 32 ((inputsOf m c (hlab c).1 (hlab c).2).kn i).val :=
      fun i => (congrFun e5 (ix1 i)).trans (word_of_toNat _).symm
    have hE : ∀ (k : Fin 1000) (d : Fin 512), m' ((c.tc : Thread Cert.ReferenceIdeal.nD Cert.ReferenceIdeal.τ).loc Cert.ReferenceIdeal.main_arg6) (ix2 k d) = (inputsOf m c (hlab c).1 (hlab c).2).E k d :=
      fun k d => congrFun e6 (ix2 k d)
    exact ⟨(h c).1.trans (Cert.ReferenceIdeal.RefValue.ref_total _ _ _ _ _ _ _ _ hA hP hN hO hla hln hE),
      (h c).2.1.trans (Cert.ReferenceIdeal.RefValue.ref_triplet _ _ _ _ hA hP hN),
      (h c).2.2.1.trans (Cert.ReferenceIdeal.RefValue.ref_soft _ _ _ _ hO hla hln),
      (h c).2.2.2.1.trans (Cert.ReferenceIdeal.RefValue.ref_center _ _ _ _ _ _ hA hN hla hln hE),
      (h c).2.2.2.2⟩

/-- The certificate. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
